-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S4x256x1024 : Shape := ⟨3, ![4, 256, 1024]⟩
abbrev S4x256 : Shape := ⟨2, ![4, 256]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S4x256x1024 : S_.BroadcastsInDim S4x256x1024 (![] : Fin 0 → Fin S4x256x1024.rank)
  reducesTo_S4x256x1024_S_d0_1_2 : S4x256x1024.ReducesTo [0, 1, 2] S_
  bcast_S_S4x256 : S_.BroadcastsInDim S4x256 (![] : Fin 0 → Fin S4x256.rank)
  reducesTo_S4x256_S_d0_1 : S4x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S4x256 .f32) (main_arg5 : FVec F S4x256x1024 .f32) (main_arg6 : FVec F S4x256 .f32) (main_arg7 : FVec F S1024x1024 .f32) (main_arg8 : FVec F S1024 .f32) (main_v13 : IVec S_ 1) (main_v16 : IVec S4x256x1024 1) : IVec S_ 1 :=
  let main_c_5 : IVec S_ 1 := constantI S_ 1 1#1
  let main_v17 : IVec S_ 1 := (fun x v => Host.reduce IntOp.andi x v reducesTo_S4x256x1024_S_d0_1_2 h_S_) main_v16 main_c_5
  let main_v18 : IVec S_ 1 := andi main_v13 main_v17
  let main_v19 : FVec F S4x256 .f32 := Host.absf main_arg4
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4x256x1024 .f32 := Host.absf main_arg5
  let main_cst_8 : FVec F S_ .f32 := constant S_ .f32 0x7F800000#32
  let main_v25 : FVec F S4x256x1024 .f32 := broadcastInDim S4x256x1024 ![] bcast_S_S4x256x1024 main_cst_8
  let main_v26 : IVec S4x256x1024 1 := cmpf .olt main_v24 main_v25
  let main_c_9 : IVec S_ 1 := constantI S_ 1 1#1
  let main_v27 : IVec S_ 1 := (fun x v => Host.reduce IntOp.andi x v reducesTo_S4x256x1024_S_d0_1_2 h_S_) main_v26 main_c_9
  let main_v28 : IVec S_ 1 := andi main_v23 main_v27
  let main_v29 : FVec F S4x256 .f32 := Host.absf main_arg6
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S4x256x1024 .f32) (main_arg2 : FVec F S4x256 .f32) (main_arg3 : FVec F S4x256x1024 .f32) (main_arg4 : FVec F S4x256 .f32) (main_arg5 : FVec F S4x256x1024 .f32) (main_arg6 : FVec F S4x256 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S4x256x1024 .f32 := Host.absf main_arg1
  let main_cst_0 : FVec F S_ .f32 := constant S_ .f32 0x7F800000#32
  let main_v5 : FVec F S4x256x1024 .f32 := broadcastInDim S4x256x1024 ![] bcast_S_S4x256x1024 main_cst_0
  let main_v6 : IVec S4x256x1024 1 := cmpf .olt main_v4 main_v5
  let main_c_1 : IVec S_ 1 := constantI S_ 1 1#1
  let main_v7 : IVec S_ 1 := (fun x v => Host.reduce IntOp.andi x v reducesTo_S4x256x1024_S_d0_1_2 h_S_) main_v6 main_c_1
  let main_v8 : IVec S_ 1 := andi main_v3 main_v7
  let main_v9 : FVec F S4x256 .f32 := Host.absf main_arg2
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  let main_v14 : FVec F S4x256x1024 .f32 := Host.absf main_arg3
  let main_cst_4 : FVec F S_ .f32 := constant S_ .f32 0x7F800000#32
  let main_v15 : FVec F S4x256x1024 .f32 := broadcastInDim S4x256x1024 ![] bcast_S_S4x256x1024 main_cst_4
  let main_v16 : IVec S4x256x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S4x256x1024 : Shape := ⟨3, ![4, 256, 1024]⟩
abbrev S4x256 : Shape := ⟨2, ![4, 256]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S8x2x2048x128 : Shape := ⟨4, ![8, 2, 2048, 128]⟩
abbrev S1x512x1024 : Shape := ⟨3, ![1, 512, 1024]⟩
abbrev S8x1x512x128 : Shape := ⟨4, ![8, 1, 512, 128]⟩
abbrev S512x1024 : Shape := ⟨2, ![512, 1024]⟩
abbrev S512x3072 : Shape := ⟨2, ![512, 3072]⟩
abbrev S1x3072 : Shape := ⟨2, ![1, 3072]⟩
abbrev S512x8x128 : Shape := ⟨3, ![512, 8, 128]⟩
abbrev S8x512x128 : Shape := ⟨3, ![8, 512, 128]⟩
abbrev S1x1x256x128 : Shape := ⟨4, ![1, 1, 256, 128]⟩
abbrev S1x1x2048x128 : Shape := ⟨4, ![1, 1, 2048, 128]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x1x256x64 : Shape := ⟨4, ![1, 1, 256, 64]⟩
abbrev S1x1024 : Shape := ⟨2, ![1, 1024]⟩

abbrev nBuf : Space → Nat
  | .hbm => 24
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S4x256x1024, .f32⟩
  | .hbm, ⟨2, _⟩ => ⟨S4x256, .f32⟩
  | .hbm, ⟨3, _⟩ => ⟨S4x256x1024, .f32⟩
  | .hbm, ⟨4, _⟩ => ⟨S4x256, .f32⟩
  | .hbm, ⟨5, _⟩ => ⟨S4x256x1024, .f32⟩
  | .hbm, ⟨6, _⟩ => ⟨S4x256, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S3072x1024, .f32⟩
  | .hbm, ⟨13, _⟩ => ⟨S3072x1024, .bf16⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S3072, .f32⟩
  | .hbm, ⟨18, _⟩ => ⟨S1024x1024, .bf16⟩
  | .hbm, ⟨19, _⟩ => ⟨S8x2x2048x128, .bf16⟩
  | .hbm, ⟨20, _⟩ => ⟨S8x2x2048x128, .bf16⟩
  | .hbm, ⟨21, _⟩ => ⟨S8x2x2048x128, .bf16⟩
  | .hbm, ⟨22, _⟩ => ⟨S8x2x2048x128, .bf16⟩
  | .hbm, ⟨23, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S3072x1024, .bf16⟩
  | .local _ .vmem, ⟨3, _⟩ => ⟨S3072, .f32⟩
  | .local _ .vmem, ⟨4, _⟩ => ⟨S8x1x512x128, .bf16⟩
  | .local _ .vmem, ⟨5, _⟩ => ⟨S8x1x512x128, .bf16⟩
  | .local _ .vmem, ⟨6, _⟩ => ⟨S8x1x512x128, .bf16⟩
  | .local _ .vmem, ⟨7, _⟩ => ⟨S8x1x512x128, .bf16⟩
  | .local _ .vmem, ⟨8, _⟩ => ⟨S8x1x512x128, .bf16⟩
  | .local _ .vmem, ⟨9, _⟩ => ⟨S8x1x512x128, .bf16⟩
  | .local _ .vmem, ⟨10, _⟩ => ⟨S1x1x256x128, .bf16⟩
  | .local _ .vmem, ⟨11, _⟩ => ⟨S1x1x256x128, .bf16⟩
  | .local _ .vmem, ⟨12, _⟩ => ⟨S1x1x2048x128, .bf16⟩
  | .local _ .vmem, ⟨13, _⟩ => ⟨S1x1x2048x128, .bf16⟩
  | .local _ .vmem, ⟨14, _⟩ => ⟨S1x1x2048x128, .bf16⟩
  | .local _ .vmem, ⟨15, _⟩ => ⟨S1x1x2048x128, .bf16⟩
  | .local _ .vmem, ⟨16, _⟩ => ⟨S1x1x256x128, .bf16⟩
  | .local _ .vmem, ⟨17, _⟩ => ⟨S1x1x256x128, .bf16⟩
  | .local _ .vmem, ⟨18, _⟩ => ⟨S8x1x512x128, .bf16⟩
  | .local _ .vmem, ⟨19, _⟩ => ⟨S8x1x512x128, .bf16⟩
  | .local _ .vmem, ⟨20, _⟩ => ⟨S1024x1024, .bf16⟩
  | .local _ .vmem, ⟨21, _⟩ => ⟨S1024, .f32⟩
  | .local _ .vmem, ⟨22, _⟩ => ⟨S1x512x1024, .f32⟩
  | .local _ .vmem, ⟨23, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![8, 2, 8], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![2, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S8x1x512x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4x256x1024_S1024x1024 : S4x256x1024.ShapeCasts S1024x1024
  concatenates_S1024x1024_S1024x1024_S1024x1024_S3072x1024_d0 : Shape.Concatenates [S1024x1024, S1024x1024, S1024x1024] S3072x1024 0
  bitsLt_bf16_f32 : FTy.bits .bf16 < FTy.bits .f32
  shapeCasts_S4x256_S1024 : S4x256.ShapeCasts S1024
  concatenates_S1024_S1024_S1024_S3072_d0 : Shape.Concatenates [S1024, S1024, S1024] S3072 0
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  slices_S512x3072_o0_0_S512x1024 : S512x3072.Slices ![0, 0] S512x1024
  shapeCasts_S512x1024_S512x8x128 : S512x1024.ShapeCasts S512x8x128
  transposes_S512x8x128_p1_0_2_S8x512x128 : S512x8x128.Transposes [1, 0, 2] S8x512x128
  inb_S8x1x512x128_S8x1x512x128_0_0_0_0 : ∀ a, (![0, 0, 0, 0] : Fin 4 → Nat) a + S8x1x512x128.size a ≤ S8x1x512x128.size a
  h_S8x1x512x128 : 0 < S8x1x512x128.numel
  shapeCasts_S8x1x512x128_S8x512x128 : S8x1x512x128.ShapeCasts S8x512x128
  shapeCasts_S8x512x128_S8x1x512x128 : S8x512x128.ShapeCasts S8x1x512x128
  packedbf16_S8x1x512x128_S8x1x512x128_0_0_0_0 : (Rect.unit (s := S8x1x512x128) ![0, 0, 0, 0] S8x1x512x128.size inb_S8x1x512x128_S8x1x512x128_0_0_0_0).PackedRows (EltTy.packing .bf16)
  slices_S512x3072_o0_1024_S512x1024 : S512x3072.Slices ![0, 1024] S512x1024
  slices_S512x3072_o0_2048_S512x1024 : S512x3072.Slices ![0, 2048] S512x1024
  inb_S1x1x256x128_S1x1x256x128_0_0_0_0 : ∀ a, (![0, 0, 0, 0] : Fin 4 → Nat) a + S1x1x256x128.size a ≤ S1x1x256x128.size a
  h_S1x1x256x128 : 0 < S1x1x256x128.numel
  shapeCasts_S1x1x256x128_S256x128 : S1x1x256x128.ShapeCasts S256x128
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  slices_S256x128_o0_0_S256x64 : S256x128.Slices ![0, 0] S256x64
  slices_S256x128_o0_64_S256x64 : S256x128.Slices ![0, 64] S256x64
  slices_S2048x128_o0_0_S2048x64 : S2048x128.Slices ![0, 0] S2048x64
  slices_S2048x128_o0_64_S2048x64 : S2048x128.Slices ![0, 64] S2048x64
  reduces_S256x2048_S256 : S256x2048.Reduces [1] S256
  shapeCasts_S256_S256x1 : S256.ShapeCasts S256x1
  broadcasts_S256x1_S256x2048 : S256x1.Broadcasts S256x2048
  inb_S1x1x256x128_S1x1x256x64_0_0_0_0 : ∀ a, (![0, 0, 0, 0] : Fin 4 → Nat) a + S1x1x256x64.size a ≤ S1x1x256x128.size a
  h_S1x1x256x64 : 0 < S1x1x256x64.numel
  shapeCasts_S1x1x256x64_S256x64 : S1x1x256x64.ShapeCasts S256x64
  shapeCasts_S256x64_S1x1x256x64 : S256x64.ShapeCasts S1x1x256x64
  packedbf16_S1x1x256x128_S1x1x256x64_0_0_0_0 : (Rect.unit (s := S1x1x256x128) ![0, 0, 0, 0] S1x1x256x64.size inb_S1x1x256x128_S1x1x256x64_0_0_0_0).PackedRows (EltTy.packing .bf16)
  inb_S1x1x256x128_S1x1x256x64_0_0_0_64 : ∀ a, (![0, 0, 0, 64] : Fin 4 → Nat) a + S1x1x256x64.size a ≤ S1x1x256x128.size a
  packedbf16_S1x1x256x128_S1x1x256x64_0_0_0_64 : (Rect.unit (s := S1x1x256x128) ![0, 0, 0, 64] S1x1x256x64.size inb_S1x1x256x128_S1x1x256x64_0_0_0_64).PackedRows (EltTy.packing .bf16)
  transposes_S8x512x128_p1_0_2_S512x8x128 : S8x512x128.Transposes [1, 0, 2] S512x8x128
  shapeCasts_S512x8x128_S512x1024 : S512x8x128.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  dot_S512x1024_S3072x1024_S512x3072_1_1_0_0_n_n_wf : DotDims.WF S512x1024 S3072x1024 S512x3072 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1x512x128.size a ≤ S8x2x2048x128.size a
  hwx0_3 : ∀ i : grid0.Coords, EltTy.bits .bf16 = 32 ∨ (Rect.block (s := S8x2x2048x128) S8x1x512x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1x512x128.size a ≤ S8x2x2048x128.size a
  hwx0_4 : ∀ i : grid0.Coords, EltTy.bits .bf16 = 32 ∨ (Rect.block (s := S8x2x2048x128) S8x1x512x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1x512x128.size a ≤ S8x2x2048x128.size a
  hwx0_5 : ∀ i : grid0.Coords, EltTy.bits .bf16 = 32 ∨ (Rect.block (s := S8x2x2048x128) S8x1x512x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x256x128.size a ≤ S8x2x2048x128.size a
  hwx1_0 : ∀ i : grid1.Coords, EltTy.bits .bf16 = 32 ∨ (Rect.block (s := S8x2x2048x128) S1x1x256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x128.size a ≤ S8x2x2048x128.size a
  hwx1_1 : ∀ i : grid1.Coords, EltTy.bits .bf16 = 32 ∨ (Rect.block (s := S8x2x2048x128) S1x1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x128.size a ≤ S8x2x2048x128.size a
  hwx1_2 : ∀ i : grid1.Coords, EltTy.bits .bf16 = 32 ∨ (Rect.block (s := S8x2x2048x128) S1x1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x256x128.size a ≤ S8x2x2048x128.size a
  hwx1_3 : ∀ i : grid1.Coords, EltTy.bits .bf16 = 32 ∨ (Rect.block (s := S8x2x2048x128) S1x1x256x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x1x512x128.size a ≤ S8x2x2048x128.size a
  hwx2_0 : ∀ i : grid2.Coords, EltTy.bits .bf16 = 32 ∨ (Rect.block (s := S8x2x2048x128) S8x1x512x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S2x2048x1024.size a
  hwx2_3 : ∀ i : grid2.Coords, EltTy.bits .f32 = 32 ∨ (Rect.block (s := S2x2048x1024) S1x512x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S8x1x512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S8x1x512x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_2) S8x1x512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v10_0) S1x1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_1) S1x1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10_2) S1x1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1x256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S8x1x512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S4x256x1024 : Shape := ⟨3, ![4, 256, 1024]⟩
abbrev S4x256 : Shape := ⟨2, ![4, 256]⟩
abbrev S1024x1024 : Shape := ⟨2, ![1024, 1024]⟩
abbrev S1024 : Shape := ⟨1, ![1024]⟩
abbrev S4x256x2x2048 : Shape := ⟨4, ![4, 256, 2, 2048]⟩
abbrev S2x4x2048x256 : Shape := ⟨4, ![2, 4, 2048, 256]⟩
abbrev S1x4x1x256 : Shape := ⟨4, ![1, 4, 1, 256]⟩
abbrev S2x4x2048x4x64 : Shape := ⟨5, ![2, 4, 2048, 4, 64]⟩
abbrev S2x4x4x2048x64 : Shape := ⟨5, ![2, 4, 4, 2048, 64]⟩
abbrev S2x4x4x2048x2048 : Shape := ⟨5, ![2, 4, 4, 2048, 2048]⟩
abbrev S_ : Shape := ⟨0, ![]⟩
abbrev S2x4x4x2048 : Shape := ⟨4, ![2, 4, 4, 2048]⟩
abbrev S2x4x4x2048x1 : Shape := ⟨5, ![2, 4, 4, 2048, 1]⟩
abbrev S2x2048x4x4x64 : Shape := ⟨5, ![2, 2048, 4, 4, 64]⟩
abbrev S1x1x1024 : Shape := ⟨3, ![1, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S4x256x1024, .f32⟩
  | .hbm, ⟨2, _⟩ => ⟨S4x256, .f32⟩
  | .hbm, ⟨3, _⟩ => ⟨S4x256x1024, .f32⟩
  | .hbm, ⟨4, _⟩ => ⟨S4x256, .f32⟩
  | .hbm, ⟨5, _⟩ => ⟨S4x256x1024, .f32⟩
  | .hbm, ⟨6, _⟩ => ⟨S4x256, .f32⟩
  | .hbm, ⟨7, _⟩ => ⟨S1024x1024, .f32⟩
  | .hbm, ⟨8, _⟩ => ⟨S1024, .f32⟩
  | .hbm, ⟨9, _⟩ => ⟨S4x256x2x2048, .f32⟩
  | .hbm, ⟨10, _⟩ => ⟨S2x4x2048x256, .f32⟩
  | .hbm, ⟨11, _⟩ => ⟨S1x4x1x256, .f32⟩
  | .hbm, ⟨12, _⟩ => ⟨S2x4x2048x256, .f32⟩
  | .hbm, ⟨13, _⟩ => ⟨S2x4x2048x256, .f32⟩
  | .hbm, ⟨14, _⟩ => ⟨S2x4x2048x4x64, .f32⟩
  | .hbm, ⟨15, _⟩ => ⟨S2x4x4x2048x64, .f32⟩
  | .hbm, ⟨16, _⟩ => ⟨S4x256x2x2048, .f32⟩
  | .hbm, ⟨17, _⟩ => ⟨S2x4x2048x256, .f32⟩
  | .hbm, ⟨18, _⟩ => ⟨S1x4x1x256, .f32⟩
  | .hbm, ⟨19, _⟩ => ⟨S2x4x2048x256, .f32⟩
  | .hbm, ⟨20, _⟩ => ⟨S2x4x2048x256, .f32⟩
  | .hbm, ⟨21, _⟩ => ⟨S2x4x2048x4x64, .f32⟩
  | .hbm, ⟨22, _⟩ => ⟨S2x4x4x2048x64, .f32⟩
  | .hbm, ⟨23, _⟩ => ⟨S4x256x2x2048, .f32⟩
  | .hbm, ⟨24, _⟩ => ⟨S2x4x2048x256, .f32⟩
  | .hbm, ⟨25, _⟩ => ⟨S1x4x1x256, .f32⟩
  | .hbm, ⟨26, _⟩ => ⟨S2x4x2048x256, .f32⟩
  | .hbm, ⟨27, _⟩ => ⟨S2x4x2048x256, .f32⟩
  | .hbm, ⟨28, _⟩ => ⟨S2x4x2048x4x64, .f32⟩
  | .hbm, ⟨29, _⟩ => ⟨S2x4x4x2048x64, .f32⟩
  | .hbm, ⟨30, _⟩ => ⟨S2x4x4x2048x2048, .f32⟩
  | .hbm, ⟨31, _⟩ => ⟨S_, .f32⟩
  | .hbm, ⟨32, _⟩ => ⟨S2x4x4x2048x2048, .f32⟩
  | .hbm, ⟨33, _⟩ => ⟨S2x4x4x2048x2048, .f32⟩
  | .hbm, ⟨34, _⟩ => ⟨S_, .f32⟩
  | .hbm, ⟨35, _⟩ => ⟨S2x4x4x2048, .f32⟩
  | .hbm, ⟨36, _⟩ => ⟨S_, .f32⟩
  | .hbm, ⟨37, _⟩ => ⟨S2x4x4x2048, .f32⟩
  | .hbm, ⟨38, _⟩ => ⟨S2x4x4x2048, .f32⟩
  | .hbm, ⟨39, _⟩ => ⟨S2x4x4x2048x1, .f32⟩
  | .hbm, ⟨40, _⟩ => ⟨S2x4x4x2048x2048, .f32⟩
  | .hbm, ⟨41, _⟩ => ⟨S2x4x4x2048x2048, .f32⟩
  | .hbm, ⟨42, _⟩ => ⟨S2x4x4x2048x2048, .f32⟩
  | .hbm, ⟨43, _⟩ => ⟨S_, .f32⟩
  | .hbm, ⟨44, _⟩ => ⟨S2x4x4x2048, .f32⟩
  | .hbm, ⟨45, _⟩ => ⟨S2x4x4x2048x1, .f32⟩
  | .hbm, ⟨46, _⟩ => ⟨S2x4x4x2048x2048, .f32⟩
  | .hbm, ⟨47, _⟩ => ⟨S2x4x4x2048x2048, .f32⟩
  | .hbm, ⟨48, _⟩ => ⟨S2x4x4x2048x64, .f32⟩
  | .hbm, ⟨49, _⟩ => ⟨S2x2048x4x4x64, .f32⟩
  | .hbm, ⟨50, _⟩ => ⟨S2x2048x1024, .f32⟩
  | .hbm, ⟨51, _⟩ => ⟨S2x2048x1024, .f32⟩
  | .hbm, ⟨52, _⟩ => ⟨S1x1x1024, .f32⟩
  | .hbm, ⟨53, _⟩ => ⟨S2x2048x1024, .f32⟩
  | .hbm, ⟨54, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]

class Facts₀ : Prop where
  transposes_S4x256x2x2048_S2x4x2048x256_2_0_3_1 : S4x256x2x2048.Transposes [2, 0, 3, 1] S2x4x2048x256
  bcast_S4x256_S1x4x1x256_1_3 : S4x256.BroadcastsInDim S1x4x1x256 (![1, 3] : Fin 2 → Fin S1x4x1x256.rank)
  bcast_S1x4x1x256_S2x4x2048x256_0_1_2_3 : S1x4x1x256.BroadcastsInDim S2x4x2048x256 (![0, 1, 2, 3] : Fin 4 → Fin S2x4x2048x256.rank)
  shapeCasts_S2x4x2048x256_S2x4x2048x4x64 : S2x4x2048x256.ShapeCasts S2x4x2048x4x64
  transposes_S2x4x2048x4x64_S2x4x4x2048x64_0_1_3_2_4 : S2x4x2048x4x64.Transposes [0, 1, 3, 2, 4] S2x4x4x2048x64
  bcast_S_S2x4x4x2048x2048 : S_.BroadcastsInDim S2x4x4x2048x2048 (![] : Fin 0 → Fin S2x4x4x2048x2048.rank)
  reducesTo_S2x4x4x2048x2048_S2x4x4x2048_d4 : S2x4x4x2048x2048.ReducesTo [4] S2x4x4x2048
  h_S_ : 0 < S_.numel
  bcast_S_S2x4x4x2048 : S_.BroadcastsInDim S2x4x4x2048 (![] : Fin 0 → Fin S2x4x4x2048.rank)
  bcast_S2x4x4x2048_S2x4x4x2048x1_0_1_2_3 : S2x4x4x2048.BroadcastsInDim S2x4x4x2048x1 (![0, 1, 2, 3] : Fin 4 → Fin S2x4x4x2048x1.rank)
  bcast_S2x4x4x2048x1_S2x4x4x2048x2048_0_1_2_3_4 : S2x4x4x2048x1.BroadcastsInDim S2x4x4x2048x2048 (![0, 1, 2, 3, 4] : Fin 5 → Fin S2x4x4x2048x2048.rank)
  transposes_S2x4x4x2048x64_S2x2048x4x4x64_0_3_1_2_4 : S2x4x4x2048x64.Transposes [0, 3, 1, 2, 4] S2x2048x4x4x64
  shapeCasts_S2x2048x4x4x64_S2x2048x1024 : S2x2048x4x4x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S4x256x1024_S2x2048x1024_S4x256x2x2048_2_2_01_01_n_n_wf : DotDims.WF S4x256x1024 S2x2048x1024 S4x256x2x2048 [2] [2] [0, 1] [0, 1] [] []
  dot_S2x4x4x2048x64_S2x4x4x2048x64_S2x4x4x2048x2048_4_4_3_3_012_012_wf : DotDims.WF S2x4x4x2048x64 S2x4x4x2048x64 S2x4x4x2048x2048 [4] [4] [3] [3] [0, 1, 2] [0, 1, 2]
  dot_S2x4x4x2048x2048_S2x4x4x2048x64_S2x4x4x2048x64_4_3_3_4_012_012_wf : DotDims.WF S2x4x4x2048x2048 S2x4x4x2048x64 S2x4x4x2048x64 [4] [3] [3] [4] [0, 1, 2] [0, 1, 2]
  dot_S2x2048x1024_S1024x1024_S2x2048x1024_2_1_01_0_n_n_wf : DotDims.WF S2x2048x1024 S1024x1024 S2x2048x1024 [2] [1] [0, 1] [0] [] []

variable [Facts₀]

def dot_S4x256x1024_S2x2048x1024_S4x256x2x2048_2_2_01_01_n_n : DotDims S4x256x1024 S2x2048x1024 S4x256x2x2048 where
  lhsContracting := [2]
  rhsContracting := [2]
  lhsNonContracting := [0, 1]
  rhsNonContracting := [0, 1]
  lhsBatch := []
  rhsBatch := []
  wf := dot_S4x256x1024_S2x2048x1024_S4x256x2x2048_2_2_01_01_n_n_wf
def dot_S2x4x4x2048x64_S2x4x4x2048x64_S2x4x4x2048x2048_4_4_3_3_012_012 : DotDims S2x4x4x2048x64 S2x4x4x2048x64 S2x4x4x2048x2048 where
  lhsContracting := [4]
  rhsContracting := [4]
  lhsNonContracting := [3]
  rhsNonContracting := [3]
  lhsBatch := [0, 1, 2]
  rhsBatch := [0, 1, 2]
  wf := dot_S2x4x4x2048x64_S2x4x4x2048x64_S2x4x4x2048x2048_4_4_3_3_012_012_wf
def dot_S2x4x4x2048x2048_S2x4x4x2048x64_S2x4x4x2048x64_4_3_3_4_012_012 : DotDims S2x4x4x2048x2048 S2x4x4x2048x64 S2x4x4x2048x64 where
  lhsContracting := [4]
  rhsContracting := [3]
  lhsNonContracting := [3]
  rhsNonContracting := [4]
  lhsBatch := [0, 1, 2]
  rhsBatch := [0, 1, 2]
  wf := dot_S2x4x4x2048x2048_S2x4x4x2048x64_S2x4x4x2048x64_4_3_3_4_012_012_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.KB.Region0.lean ====
/-
  The projection region: at each (batch, row tile) a 512-token block times the fused [3072, 1024] weight, plus the fused bias, its three thirds laid out packed by head pair into the q, k and v arrays.
-/
import proofs.«412850_j50843822850162_3_alg».proof.Proof.Gen.Kernel.Launch
import proofs.«412850_j50843822850162_3_alg».proof.Proof.Gen.Kernel.Skeleton
import proofs.«412850_j50843822850162_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether or not the pipeline fetched
    there: where it did not, the block index has not moved since the last fetch and the body leaves its inputs
    as it found them.  Stated for any proof data whose array is the entry contents and whose body keeps the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store takes its buffer whole -/

abbrev r0_x : Rect S1x512x1024 := Rect.unit (s := S1x512x1024) ![0, 0, 0] S1x512x1024.size inb_S1x512x1024_S1x512x1024_0_0_0
abbrev r0_w : Rect S3072x1024 := Rect.unit (s := S3072x1024) ![0, 0] S3072x1024.size inb_S3072x1024_S3072x1024_0_0
abbrev r0_b : Rect S3072 := Rect.unit (s := S3072) ![0] S3072.size inb_S3072_S3072_0
abbrev r0_o : Rect S8x1x512x128 := Rect.unit (s := S8x1x512x128) ![0, 0, 0, 0] S8x1x512x128.size inb_S8x1x512x128_S8x1x512x128_0_0_0_0

/-! ## What the body leaves in the q, k and v blocks -/

def out0_3 (x0 : Vec F S1x512x1024 .f32) (x1 : Vec F S3072x1024 .bf16) (x2 : Vec F S3072 .f32) : Vec F S8x1x512x128 .bf16 :=
  View.canon [⟨r0_o, k0_pay2 (View.ld x0 r0_x) (View.ld x1 r0_w) (View.ld x2 r0_b)⟩]
def out0_4 (x0 : Vec F S1x512x1024 .f32) (x1 : Vec F S3072x1024 .bf16) (x2 : Vec F S3072 .f32) : Vec F S8x1x512x128 .bf16 :=
  View.canon [⟨r0_o, k0_pay3 (View.ld x0 r0_x) (View.ld x1 r0_w) (View.ld x2 r0_b)⟩]
def out0_5 (x0 : Vec F S1x512x1024 .f32) (x1 : Vec F S3072x1024 .bf16) (x2 : Vec F S3072 .f32) : Vec F S8x1x512x128 .bf16 :=
  View.canon [⟨r0_o, k0_pay4 (View.ld x0 r0_x) (View.ld x1 r0_w) (View.ld x2 r0_b)⟩]

/-- One store through the whole rectangle reaches every element of the buffer. -/
theorem cover0_o (p0 : Vec F S8x1x512x128 .bf16) (y : S8x1x512x128.Idx) :
    ∃ pc ∈ ([⟨r0_o, p0⟩] : List (View.Piece (Elt F) S8x1x512x128 .bf16)), y ∈ pc.1.set :=
  View.cover_of_tiled [⟨r0_o, p0⟩] S8x1x512x128.size (by rfl) y

/-! ## The body's triple -/

set_option maxHeartbeats 4000000 in
/-- The body on whole staging memrefs: the three inputs read at `x0 x1 x2` come back untouched, and each output,
    whatever it held (the body reads it once and discards the value), ends holding its single whole store. -/
theorem sound_kernel0 (c : Dev nD) (E : Set ℕ) (i : grid0.Coords)
    (arg2 : Memref sig .tc .vmem S1x512x1024 .f32) (harg2 : arg2.IsWhole)
    (arg3 : Memref sig .tc .vmem S3072x1024 .bf16) (harg3 : arg3.IsWhole)
    (arg4 : Memref sig .tc .vmem S3072 .f32) (harg4 : arg4.IsWhole)
    (arg5 : Memref sig .tc .vmem S8x1x512x128 .bf16) (harg5 : arg5.IsWhole)
    (arg6 : Memref sig .tc .vmem S8x1x512x128 .bf16) (harg6 : arg6.IsWhole)
    (arg7 : Memref sig .tc .vmem S8x1x512x128 .bf16) (harg7 : arg7.IsWhole)
    (x0 : Vec F S1x512x1024 .f32) (x1 : Vec F S3072x1024 .bf16) (x2 : Vec F S3072 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-! ## The pipeline's proof data -/

/-- The arrays as the region finds them; after the body at point `t` each input's buffer at its block and each
    output's at what the body stored; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is handed at point `t`: the invariant, the core's dues, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
/-- The body at any point: the inputs' buffers hold their blocks, so the body's triple applies; the invariant and
    the dues are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Pipe

end
-- ==== Proof.KB.Region1.lean ====
/-
  The attention region: at each (head pair, batch, query tile) the two heads of the pair, each a scaled query-key product, a row softmax and its product with the values, stored side by side in the 128 lanes.
-/
import proofs.«412850_j50843822850162_3_alg».proof.Proof.Gen.Kernel.Launch
import proofs.«412850_j50843822850162_3_alg».proof.Proof.Gen.Kernel.Skeleton
import proofs.«412850_j50843822850162_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: the loads whole, the two stores the low and the high 64 lanes -/

abbrev r1_q : Rect S1x1x256x128 := Rect.unit (s := S1x1x256x128) ![0, 0, 0, 0] S1x1x256x128.size inb_S1x1x256x128_S1x1x256x128_0_0_0_0
abbrev r1_kv : Rect S1x1x2048x128 := Rect.unit (s := S1x1x2048x128) ![0, 0, 0, 0] S1x1x2048x128.size inb_S1x1x2048x128_S1x1x2048x128_0_0_0_0
abbrev r1_lo : Rect S1x1x256x128 := Rect.unit (s := S1x1x256x128) ![0, 0, 0, 0] S1x1x256x64.size inb_S1x1x256x128_S1x1x256x64_0_0_0_0
abbrev r1_hi : Rect S1x1x256x128 := Rect.unit (s := S1x1x256x128) ![0, 0, 0, 64] S1x1x256x64.size inb_S1x1x256x128_S1x1x256x64_0_0_0_64

/-! ## What the body leaves in the context block: the second head's store over the first's (last first) -/

def out1_3 (x0 : Vec F S1x1x256x128 .bf16) (x1 : Vec F S1x1x2048x128 .bf16) (x2 : Vec F S1x1x2048x128 .bf16) : Vec F S1x1x256x128 .bf16 :=
  View.canon [⟨r1_hi, k1_pay2 (k1_pay6 (View.ld x2 r1_kv)) (k1_pay8 (View.ld x0 r1_q) (View.ld x1 r1_kv)) (k1_pay9 (View.ld x0 r1_q) (View.ld x1 r1_kv))⟩,
    ⟨r1_lo, k1_pay1 (k1_pay7 (View.ld x0 r1_q) (View.ld x1 r1_kv) (View.ld x2 r1_kv))⟩]

/-! ## An input's staging buffer holds its block at every point

For proof data whose array at an input window is the entry contents and whose body leaves that window's block in
place, the window's current staging buffer holds the block of the point, whether or not the point fetches it: where
it is not fetched (the key and value windows, inside a run of query tiles of one pair and batch) the block index has
not moved since the point before, so the block kept is the block due.  Each window is an input, never idle, uncut. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

/-! ## The two stores cover the context block -/

/-- Lanes 0..63 and lanes 64..127 of all 256 rows: every index of the block lies in one of the two halves. -/
theorem cover1_3 (p1 p0 : Vec F S1x1x256x64 .bf16) (y : S1x1x256x128.Idx) :
    ∃ pc ∈ ([⟨r1_hi, p1⟩, ⟨r1_lo, p0⟩] : List (View.Piece (Elt F) S1x1x256x128 .bf16)), y ∈ pc.1.set :=
  View.cover_of_tiled [⟨r1_hi, p1⟩, ⟨r1_lo, p0⟩] S1x1x256x64.size (by rfl) y

/-! ## The body's triple -/

set_option maxHeartbeats 1000000 in
/-- The body on whole staging memrefs: the query, key and value buffers at contents `x0 x1 x2` and the context buffer at
    anything.  It reads the three inputs whole, and stores the first head's context into lanes 0..63 and the second
    head's into lanes 64..127; the two reads of the context buffer it makes before storing enter no stored value.  It
    ends with the inputs as found and the context buffer at `out1_3 x0 x1 x2`. -/
theorem sound_kernel1 (c : Dev nD) (E : Set ℕ) (i : grid1.Coords)
    (arg3 : Memref sig .tc .vmem S1x1x256x128 .bf16) (harg3 : arg3.IsWhole) (arg4 : Memref sig .tc .vmem S1x1x2048x128 .bf16) (harg4 : arg4.IsWhole)
    (arg5 : Memref sig .tc .vmem S1x1x2048x128 .bf16) (harg5 : arg5.IsWhole) (arg6 : Memref sig .tc .vmem S1x1x256x128 .bf16) (harg6 : arg6.IsWhole)
    (x0 : Vec F S1x1x256x128 .bf16) (x1 x2 : Vec F S1x1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's dues, and the four current staging memrefs, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' memrefs hold their blocks, so the body's triple applies; the invariant
    and the core's dues are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Pipe

end
-- ==== Proof.KB.Region2.lean ====
/-
  The output region: at each (batch, row tile) the packed context block read back as 512 tokens of 1024 features, times the output weight, plus its bias.
-/
import proofs.«412850_j50843822850162_3_alg».proof.Proof.Gen.Kernel.Launch
import proofs.«412850_j50843822850162_3_alg».proof.Proof.Gen.Kernel.Skeleton
import proofs.«412850_j50843822850162_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and store takes its buffer whole -/

abbrev r2_c : Rect S8x1x512x128 := Rect.unit (s := S8x1x512x128) ![0, 0, 0, 0] S8x1x512x128.size inb_S8x1x512x128_S8x1x512x128_0_0_0_0
abbrev r2_w : Rect S1024x1024 := Rect.unit (s := S1024x1024) ![0, 0] S1024x1024.size inb_S1024x1024_S1024x1024_0_0
abbrev r2_b : Rect S1024 := Rect.unit (s := S1024) ![0] S1024.size inb_S1024_S1024_0
abbrev r2_o : Rect S1x512x1024 := Rect.unit (s := S1x512x1024) ![0, 0, 0] S1x512x1024.size inb_S1x512x1024_S1x512x1024_0_0_0

/-! ## What the body leaves in the result block -/

def out2_3 (x0 : Vec F S8x1x512x128 .bf16) (x1 : Vec F S1024x1024 .bf16) (x2 : Vec F S1024 .f32) : Vec F S1x512x1024 .f32 :=
  View.canon [⟨r2_o, k2_pay1 (View.ld x0 r2_c) (View.ld x1 r2_w) (View.ld x2 r2_b)⟩]

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-! ## Input windows: the current staging buffer holds the block at every point -/

/-- The packed context's buffer holds its block at every point, for any proof data over `V`'s array that leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's buffer likewise: fetched once, its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias's buffer likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The single store covers the result buffer -/

theorem cover2_3 (p0 : Vec F S1x512x1024 .f32) (y : S1x512x1024.Idx) :
    ∃ pc ∈ ([⟨r2_o, p0⟩] : List (View.Piece (Elt F) S1x512x1024 .f32)), y ∈ pc.1.set :=
  View.cover_of_tiled [⟨r2_o, p0⟩] S1x512x1024.size (by rfl) y

/-! ## The body's triple -/

set_option maxHeartbeats 1000000 in
/-- On whole staging memrefs, the three inputs at contents `x0 x1 x2` and the result buffer at anything, the body runs to a
    continuation that holds the inputs unchanged and the result buffer at `out2_3 x0 x1 x2`.  The body reads the result buffer
    once before it overwrites all of it; that value enters nothing. -/
theorem sound_kernel2 (c : Dev nD) (E : Set ℕ) (i : grid2.Coords)
    (arg2 : Memref sig .tc .vmem S8x1x512x128 .bf16) (harg2 : arg2.IsWhole)
    (arg3 : Memref sig .tc .vmem S1024x1024 .bf16) (harg3 : arg3.IsWhole)
    (arg4 : Memref sig .tc .vmem S1024 .f32) (harg4 : arg4.IsWhole)
    (arg5 : Memref sig .tc .vmem S1x512x1024 .f32) (harg5 : arg5.IsWhole)
    (x0 : Vec F S8x1x512x128 .bf16) (x1 : Vec F S1024x1024 .bf16) (x2 : Vec F S1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2__out_kernel i arg2 harg2 arg3 harg3 arg4 harg4 arg5 harg5) K := by
  simp only [cc2__out_kernel_eq_skeleton]; unfold cc2__out_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and what is owed pass
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Pipe

end
-- ==== Proof.KB.Run.lean ====
/-
  The run of @main: ten host operations, then the projection, the attention and the output regions in a row.
  The buffers' contents at each boundary are folded from the launch memory: the host operations' results, then per
  region its arrays at what its write-backs leave and every other buffer as the region found it. Every weakly fair
  execution from zero counters terminates, and at the end every unscoped buffer holds the last boundary's contents;
  each argument is read back through the fold to its launch contents, and the result to the output region's array.
-/
import proofs.«412850_j50843822850162_3_alg».proof.Proof.KB.Region0
import proofs.«412850_j50843822850162_3_alg».proof.Proof.KB.Region1
import proofs.«412850_j50843822850162_3_alg».proof.Proof.KB.Region2
import proofs.«412850_j50843822850162_3_alg».proof.Proof.Gen.Kernel.Regions
import proofs.«412850_j50843822850162_3_alg».proof.Proof.Gen.Kernel.Launch
import proofs.«412850_j50843822850162_3_alg».proof.Proof.Gen.Kernel.Skeleton
import proofs.«412850_j50843822850162_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the host operations: what the projection region is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the projection region: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the output region: the end. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## What each region is handed, read back through the boundaries -/

/-- No host operation writes a buffer outside the ten intermediates. -/
theorem W1_of (c : Dev nD) (r : Ref sig .tc) (h : r ∉ (hostOps0_W : List (Ref sig .tc))) :
    W1 m ρ c (Proc.devRef .tc r) = m ((c : Thread nD τ).loc r) :=
  StableHlo.after_of_writes_sub hostOps0 _ hostOps0_writes h

theorem V2_main_v10_0 (c : Dev nD) : V2 m ρ c main_v10_0 = (dat0 (V1 m ρ) c).arrAt 3 cfg0.N := W2_arr m ρ c 3
theorem V2_main_v10_1 (c : Dev nD) : V2 m ρ c main_v10_1 = (dat0 (V1 m ρ) c).arrAt 4 cfg0.N := W2_arr m ρ c 4
theorem V2_main_v10_2 (c : Dev nD) : V2 m ρ c main_v10_2 = (dat0 (V1 m ρ) c).arrAt 5 cfg0.N := W2_arr m ρ c 5
theorem V3_main_v11 (c : Dev nD) : V3 m ρ c main_v11 = (dat1 (V2 m ρ) c).arrAt 3 cfg1.N := W3_arr m ρ c 3
theorem V3_main_v9 (c : Dev nD) : V3 m ρ c main_v9 = V1 m ρ c main_v9 :=
  (W3_of_ne m ρ c main_v9 (by decide)).trans (W2_of_ne m ρ c main_v9 (by decide))
theorem V3_main_arg8 (c : Dev nD) : V3 m ρ c main_arg8 = V1 m ρ c main_arg8 :=
  (W3_of_ne m ρ c main_arg8 (by decide)).trans (W2_of_ne m ρ c main_arg8 (by decide))
theorem W4_main_v12 (c : Dev nD) : W4 m ρ c (Proc.devRef .tc main_v12) = (dat2 (V3 m ρ) c).arrAt 3 cfg2.N := W4_arr m ρ c 3

/-! ## The arguments end as launched -/

/-- The token array is the projection region's first input: an input array is never written. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_of m ρ c main_arg0 (by decide)
theorem W4_main_arg1 (c : Dev nD) : W4 m ρ c (Proc.devRef .tc main_arg1) = m ((c : Thread nD τ).loc main_arg1) :=
  (W4_of_ne m ρ c main_arg1 (by decide)).trans <| (W3_of_ne m ρ c main_arg1 (by decide)).trans <|
    (W2_of_ne m ρ c main_arg1 (by decide)).trans <| W1_of m ρ c main_arg1 (by decide)
theorem W4_main_arg2 (c : Dev nD) : W4 m ρ c (Proc.devRef .tc main_arg2) = m ((c : Thread nD τ).loc main_arg2) :=
  (W4_of_ne m ρ c main_arg2 (by decide)).trans <| (W3_of_ne m ρ c main_arg2 (by decide)).trans <|
    (W2_of_ne m ρ c main_arg2 (by decide)).trans <| W1_of m ρ c main_arg2 (by decide)
theorem W4_main_arg3 (c : Dev nD) : W4 m ρ c (Proc.devRef .tc main_arg3) = m ((c : Thread nD τ).loc main_arg3) :=
  (W4_of_ne m ρ c main_arg3 (by decide)).trans <| (W3_of_ne m ρ c main_arg3 (by decide)).trans <|
    (W2_of_ne m ρ c main_arg3 (by decide)).trans <| W1_of m ρ c main_arg3 (by decide)
theorem W4_main_arg4 (c : Dev nD) : W4 m ρ c (Proc.devRef .tc main_arg4) = m ((c : Thread nD τ).loc main_arg4) :=
  (W4_of_ne m ρ c main_arg4 (by decide)).trans <| (W3_of_ne m ρ c main_arg4 (by decide)).trans <|
    (W2_of_ne m ρ c main_arg4 (by decide)).trans <| W1_of m ρ c main_arg4 (by decide)
theorem W4_main_arg5 (c : Dev nD) : W4 m ρ c (Proc.devRef .tc main_arg5) = m ((c : Thread nD τ).loc main_arg5) :=
  (W4_of_ne m ρ c main_arg5 (by decide)).trans <| (W3_of_ne m ρ c main_arg5 (by decide)).trans <|
    (W2_of_ne m ρ c main_arg5 (by decide)).trans <| W1_of m ρ c main_arg5 (by decide)
theorem W4_main_arg6 (c : Dev nD) : W4 m ρ c (Proc.devRef .tc main_arg6) = m ((c : Thread nD τ).loc main_arg6) :=
  (W4_of_ne m ρ c main_arg6 (by decide)).trans <| (W3_of_ne m ρ c main_arg6 (by decide)).trans <|
    (W2_of_ne m ρ c main_arg6 (by decide)).trans <| W1_of m ρ c main_arg6 (by decide)
theorem W4_main_arg7 (c : Dev nD) : W4 m ρ c (Proc.devRef .tc main_arg7) = m ((c : Thread nD τ).loc main_arg7) :=
  (W4_of_ne m ρ c main_arg7 (by decide)).trans <| (W3_of_ne m ρ c main_arg7 (by decide)).trans <|
    (W2_of_ne m ρ c main_arg7 (by decide)).trans <| W1_of m ρ c main_arg7 (by decide)
/-- The output bias is the output region's third input. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 2).trans (((dat2 (V3 m ρ) c).arrAt_in 2 rfl _).trans (A_eq2 (V3 m ρ) c 2))
    _ = W2 m ρ c (Proc.devRef .tc main_arg8) := W3_of_ne m ρ c main_arg8 (by decide)
    _ = W1 m ρ c (Proc.devRef .tc main_arg8) := W2_of_ne m ρ c main_arg8 (by decide)
    _ = m ((c : Thread nD τ).loc main_arg8) := W1_of m ρ c main_arg8 (by decide)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at `W1`, left at `W2`. Its arrays are split out of the unscoped buffers and put back at the exit contents; the generator register goes into the class invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output region: entered at `W3`, left at `W4`, the end. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, and at the end every unscoped
    buffer of every core holds the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The two runs in the shapes the claims state -/

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

/-- The result array ends at what the output region's write-backs leave, and every argument as launched. -/
theorem run_result : θ_run defs (onTc (τ := τ) (main (F := F))) ⟨m, fun _ => 0, ρ⟩ (fun r => ∀ c : Dev nD,
      r.2.mem ((c.tc : Thread nD τ).loc main_v12) = (dat2 (V3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v12 (by decide))).trans (W4_main_v12 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.Kernel.Pipe

end
-- ==== Proof.KI.Region0.lean ====
/-
  The projection region: at each (batch, row tile) a 512-token block times the fused [3072, 1024] weight, plus the fused bias, its three thirds laid out packed by head pair into the q, k and v arrays.
-/
import proofs.«412850_j50843822850162_3_alg».proof.Proof.Gen.KernelIdeal.Launch
import proofs.«412850_j50843822850162_3_alg».proof.Proof.Gen.KernelIdeal.Skeleton
import proofs.«412850_j50843822850162_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether or not the pipeline fetched
    there: where it did not, the block index has not moved since the last fetch and the body leaves its inputs
    as it found them.  Stated for any proof data whose array is the entry contents and whose body keeps the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store takes its buffer whole -/

abbrev r0_x : Rect S1x512x1024 := Rect.unit (s := S1x512x1024) ![0, 0, 0] S1x512x1024.size inb_S1x512x1024_S1x512x1024_0_0_0
abbrev r0_w : Rect S3072x1024 := Rect.unit (s := S3072x1024) ![0, 0] S3072x1024.size inb_S3072x1024_S3072x1024_0_0
abbrev r0_b : Rect S3072 := Rect.unit (s := S3072) ![0] S3072.size inb_S3072_S3072_0
abbrev r0_o : Rect S8x1x512x128 := Rect.unit (s := S8x1x512x128) ![0, 0, 0, 0] S8x1x512x128.size inb_S8x1x512x128_S8x1x512x128_0_0_0_0

/-! ## What the body leaves in the q, k and v blocks -/

def out0_3 (x0 : Vec F S1x512x1024 .f32) (x1 : Vec F S3072x1024 .bf16) (x2 : Vec F S3072 .f32) : Vec F S8x1x512x128 .bf16 :=
  View.canon [⟨r0_o, k0_pay2 (View.ld x0 r0_x) (View.ld x1 r0_w) (View.ld x2 r0_b)⟩]
def out0_4 (x0 : Vec F S1x512x1024 .f32) (x1 : Vec F S3072x1024 .bf16) (x2 : Vec F S3072 .f32) : Vec F S8x1x512x128 .bf16 :=
  View.canon [⟨r0_o, k0_pay3 (View.ld x0 r0_x) (View.ld x1 r0_w) (View.ld x2 r0_b)⟩]
def out0_5 (x0 : Vec F S1x512x1024 .f32) (x1 : Vec F S3072x1024 .bf16) (x2 : Vec F S3072 .f32) : Vec F S8x1x512x128 .bf16 :=
  View.canon [⟨r0_o, k0_pay4 (View.ld x0 r0_x) (View.ld x1 r0_w) (View.ld x2 r0_b)⟩]

/-- One store through the whole rectangle reaches every element of the buffer. -/
theorem cover0_o (p0 : Vec F S8x1x512x128 .bf16) (y : S8x1x512x128.Idx) :
    ∃ pc ∈ ([⟨r0_o, p0⟩] : List (View.Piece (Elt F) S8x1x512x128 .bf16)), y ∈ pc.1.set :=
  View.cover_of_tiled [⟨r0_o, p0⟩] S8x1x512x128.size (by rfl) y

/-! ## The body's triple -/

set_option maxHeartbeats 4000000 in
/-- The body on whole staging memrefs: the three inputs read at `x0 x1 x2` come back untouched, and each output,
    whatever it held (the body reads it once and discards the value), ends holding its single whole store. -/
theorem sound_kernel0 (c : Dev nD) (E : Set ℕ) (i : grid0.Coords)
    (arg2 : Memref sig .tc .vmem S1x512x1024 .f32) (harg2 : arg2.IsWhole)
    (arg3 : Memref sig .tc .vmem S3072x1024 .bf16) (harg3 : arg3.IsWhole)
    (arg4 : Memref sig .tc .vmem S3072 .f32) (harg4 : arg4.IsWhole)
    (arg5 : Memref sig .tc .vmem S8x1x512x128 .bf16) (harg5 : arg5.IsWhole)
    (arg6 : Memref sig .tc .vmem S8x1x512x128 .bf16) (harg6 : arg6.IsWhole)
    (arg7 : Memref sig .tc .vmem S8x1x512x128 .bf16) (harg7 : arg7.IsWhole)
    (x0 : Vec F S1x512x1024 .f32) (x1 : Vec F S3072x1024 .bf16) (x2 : Vec F S3072 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-! ## The pipeline's proof data -/

/-- The arrays as the region finds them; after the body at point `t` each input's buffer at its block and each
    output's at what the body stored; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is handed at point `t`: the invariant, the core's dues, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
/-- The body at any point: the inputs' buffers hold their blocks, so the body's triple applies; the invariant and
    the dues are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Pipe

end
-- ==== Proof.KI.Region1.lean ====
/-
  The attention region: at each (head pair, batch, query tile) the two heads of the pair, each a scaled query-key product, a row softmax and its product with the values, stored side by side in the 128 lanes.
-/
import proofs.«412850_j50843822850162_3_alg».proof.Proof.Gen.KernelIdeal.Launch
import proofs.«412850_j50843822850162_3_alg».proof.Proof.Gen.KernelIdeal.Skeleton
import proofs.«412850_j50843822850162_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: the loads whole, the two stores the low and the high 64 lanes -/

abbrev r1_q : Rect S1x1x256x128 := Rect.unit (s := S1x1x256x128) ![0, 0, 0, 0] S1x1x256x128.size inb_S1x1x256x128_S1x1x256x128_0_0_0_0
abbrev r1_kv : Rect S1x1x2048x128 := Rect.unit (s := S1x1x2048x128) ![0, 0, 0, 0] S1x1x2048x128.size inb_S1x1x2048x128_S1x1x2048x128_0_0_0_0
abbrev r1_lo : Rect S1x1x256x128 := Rect.unit (s := S1x1x256x128) ![0, 0, 0, 0] S1x1x256x64.size inb_S1x1x256x128_S1x1x256x64_0_0_0_0
abbrev r1_hi : Rect S1x1x256x128 := Rect.unit (s := S1x1x256x128) ![0, 0, 0, 64] S1x1x256x64.size inb_S1x1x256x128_S1x1x256x64_0_0_0_64

/-! ## What the body leaves in the context block: the second head's store over the first's (last first) -/

def out1_3 (x0 : Vec F S1x1x256x128 .bf16) (x1 : Vec F S1x1x2048x128 .bf16) (x2 : Vec F S1x1x2048x128 .bf16) : Vec F S1x1x256x128 .bf16 :=
  View.canon [⟨r1_hi, k1_pay2 (k1_pay6 (View.ld x2 r1_kv)) (k1_pay8 (View.ld x0 r1_q) (View.ld x1 r1_kv)) (k1_pay9 (View.ld x0 r1_q) (View.ld x1 r1_kv))⟩,
    ⟨r1_lo, k1_pay1 (k1_pay7 (View.ld x0 r1_q) (View.ld x1 r1_kv) (View.ld x2 r1_kv))⟩]

/-! ## An input's staging buffer holds its block at every point

For proof data whose array at an input window is the entry contents and whose body leaves that window's block in
place, the window's current staging buffer holds the block of the point, whether or not the point fetches it: where
it is not fetched (the key and value windows, inside a run of query tiles of one pair and batch) the block index has
not moved since the point before, so the block kept is the block due.  Each window is an input, never idle, uncut. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

/-! ## The two stores cover the context block -/

/-- Lanes 0..63 and lanes 64..127 of all 256 rows: every index of the block lies in one of the two halves. -/
theorem cover1_3 (p1 p0 : Vec F S1x1x256x64 .bf16) (y : S1x1x256x128.Idx) :
    ∃ pc ∈ ([⟨r1_hi, p1⟩, ⟨r1_lo, p0⟩] : List (View.Piece (Elt F) S1x1x256x128 .bf16)), y ∈ pc.1.set :=
  View.cover_of_tiled [⟨r1_hi, p1⟩, ⟨r1_lo, p0⟩] S1x1x256x64.size (by rfl) y

/-! ## The body's triple -/

set_option maxHeartbeats 1000000 in
/-- The body on whole staging memrefs: the query, key and value buffers at contents `x0 x1 x2` and the context buffer at
    anything.  It reads the three inputs whole, and stores the first head's context into lanes 0..63 and the second
    head's into lanes 64..127; the two reads of the context buffer it makes before storing enter no stored value.  It
    ends with the inputs as found and the context buffer at `out1_3 x0 x1 x2`. -/
theorem sound_kernel1 (c : Dev nD) (E : Set ℕ) (i : grid1.Coords)
    (arg3 : Memref sig .tc .vmem S1x1x256x128 .bf16) (harg3 : arg3.IsWhole) (arg4 : Memref sig .tc .vmem S1x1x2048x128 .bf16) (harg4 : arg4.IsWhole)
    (arg5 : Memref sig .tc .vmem S1x1x2048x128 .bf16) (harg5 : arg5.IsWhole) (arg6 : Memref sig .tc .vmem S1x1x256x128 .bf16) (harg6 : arg6.IsWhole)
    (x0 : Vec F S1x1x256x128 .bf16) (x1 x2 : Vec F S1x1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's dues, and the four current staging memrefs, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' memrefs hold their blocks, so the body's triple applies; the invariant
    and the core's dues are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Pipe

end
-- ==== Proof.KI.Region2.lean ====
/-
  The output region: at each (batch, row tile) the packed context block read back as 512 tokens of 1024 features, times the output weight, plus its bias.
-/
import proofs.«412850_j50843822850162_3_alg».proof.Proof.Gen.KernelIdeal.Launch
import proofs.«412850_j50843822850162_3_alg».proof.Proof.Gen.KernelIdeal.Skeleton
import proofs.«412850_j50843822850162_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and store takes its buffer whole -/

abbrev r2_c : Rect S8x1x512x128 := Rect.unit (s := S8x1x512x128) ![0, 0, 0, 0] S8x1x512x128.size inb_S8x1x512x128_S8x1x512x128_0_0_0_0
abbrev r2_w : Rect S1024x1024 := Rect.unit (s := S1024x1024) ![0, 0] S1024x1024.size inb_S1024x1024_S1024x1024_0_0
abbrev r2_b : Rect S1024 := Rect.unit (s := S1024) ![0] S1024.size inb_S1024_S1024_0
abbrev r2_o : Rect S1x512x1024 := Rect.unit (s := S1x512x1024) ![0, 0, 0] S1x512x1024.size inb_S1x512x1024_S1x512x1024_0_0_0

/-! ## What the body leaves in the result block -/

def out2_3 (x0 : Vec F S8x1x512x128 .bf16) (x1 : Vec F S1024x1024 .bf16) (x2 : Vec F S1024 .f32) : Vec F S1x512x1024 .f32 :=
  View.canon [⟨r2_o, k2_pay1 (View.ld x0 r2_c) (View.ld x1 r2_w) (View.ld x2 r2_b)⟩]

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-! ## Input windows: the current staging buffer holds the block at every point -/

/-- The packed context's buffer holds its block at every point, for any proof data over `V`'s array that leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's buffer likewise: fetched once, its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias's buffer likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The single store covers the result buffer -/

theorem cover2_3 (p0 : Vec F S1x512x1024 .f32) (y : S1x512x1024.Idx) :
    ∃ pc ∈ ([⟨r2_o, p0⟩] : List (View.Piece (Elt F) S1x512x1024 .f32)), y ∈ pc.1.set :=
  View.cover_of_tiled [⟨r2_o, p0⟩] S1x512x1024.size (by rfl) y

/-! ## The body's triple -/

set_option maxHeartbeats 1000000 in
/-- On whole staging memrefs, the three inputs at contents `x0 x1 x2` and the result buffer at anything, the body runs to a
    continuation that holds the inputs unchanged and the result buffer at `out2_3 x0 x1 x2`.  The body reads the result buffer
    once before it overwrites all of it; that value enters nothing. -/
theorem sound_kernel2 (c : Dev nD) (E : Set ℕ) (i : grid2.Coords)
    (arg2 : Memref sig .tc .vmem S8x1x512x128 .bf16) (harg2 : arg2.IsWhole)
    (arg3 : Memref sig .tc .vmem S1024x1024 .bf16) (harg3 : arg3.IsWhole)
    (arg4 : Memref sig .tc .vmem S1024 .f32) (harg4 : arg4.IsWhole)
    (arg5 : Memref sig .tc .vmem S1x512x1024 .f32) (harg5 : arg5.IsWhole)
    (x0 : Vec F S8x1x512x128 .bf16) (x1 : Vec F S1024x1024 .bf16) (x2 : Vec F S1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2__out_kernel i arg2 harg2 arg3 harg3 arg4 harg4 arg5 harg5) K := by
  simp only [cc2__out_kernel_eq_skeleton]; unfold cc2__out_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and what is owed pass
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Pipe

end
-- ==== Proof.KI.Run.lean ====
/-
  The run of @main: ten host operations, then the projection, the attention and the output regions in a row.
  The buffers' contents at each boundary are folded from the launch memory: the host operations' results, then per
  region its arrays at what its write-backs leave and every other buffer as the region found it. Every weakly fair
  execution from zero counters terminates, and at the end every unscoped buffer holds the last boundary's contents;
  each argument is read back through the fold to its launch contents, and the result to the output region's array.
-/
import proofs.«412850_j50843822850162_3_alg».proof.Proof.KI.Region0
import proofs.«412850_j50843822850162_3_alg».proof.Proof.KI.Region1
import proofs.«412850_j50843822850162_3_alg».proof.Proof.KI.Region2
import proofs.«412850_j50843822850162_3_alg».proof.Proof.Gen.KernelIdeal.Regions
import proofs.«412850_j50843822850162_3_alg».proof.Proof.Gen.KernelIdeal.Launch
import proofs.«412850_j50843822850162_3_alg».proof.Proof.Gen.KernelIdeal.Skeleton
import proofs.«412850_j50843822850162_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the host operations: what the projection region is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the projection region: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the output region: the end. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## What each region is handed, read back through the boundaries -/

/-- No host operation writes a buffer outside the ten intermediates. -/
theorem W1_of (c : Dev nD) (r : Ref sig .tc) (h : r ∉ (hostOps0_W : List (Ref sig .tc))) :
    W1 m ρ c (Proc.devRef .tc r) = m ((c : Thread nD τ).loc r) :=
  StableHlo.after_of_writes_sub hostOps0 _ hostOps0_writes h

theorem V2_main_v10_0 (c : Dev nD) : V2 m ρ c main_v10_0 = (dat0 (V1 m ρ) c).arrAt 3 cfg0.N := W2_arr m ρ c 3
theorem V2_main_v10_1 (c : Dev nD) : V2 m ρ c main_v10_1 = (dat0 (V1 m ρ) c).arrAt 4 cfg0.N := W2_arr m ρ c 4
theorem V2_main_v10_2 (c : Dev nD) : V2 m ρ c main_v10_2 = (dat0 (V1 m ρ) c).arrAt 5 cfg0.N := W2_arr m ρ c 5
theorem V3_main_v11 (c : Dev nD) : V3 m ρ c main_v11 = (dat1 (V2 m ρ) c).arrAt 3 cfg1.N := W3_arr m ρ c 3
theorem V3_main_v9 (c : Dev nD) : V3 m ρ c main_v9 = V1 m ρ c main_v9 :=
  (W3_of_ne m ρ c main_v9 (by decide)).trans (W2_of_ne m ρ c main_v9 (by decide))
theorem V3_main_arg8 (c : Dev nD) : V3 m ρ c main_arg8 = V1 m ρ c main_arg8 :=
  (W3_of_ne m ρ c main_arg8 (by decide)).trans (W2_of_ne m ρ c main_arg8 (by decide))
theorem W4_main_v12 (c : Dev nD) : W4 m ρ c (Proc.devRef .tc main_v12) = (dat2 (V3 m ρ) c).arrAt 3 cfg2.N := W4_arr m ρ c 3

/-! ## The arguments end as launched -/

/-- The token array is the projection region's first input: an input array is never written. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_of m ρ c main_arg0 (by decide)
theorem W4_main_arg1 (c : Dev nD) : W4 m ρ c (Proc.devRef .tc main_arg1) = m ((c : Thread nD τ).loc main_arg1) :=
  (W4_of_ne m ρ c main_arg1 (by decide)).trans <| (W3_of_ne m ρ c main_arg1 (by decide)).trans <|
    (W2_of_ne m ρ c main_arg1 (by decide)).trans <| W1_of m ρ c main_arg1 (by decide)
theorem W4_main_arg2 (c : Dev nD) : W4 m ρ c (Proc.devRef .tc main_arg2) = m ((c : Thread nD τ).loc main_arg2) :=
  (W4_of_ne m ρ c main_arg2 (by decide)).trans <| (W3_of_ne m ρ c main_arg2 (by decide)).trans <|
    (W2_of_ne m ρ c main_arg2 (by decide)).trans <| W1_of m ρ c main_arg2 (by decide)
theorem W4_main_arg3 (c : Dev nD) : W4 m ρ c (Proc.devRef .tc main_arg3) = m ((c : Thread nD τ).loc main_arg3) :=
  (W4_of_ne m ρ c main_arg3 (by decide)).trans <| (W3_of_ne m ρ c main_arg3 (by decide)).trans <|
    (W2_of_ne m ρ c main_arg3 (by decide)).trans <| W1_of m ρ c main_arg3 (by decide)
theorem W4_main_arg4 (c : Dev nD) : W4 m ρ c (Proc.devRef .tc main_arg4) = m ((c : Thread nD τ).loc main_arg4) :=
  (W4_of_ne m ρ c main_arg4 (by decide)).trans <| (W3_of_ne m ρ c main_arg4 (by decide)).trans <|
    (W2_of_ne m ρ c main_arg4 (by decide)).trans <| W1_of m ρ c main_arg4 (by decide)
theorem W4_main_arg5 (c : Dev nD) : W4 m ρ c (Proc.devRef .tc main_arg5) = m ((c : Thread nD τ).loc main_arg5) :=
  (W4_of_ne m ρ c main_arg5 (by decide)).trans <| (W3_of_ne m ρ c main_arg5 (by decide)).trans <|
    (W2_of_ne m ρ c main_arg5 (by decide)).trans <| W1_of m ρ c main_arg5 (by decide)
theorem W4_main_arg6 (c : Dev nD) : W4 m ρ c (Proc.devRef .tc main_arg6) = m ((c : Thread nD τ).loc main_arg6) :=
  (W4_of_ne m ρ c main_arg6 (by decide)).trans <| (W3_of_ne m ρ c main_arg6 (by decide)).trans <|
    (W2_of_ne m ρ c main_arg6 (by decide)).trans <| W1_of m ρ c main_arg6 (by decide)
theorem W4_main_arg7 (c : Dev nD) : W4 m ρ c (Proc.devRef .tc main_arg7) = m ((c : Thread nD τ).loc main_arg7) :=
  (W4_of_ne m ρ c main_arg7 (by decide)).trans <| (W3_of_ne m ρ c main_arg7 (by decide)).trans <|
    (W2_of_ne m ρ c main_arg7 (by decide)).trans <| W1_of m ρ c main_arg7 (by decide)
/-- The output bias is the output region's third input. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 2).trans (((dat2 (V3 m ρ) c).arrAt_in 2 rfl _).trans (A_eq2 (V3 m ρ) c 2))
    _ = W2 m ρ c (Proc.devRef .tc main_arg8) := W3_of_ne m ρ c main_arg8 (by decide)
    _ = W1 m ρ c (Proc.devRef .tc main_arg8) := W2_of_ne m ρ c main_arg8 (by decide)
    _ = m ((c : Thread nD τ).loc main_arg8) := W1_of m ρ c main_arg8 (by decide)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at `W1`, left at `W2`. Its arrays are split out of the unscoped buffers and put back at the exit contents; the generator register goes into the class invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output region: entered at `W3`, left at `W4`, the end. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, and at the end every unscoped
    buffer of every core holds the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The two runs in the shapes the claims state -/

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

/-- The result array ends at what the output region's write-backs leave, and every argument as launched. -/
theorem run_result : θ_run defs (onTc (τ := τ) (main (F := F))) ⟨m, fun _ => 0, ρ⟩ (fun r => ∀ c : Dev nD,
      r.2.mem ((c.tc : Thread nD τ).loc main_v12) = (dat2 (V3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v12 (by decide))).trans (W4_main_v12 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.KernelIdeal.Pipe

end
-- ==== Proof.Spec.lean ====
/-
  Multi-head self-attention over the flat feature axis, on the extended reals.

  A token's 1024 features split into 16 heads of 64: feature `j` belongs to head `j / 64` at depth `j % 64`.
  The same feature is lane `j % 128` of head pair `j / 128` (two heads side by side in 128 lanes), and column
  `j % 256` of group `j / 256` (four heads to a group): three spellings of one index.  Everything below is
  written over `j` itself, so that each spelling only has to say which `j` it names.

  `lin`   : a row of a weight matrix applied to a token, plus a bias        (the q / k / v projections)
  `score` : the scaled inner product of a query and a key over one head's 64 features
  `wexp`  : the exponential of a score less its row's maximum
  `attn`  : that exponential over its row's sum                             (the softmax weight)
  `ctxf`  : the weights' combination of the values, feature by feature
  `out`   : the output projection and its bias
-/
import Idealize.ShloMosaic.PureOps.Ideal
import Idealize.ShloMosaic.Lib.ValueIdx

noncomputable section

namespace Cert.Mha

open Idealize.ShloMosaic Idealize.ShloMosaic.ValueIdx

/-- The score scale, one eighth, as the word both programs print. -/
def scale : EReal := Ideal.ofBits .f32 0x3E000000#32
/-- The value a row maximum starts from, minus infinity as the word both programs print. -/
def floor0 : EReal := Ideal.ofBits .f32 0xFF800000#32

/-- Token arrays `[batch, position, feature]`. -/
abbrev Tok := Fin 2 → Fin 2048 → Fin 1024 → EReal
/-- Per-head square arrays `[batch, head, query position, key position]`. -/
abbrev Sq := Fin 2 → Fin 16 → Fin 2048 → Fin 2048 → EReal
/-- Weight matrices `[output feature, input feature]`. -/
abbrev Mat := Fin 1024 → Fin 1024 → EReal

/-- Feature `d` of head `n`. -/
def feat (n : Fin 16) (d : Fin 64) : Fin 1024 := ⟨64 * n.val + d.val, by omega⟩
/-- The head a feature belongs to. -/
def headOf (j : Fin 1024) : Fin 16 := ⟨j.val / 64, by omega⟩

/-- Output feature `j` of a linear layer at token `(b, s)`. -/
def lin (x : Tok) (W : Mat) (bias : Fin 1024 → EReal) : Tok :=
  fun b s j => (∑ h : Fin 1024, x b s h * W j h) + bias j

/-- Head `n`'s scaled score of query position `s` against key position `t`. -/
def score (q k : Tok) : Sq :=
  fun b n s t => (∑ d : Fin 64, q b s (feat n d) * k b t (feat n d)) * scale

/-- A score row's maximum, folded from minus infinity. -/
def rowMax (sc : Sq) (b : Fin 2) (n : Fin 16) (s : Fin 2048) : EReal :=
  (Finset.univ : Finset (Fin 2048)).fold max floor0 (fun t => sc b n s t)

/-- The exponential of a score less its row's maximum. -/
def wexp (sc : Sq) : Sq := fun b n s t => Ideal.exp (sc b n s t - rowMax sc b n s)

/-- The softmax weight: that exponential over the sum of its row's. -/
def attn (sc : Sq) : Sq := fun b n s t => Ideal.div (wexp sc b n s t) (∑ u : Fin 2048, wexp sc b n s u)

/-- Feature `j` of the context at `(b, s)`: its head's weights over the key positions, applied to the values. -/
def ctxf (a : Sq) (v : Tok) : Tok := fun b s j => ∑ t : Fin 2048, a b (headOf j) s t * v b t j

/-- The whole layer. -/
def mha (x : Tok) (Wq : Mat) (bq : Fin 1024 → EReal) (Wk : Mat) (bk : Fin 1024 → EReal) (Wv : Mat) (bv : Fin 1024 → EReal)
    (Wo : Mat) (bo : Fin 1024 → EReal) : Tok :=
  lin (ctxf (attn (score (lin x Wq bq) (lin x Wk bk))) (lin x Wv bv)) Wo bo

/-! ## The packed layout `[pair, batch, position, lane]` -/

/-- The shape of a packed array: 8 head pairs, 2 batches, 2048 positions, 128 lanes. -/
abbrev SP : Shape := ⟨4, ![8, 2, 2048, 128]⟩

/-- The feature at lane `l` of pair `p`. -/
def laneFeat (p : Fin 8) (l : Fin 128) : Fin 1024 := ⟨128 * p.val + l.val, by omega⟩
/-- The pair and the lane of a feature. -/
def pairOf (j : Fin 1024) : Fin 8 := ⟨j.val / 128, by omega⟩
def laneOf (j : Fin 1024) : Fin 128 := ⟨j.val % 128, Nat.mod_lt _ (by norm_num)⟩

/-- A token array laid out packed. -/
def pack (f : Tok) : SP.Idx → EReal := fun i => f (i 1) (i 2) (laneFeat (i 0) (i 3))
/-- A packed array read as a token array. -/
def unpack (a : SP.Idx → EReal) : Tok := fun b s j => a (ix4 (pairOf j) b s (laneOf j))

theorem laneFeat_pairOf_laneOf (j : Fin 1024) : laneFeat (pairOf j) (laneOf j) = j :=
  Fin.ext (by simp only [laneFeat, pairOf, laneOf]; omega)

/-- Packing loses nothing. -/
theorem unpack_pack (f : Tok) : unpack (pack f) = f := by
  funext b s j
  show f b s (laneFeat (pairOf j) (laneOf j)) = f b s j
  rw [laneFeat_pairOf_laneOf]

/-! ## Plain arrays read by coordinates -/

/-- A `[2, 2048, 1024]` array as a token array. -/
def tok3 (x : (⟨3, ![2, 2048, 1024]⟩ : Shape).Idx → EReal) : Tok := fun b s h => x (ix3 b s h)
/-- A `[1024, 1024]` array as a matrix. -/
def mat2 (W : (⟨2, ![1024, 1024]⟩ : Shape).Idx → EReal) : Mat := fun j h => W (ix2 j h)
/-- A `[1024]` array as a vector. -/
def vec1 (v : (⟨1, ![1024]⟩ : Shape).Idx → EReal) : Fin 1024 → EReal := fun j => v (ix1 j)
/-- Rows `1024 r … 1024 r + 1023` of a `[3072, 1024]` array as a matrix (`r = 0, 1, 2`: the q, k, v thirds). -/
def third2 (W : (⟨2, ![3072, 1024]⟩ : Shape).Idx → EReal) (r : Fin 3) : Mat :=
  fun j h => W (ix2 ⟨1024 * r.val + j.val, by omega⟩ h)
/-- Entries `1024 r … 1024 r + 1023` of a `[3072]` array. -/
def third1 (v : (⟨1, ![3072]⟩ : Shape).Idx → EReal) (r : Fin 3) : Fin 1024 → EReal :=
  fun j => v (ix1 ⟨1024 * r.val + j.val, by omega⟩)
/-- A grouped weight `[4, 256, 1024]` flattened to `[1024, 1024]`: row `j` is column `j % 256` of group `j / 256`. -/
def grp3 (W : (⟨3, ![4, 256, 1024]⟩ : Shape).Idx → EReal) : Mat :=
  fun j h => W (ix3 ⟨j.val / 256, by omega⟩ ⟨j.val % 256, Nat.mod_lt _ (by norm_num)⟩ h)
/-- A grouped bias `[4, 256]` flattened to `[1024]`. -/
def grp2 (v : (⟨2, ![4, 256]⟩ : Shape).Idx → EReal) : Fin 1024 → EReal :=
  fun j => v (ix2 ⟨j.val / 256, by omega⟩ ⟨j.val % 256, Nat.mod_lt _ (by norm_num)⟩)

/-! ## The grouped head layout `[batch, group, head in group, position, depth]` -/

/-- The shape of a per-head array laid out by group: 2 batches, 4 groups of 4 heads, 2048 positions, 64 depths. -/
abbrev SH : Shape := ⟨5, ![2, 4, 4, 2048, 64]⟩

/-- The feature at depth `d` of head `hh` of group `g`. -/
def grpFeat (g : Fin 4) (hh : Fin 4) (d : Fin 64) : Fin 1024 := ⟨256 * g.val + 64 * hh.val + d.val, by omega⟩

/-- Head `hh` of group `g`, among the 16. -/
def hd4 (g hh : Fin 4) : Fin 16 := ⟨4 * g.val + hh.val, by omega⟩

/-- A token array laid out by group and head. -/
def byHead (f : Tok) : SH.Idx → EReal := fun i => f (i 0) (i 3) (grpFeat (i 1) (i 2) (i 4))
/-- An array laid out by group and head, read as a token array. -/
def ofHead (a : SH.Idx → EReal) : Tok :=
  fun b s j => a (ix5 b ⟨j.val / 256, by omega⟩ ⟨j.val % 256 / 64, by omega⟩ s ⟨j.val % 64, Nat.mod_lt _ (by norm_num)⟩)

/-- Laying out by group and head loses nothing. -/
theorem ofHead_byHead (f : Tok) : ofHead (byHead f) = f := by
  funext b s j
  show f b s (grpFeat _ _ _) = f b s j
  exact congrArg (f b s) (Fin.ext (by simp only [grpFeat]; omega))

end Cert.Mha

end
-- ==== Proof.KI.Value0.lean ====
/-
  The projection region's value on the extended reals: after the whole grid each of the q, k and v arrays is one
  function of the region's three input arrays — the packed layout of a linear layer whose weight and bias are one
  third of the fused ones.

  A grid point (batch b, row tile i) holds tokens 512 i … 512 i + 511 of batch b.  Its body multiplies the
  [512, 1024] token block by the transposed [3072, 1024] weight, adds the bias row, and cuts the 3072 columns
  into thirds; column 128 p + l of a third goes to lane l of head pair p.  So entry (p, b, s, l) of the r-th
  array is  (∑ h, x[b, s, h] · W[1024 r + 128 p + l, h]) + bias[1024 r + 128 p + l].
-/
import proofs.«412850_j50843822850162_3_alg».proof.Proof.KI.Region0
import proofs.«412850_j50843822850162_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PipeV

open Cert.KernelIdeal Cert.KernelIdeal.Gen Cert.KernelIdeal.Pipe
open Idealize.ShloMosaic Idealize.ShloMosaic.TcCoe Idealize.ShloMosaic.ValueIdx Idealize.SL.Sem
open Idealize.ShloMosaic.Pipeline (Dat)

/-! ## The contraction's operand indices -/

theorem lhs_qkv_0 (i : S512x3072.Idx) (q : dot_S512x1024_S3072x1024_S512x3072_1_1_0_0_n_n.contr.Idx) :
    (dot_S512x1024_S3072x1024_S512x3072_1_1_0_0_n_n.lhsIdx i q 0).val = (i 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
theorem lhs_qkv_1 (i : S512x3072.Idx) (q : dot_S512x1024_S3072x1024_S512x3072_1_1_0_0_n_n.contr.Idx) :
    (dot_S512x1024_S3072x1024_S512x3072_1_1_0_0_n_n.lhsIdx i q 1).val = (q ⟨0, by decide⟩).val :=
  dot_S512x1024_S3072x1024_S512x3072_1_1_0_0_n_n.lhsIdx_val_of_single rfl i q
theorem rhs_qkv_0 (i : S512x3072.Idx) (q : dot_S512x1024_S3072x1024_S512x3072_1_1_0_0_n_n.contr.Idx) :
    (dot_S512x1024_S3072x1024_S512x3072_1_1_0_0_n_n.rhsIdx i q 0).val = (i 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
theorem rhs_qkv_1 (i : S512x3072.Idx) (q : dot_S512x1024_S3072x1024_S512x3072_1_1_0_0_n_n.contr.Idx) :
    (dot_S512x1024_S3072x1024_S512x3072_1_1_0_0_n_n.rhsIdx i q 1).val = (q ⟨0, by decide⟩).val :=
  dot_S512x1024_S3072x1024_S512x3072_1_1_0_0_n_n.rhsIdx_val_of_single rfl i q

/-! ## The fused projection at an index -/

/-- Row `s`, column `n` of the fused projection: token `s` against weight row `n`, plus bias entry `n`.
    Rounding to the narrower format is the identity on the extended reals. -/
theorem k0_pay1_apply (x0 : Vec Ideal S1x512x1024 .f32) (x1 : Vec Ideal S3072x1024 .bf16) (x2 : Vec Ideal S3072 .f32)
    (s : Fin 512) (n : Fin 3072) :
    k0_pay1 (F := Ideal) x0 x1 x2 (ix2 s n) = (∑ h : Fin 1024, x0 (ix3 (0 : Fin 1) s h) * x1 (ix2 n h)) + x2 (ix1 n) := by
  unfold k0_pay1
  simp only [truncf_apply, addf_apply]
  congr 1
  · refine (Ideal.matmul_constant_zero_apply dot_S512x1024_S3072x1024_S512x3072_1_1_0_0_n_n none _ _ (ix2 s n)).trans ?_
    rw [← Equiv.sum_comp (contrEquiv1 dot_S512x1024_S3072x1024_S512x3072_1_1_0_0_n_n 1024 rfl rfl).symm]
    refine Finset.sum_congr rfl fun k _ => ?_
    have hk := contrEquiv1_symm_val dot_S512x1024_S3072x1024_S512x3072_1_1_0_0_n_n 1024 rfl rfl k
    have el : dot_S512x1024_S3072x1024_S512x3072_1_1_0_0_n_n.lhsIdx (ix2 s n) ((contrEquiv1 dot_S512x1024_S3072x1024_S512x3072_1_1_0_0_n_n 1024 rfl rfl).symm k) = ix2 s k := funext fun a => Fin.ext (by
      match a with
      | ⟨0, _⟩ => exact lhs_qkv_0 _ _
      | ⟨1, _⟩ => exact (lhs_qkv_1 _ _).trans hk)
    have er : dot_S512x1024_S3072x1024_S512x3072_1_1_0_0_n_n.rhsIdx (ix2 s n) ((contrEquiv1 dot_S512x1024_S3072x1024_S512x3072_1_1_0_0_n_n 1024 rfl rfl).symm k) = ix2 n k := funext fun a => Fin.ext (by
      match a with
      | ⟨0, _⟩ => exact rhs_qkv_0 _ _
      | ⟨1, _⟩ => exact (rhs_qkv_1 _ _).trans hk)
    rw [el, er, truncf_apply, shapeCast_1ab_ab_apply, shapeCast_self]
  · rw [broadcastTo_1b_ab_apply, shapeCast_a_1a_apply, shapeCast_self]

/-! ## A third of the columns, packed by head pair -/

/-- The layout chain that follows the projection — cut columns `off 1 … off 1 + 1023`, split them 8 × 128, bring the
    8 to the front, add a unit batch axis — read at `(p, u, s, l)` is the projection at row `s`, column
    `off 1 + 128 p + l`. -/
theorem qkv_packed_apply {α : Type} (off : Fin 2 → Nat) (P : S512x3072.Idx → α) (h0 : S512x3072.Slices off S512x1024)
    (h1 : S512x1024.ShapeCasts S512x8x128) (h2 : S512x8x128.Transposes [1, 0, 2] S8x512x128)
    (h3 : S8x512x128.ShapeCasts S8x1x512x128)
    (p : Fin 8) (u : Fin 1) (s : Fin 512) (l : Fin 128) (n : Fin 3072) (h00 : off 0 = 0)
    (hn : n.val = off 1 + (128 * p.val + l.val)) :
    shapeCast S8x1x512x128 (transpose S8x512x128 [1, 0, 2] (shapeCast S512x8x128 (extractStridedSlice S512x1024 off P h0) h1) h2) h3 (ix4 p u s l)
      = P (ix2 s n) := by
  refine (shapeCast_apply _ h3 (ix4 p u s l) (ix3 p s l) ?_).trans ?_
  · rw [Shape.rowMajor_val_three, Shape.rowMajor_val_four]
    show (p.val * 512 + s.val) * 128 + l.val = ((p.val * 1 + u.val) * 512 + s.val) * 128 + l.val
    have := u.isLt; omega
  refine (transpose_apply [1, 0, 2] _ h2 (ix3 p s l) (ix3 s p l) fun b => ?_).trans ?_
  · match b with
    | ⟨0, _⟩ => rfl
    | ⟨1, _⟩ => rfl
    | ⟨2, _⟩ => rfl
  refine (shapeCast_apply _ h1 (ix3 s p l) (ix2 s (⟨128 * p.val + l.val, by omega⟩ : Fin 1024)) ?_).trans ?_
  · rw [Shape.rowMajor_val_two, Shape.rowMajor_val_three]
    show s.val * 1024 + (128 * p.val + l.val) = (s.val * 8 + p.val) * 128 + l.val
    omega
  refine extractStridedSlice_apply off P h0 _ (ix2 s n) fun a => ?_
  match a with
  | ⟨0, _⟩ => show s.val = off 0 + s.val; omega
  | ⟨1, _⟩ => show n.val = off 1 + (128 * p.val + l.val); omega

/-- Entry `(p, u, s, l)` of the body's three stored values: the fused projection at row `s` and column
    `1024 r + 128 p + l` (`r = 0, 1, 2`). -/
theorem k0_pay2_apply (x0 : Vec Ideal S1x512x1024 .f32) (x1 : Vec Ideal S3072x1024 .bf16) (x2 : Vec Ideal S3072 .f32)
    (p : Fin 8) (u : Fin 1) (s : Fin 512) (l : Fin 128) (n : Fin 3072) (hn : n.val = 0 + (128 * p.val + l.val)) :
    k0_pay2 (F := Ideal) x0 x1 x2 (ix4 p u s l) = (∑ h : Fin 1024, x0 (ix3 (0 : Fin 1) s h) * x1 (ix2 n h)) + x2 (ix1 n) := by
  unfold k0_pay2
  exact (qkv_packed_apply ![0, 0] _ _ _ _ _ p u s l n rfl hn).trans (k0_pay1_apply x0 x1 x2 s n)
theorem k0_pay3_apply (x0 : Vec Ideal S1x512x1024 .f32) (x1 : Vec Ideal S3072x1024 .bf16) (x2 : Vec Ideal S3072 .f32)
    (p : Fin 8) (u : Fin 1) (s : Fin 512) (l : Fin 128) (n : Fin 3072) (hn : n.val = 1024 + (128 * p.val + l.val)) :
    k0_pay3 (F := Ideal) x0 x1 x2 (ix4 p u s l) = (∑ h : Fin 1024, x0 (ix3 (0 : Fin 1) s h) * x1 (ix2 n h)) + x2 (ix1 n) := by
  unfold k0_pay3
  exact (qkv_packed_apply ![0, 1024] _ _ _ _ _ p u s l n rfl hn).trans (k0_pay1_apply x0 x1 x2 s n)
theorem k0_pay4_apply (x0 : Vec Ideal S1x512x1024 .f32) (x1 : Vec Ideal S3072x1024 .bf16) (x2 : Vec Ideal S3072 .f32)
    (p : Fin 8) (u : Fin 1) (s : Fin 512) (l : Fin 128) (n : Fin 3072) (hn : n.val = 2048 + (128 * p.val + l.val)) :
    k0_pay4 (F := Ideal) x0 x1 x2 (ix4 p u s l) = (∑ h : Fin 1024, x0 (ix3 (0 : Fin 1) s h) * x1 (ix2 n h)) + x2 (ix1 n) := by
  unfold k0_pay4
  exact (qkv_packed_apply ![0, 2048] _ _ _ _ _ p u s l n rfl hn).trans (k0_pay1_apply x0 x1 x2 s n)

/-! ## The blocks of a grid point -/

-- the TensorCore's buffer contents when the region is entered
variable (V : (c : Dev nD) → (b : Ref sig .tc) → Buf (Elt Ideal) ((c : Thread nD τ).loc b))

/-- Point `t` is batch `t / 4`, row tile `t % 4`: the token block and the three output blocks sit there, the weight
    and the bias are taken whole. -/
theorem idx0_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 1) = 0
    ∧ win0_3.index t (0 : Fin 4) = 0 ∧ win0_3.index t (1 : Fin 4) = t.val / 4 ∧ win0_3.index t (2 : Fin 4) = t.val % 4 ∧ win0_3.index t (3 : Fin 4) = 0
    ∧ win0_4.index t (0 : Fin 4) = 0 ∧ win0_4.index t (1 : Fin 4) = t.val / 4 ∧ win0_4.index t (2 : Fin 4) = t.val % 4 ∧ win0_4.index t (3 : Fin 4) = 0
    ∧ win0_5.index t (0 : Fin 4) = 0 ∧ win0_5.index t (1 : Fin 4) = t.val / 4 ∧ win0_5.index t (2 : Fin 4) = t.val % 4 ∧ win0_5.index t (3 : Fin 4) = 0 :=
  (by decide +kernel : ∀ t : Fin grid0.N, _)

/-- The token block at point `t`: rows `512 (t % 4) …` of batch `t / 4`. -/
theorem blk0_0_apply (c : Dev nD) (t : Fin cfg0.N) (s : Fin 512) (h : Fin 1024) (b : Fin 2) (s' : Fin 2048)
    (hb : b.val = t.val / 4) (hs : s'.val = 512 * (t.val % 4) + s.val) :
    (iblk0 V c 0 t : Vec Ideal S1x512x1024 .f32) (ix3 (0 : Fin 1) s h) = (V c main_arg0 : S2x2048x1024.Idx → EReal) (ix3 b s' h) := by
  obtain ⟨e0, e1, e2, -⟩ := idx0_facts t
  unfold iblk0
  rw [View.read_apply]
  show V c main_arg0 _ = V c main_arg0 _
  congr 1
  funext a; apply Fin.ext
  match a with
  | ⟨0, _⟩ => show win0_0.index t (0 : Fin 3) * 1 + 1 * 0 = b.val; omega
  | ⟨1, _⟩ => show win0_0.index t (1 : Fin 3) * 512 + 1 * s.val = s'.val; omega
  | ⟨2, _⟩ => show win0_0.index t (2 : Fin 3) * 1024 + 1 * h.val = h.val; omega

/-- The weight block is the whole weight. -/
theorem blk0_1_apply (c : Dev nD) (t : Fin cfg0.N) (n n' : Fin 3072) (h : Fin 1024) (hn : n'.val = n.val) :
    (iblk0 V c 1 t : Vec Ideal S3072x1024 .bf16) (ix2 n h) = (V c main_v4 : S3072x1024.Idx → EReal) (ix2 n' h) := by
  obtain ⟨-, -, -, e0, e1, -⟩ := idx0_facts t
  unfold iblk0
  rw [View.read_apply]
  show V c main_v4 _ = V c main_v4 _
  congr 1
  funext a; apply Fin.ext
  match a with
  | ⟨0, _⟩ => show win0_1.index t (0 : Fin 2) * 3072 + 1 * n.val = n'.val; omega
  | ⟨1, _⟩ => show win0_1.index t (1 : Fin 2) * 1024 + 1 * h.val = h.val; omega

/-- The bias block is the whole bias. -/
theorem blk0_2_apply (c : Dev nD) (t : Fin cfg0.N) (n n' : Fin 3072) (hn : n'.val = n.val) :
    (iblk0 V c 2 t : Vec Ideal S3072 .f32) (ix1 n) = (V c main_v8 : S3072.Idx → EReal) (ix1 n') := by
  obtain ⟨-, -, -, -, -, e0, -⟩ := idx0_facts t
  unfold iblk0
  rw [View.read_apply]
  show V c main_v8 _ = V c main_v8 _
  congr 1
  funext a; apply Fin.ext
  match a with
  | ⟨0, _⟩ => show win0_2.index t (0 : Fin 1) * 3072 + 1 * n.val = n'.val; omega

/-! ## What a point writes back -/

/-- The packed linear layer of the region's inputs with the `r`-th third of the fused weight and bias. -/
def G0 (c : Dev nD) (r : Fin 3) : Cert.Mha.SP.Idx → EReal :=
  Cert.Mha.pack (Cert.Mha.lin (Cert.Mha.tok3 (V c main_arg0)) (Cert.Mha.third2 (V c main_v4) r) (Cert.Mha.third1 (V c main_v8) r))

/-- A stored value that is, entry by entry, the projection of the point's blocks at column `1024 r + 128 p + l` is the
    point's block of `G0 r`: entry `j` of the block sits at pair `j 0`, batch `t / 4`, position `512 (t % 4) + j 2`,
    lane `j 3` of the array. -/
theorem point0_apply (c : Dev nD) (r : Fin 3) (t : Fin cfg0.N) (P : S8x1x512x128.Idx → EReal)
    (x0 : Vec Ideal S1x512x1024 .f32) (x1 : Vec Ideal S3072x1024 .bf16) (x2 : Vec Ideal S3072 .f32)
    (hx0 : x0 = iblk0 V c 0 t) (hx1 : x1 = iblk0 V c 1 t) (hx2 : x2 = iblk0 V c 2 t)
    (hP : ∀ (p : Fin 8) (u : Fin 1) (s : Fin 512) (l : Fin 128) (n : Fin 3072), n.val = 1024 * r.val + (128 * p.val + l.val) →
      P (ix4 p u s l) = (∑ h : Fin 1024, x0 (ix3 (0 : Fin 1) s h) * x1 (ix2 n h)) + x2 (ix1 n))
    (j : S8x1x512x128.Idx) (i : Cert.Mha.SP.Idx) (hi0 : (i 0).val = (j 0).val) (hi1 : (i 1).val = t.val / 4)
    (hi2 : (i 2).val = 512 * (t.val % 4) + (j 2).val) (hi3 : (i 3).val = (j 3).val) :
    P j = G0 V c r i := by
  have hr : r.val < 3 := r.isLt
  have hp : (j 0).val < 8 := (j 0).isLt
  have hl : (j 3).val < 128 := (j 3).isLt
  have hf : (Cert.Mha.laneFeat (i 0) (i 3)).val = 128 * (i 0).val + (i 3).val := rfl
  have hj : j = ix4 (j 0) (j 1) (j 2) (j 3) := eq_ix4 j
  rw [hj]
  refine (hP (j 0) (j 1) (j 2) (j 3) ⟨1024 * r.val + (128 * (j 0).val + (j 3).val), by omega⟩ rfl).trans ?_
  show _ = (∑ h : Fin 1024, Cert.Mha.tok3 (V c main_arg0) (i 1) (i 2) h * Cert.Mha.third2 (V c main_v4) r (Cert.Mha.laneFeat (i 0) (i 3)) h)
      + Cert.Mha.third1 (V c main_v8) r (Cert.Mha.laneFeat (i 0) (i 3))
  refine congrArg₂ (· + ·) (Finset.sum_congr rfl fun h _ => congrArg₂ (· * ·) ?_ ?_) ?_
  · rw [hx0]; exact blk0_0_apply V c t (j 2) h (i 1) (i 2) hi1 hi2
  · rw [hx1]; exact blk0_1_apply V c t _ ⟨1024 * r.val + (Cert.Mha.laneFeat (i 0) (i 3)).val, by omega⟩ h (by show 1024 * r.val + (Cert.Mha.laneFeat (i 0) (i 3)).val = 1024 * r.val + (128 * (j 0).val + (j 3).val); omega)
  · rw [hx2]; exact blk0_2_apply V c t _ ⟨1024 * r.val + (Cert.Mha.laneFeat (i 0) (i 3)).val, by omega⟩ (by show 1024 * r.val + (Cert.Mha.laneFeat (i 0) (i 3)).val = 1024 * r.val + (128 * (j 0).val + (j 3).val); omega)

/-! ## The zero offsets, however spelt -/

theorem hz0_4 : (![0, 0, 0, 0] : Fin 4 → Nat) = fun _ => 0 := funext fun a => by fin_cases a <;> rfl
theorem hz0_3 : (![0, 0, 0] : Fin 3 → Nat) = fun _ => 0 := funext fun a => by fin_cases a <;> rfl
theorem hz0_2 : (![0, 0] : Fin 2 → Nat) = fun _ => 0 := funext fun a => by fin_cases a <;> rfl
theorem hz0_1 : (![0] : Fin 1 → Nat) = fun _ => 0 := funext fun a => by fin_cases a <;> rfl

/-! ## The q array (window 3, third 0) -/

/-- What point `t` writes back to the q array is the point's block of `G0 0`. -/
theorem flushed0_3_eq (c : Dev nD) (t : Fin cfg0.N) :
    (dat0 (F := Ideal) V c).flushed 3 t = ((cfg0.win 3).blk t).view.read (Elt Ideal) (G0 V c 0) := by
  show (cfg0.win 3).cut (grid0.coords t) ((dat0 V c).after 3 t) = _
  rw [after0_3]
  unfold out0_3
  rw [View.canon_unit_zero hz0_4]
  simp only [View.ld_unit_zero (S := S1x512x1024) hz0_3, View.ld_unit_zero (S := S3072x1024) hz0_2, View.ld_unit_zero (S := S3072) hz0_1]
  have hw := (idx0_facts t).2.2.2.2.2.2
  obtain ⟨e0, e1, e2, e3, -⟩ := hw
  funext j
  rw [View.read_apply]
  have hr : ((0 : Fin 3) : ℕ) = 0 := rfl
  refine point0_apply V c 0 t _ _ _ _ rfl rfl rfl (fun p u s l n hn => k0_pay2_apply _ _ _ p u s l n (by omega)) j _ ?_ ?_ ?_ ?_
  · show win0_3.index t (0 : Fin 4) * 8 + 1 * (j 0).val = (j 0).val; omega
  · show win0_3.index t (1 : Fin 4) * 1 + 1 * (j 1).val = t.val / 4; have hj1 : (j 1).val < 1 := (j 1).isLt; omega
  · show win0_3.index t (2 : Fin 4) * 512 + 1 * (j 2).val = 512 * (t.val % 4) + (j 2).val; omega
  · show win0_3.index t (3 : Fin 4) * 128 + 1 * (j 3).val = (j 3).val; omega

/-- An index of the array is in point `t`'s block iff each coordinate is in the block's range on its axis. -/
theorem mem_blk0_3 (t : Fin cfg0.N) (i : S8x2x2048x128.Idx) :
    i ∈ ((cfg0.win 3).blk t).view.set ↔ ∀ a : Fin 4, win0_3.index t a * S8x1x512x128.size a ≤ (i a).val ∧ (i a).val < win0_3.index t a * S8x1x512x128.size a + S8x1x512x128.size a := by
  show i ∈ ((View.whole main_v10_0).slice (win0_3.rect t)).set ↔ _
  rw [View.set_slice_whole, Rect.mem_set_unit]
  exact Iff.rfl

/-- Every index of the array is in the block of the point of its batch and row tile. -/
theorem cover0_3 (i : S8x2x2048x128.Idx) : ∃ t : Fin cfg0.N, (cfg0.win 3).flush t = true ∧ i ∈ ((cfg0.win 3).blk t).view.set := by
  have h0 : (i 0).val < 8 := (i 0).isLt
  have h1 : (i 1).val < 2 := (i 1).isLt
  have h2 : (i 2).val < 2048 := (i 2).isLt
  have h3 : (i 3).val < 128 := (i 3).isLt
  have hN : cfg0.N = 8 := N_0
  obtain ⟨t, ht⟩ : ∃ t : Fin cfg0.N, t.val = 4 * (i 1).val + (i 2).val / 512 :=
    ⟨⟨4 * (i 1).val + (i 2).val / 512, Nat.lt_of_lt_of_eq (by omega) hN.symm⟩, rfl⟩
  have hw := (idx0_facts t).2.2.2.2.2.2
  obtain ⟨e0, e1, e2, e3, -⟩ := hw
  refine ⟨t, flush0_3 t, ?_⟩
  rw [mem_blk0_3]
  intro a
  match a with
  | ⟨0, _⟩ => show win0_3.index t (0 : Fin 4) * 8 ≤ (i 0).val ∧ (i 0).val < win0_3.index t (0 : Fin 4) * 8 + 8; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 128 ≤ (i 3).val ∧ (i 3).val < win0_3.index t (3 : Fin 4) * 128 + 128; omega

/-- After the whole grid the q array is the packed linear layer with the first third of the fused weight and bias. -/
theorem final0_3 (c : Dev nD) : ((dat0 (F := Ideal) V c).arrAt 3 cfg0.N : Cert.Mha.SP.Idx → EReal)
    = Cert.Mha.pack (Cert.Mha.lin (Cert.Mha.tok3 (V c main_arg0)) (Cert.Mha.third2 (V c main_v4) 0) (Cert.Mha.third1 (V c main_v8) 0)) :=
  (dat0 (F := Ideal) V c).arrAt_eq_of_cover 3 (G0 V c 0) (fun t _ => flushed0_3_eq V c t) cover0_3

/-! ## The k array (window 4, third 1) -/

/-- What point `t` writes back to the k array is the point's block of `G0 1`. -/
theorem flushed0_4_eq (c : Dev nD) (t : Fin cfg0.N) :
    (dat0 (F := Ideal) V c).flushed 4 t = ((cfg0.win 4).blk t).view.read (Elt Ideal) (G0 V c 1) := by
  show (cfg0.win 4).cut (grid0.coords t) ((dat0 V c).after 4 t) = _
  rw [after0_4]
  unfold out0_4
  rw [View.canon_unit_zero hz0_4]
  simp only [View.ld_unit_zero (S := S1x512x1024) hz0_3, View.ld_unit_zero (S := S3072x1024) hz0_2, View.ld_unit_zero (S := S3072) hz0_1]
  have hw := (idx0_facts t).2.2.2.2.2.2.2.2.2.2
  obtain ⟨e0, e1, e2, e3, -⟩ := hw
  funext j
  rw [View.read_apply]
  have hr : ((1 : Fin 3) : ℕ) = 1 := rfl
  refine point0_apply V c 1 t _ _ _ _ rfl rfl rfl (fun p u s l n hn => k0_pay3_apply _ _ _ p u s l n (by omega)) j _ ?_ ?_ ?_ ?_
  · show win0_4.index t (0 : Fin 4) * 8 + 1 * (j 0).val = (j 0).val; omega
  · show win0_4.index t (1 : Fin 4) * 1 + 1 * (j 1).val = t.val / 4; have hj1 : (j 1).val < 1 := (j 1).isLt; omega
  · show win0_4.index t (2 : Fin 4) * 512 + 1 * (j 2).val = 512 * (t.val % 4) + (j 2).val; omega
  · show win0_4.index t (3 : Fin 4) * 128 + 1 * (j 3).val = (j 3).val; omega

/-- An index of the array is in point `t`'s block iff each coordinate is in the block's range on its axis. -/
theorem mem_blk0_4 (t : Fin cfg0.N) (i : S8x2x2048x128.Idx) :
    i ∈ ((cfg0.win 4).blk t).view.set ↔ ∀ a : Fin 4, win0_4.index t a * S8x1x512x128.size a ≤ (i a).val ∧ (i a).val < win0_4.index t a * S8x1x512x128.size a + S8x1x512x128.size a := by
  show i ∈ ((View.whole main_v10_1).slice (win0_4.rect t)).set ↔ _
  rw [View.set_slice_whole, Rect.mem_set_unit]
  exact Iff.rfl

/-- Every index of the array is in the block of the point of its batch and row tile. -/
theorem cover0_4 (i : S8x2x2048x128.Idx) : ∃ t : Fin cfg0.N, (cfg0.win 4).flush t = true ∧ i ∈ ((cfg0.win 4).blk t).view.set := by
  have h0 : (i 0).val < 8 := (i 0).isLt
  have h1 : (i 1).val < 2 := (i 1).isLt
  have h2 : (i 2).val < 2048 := (i 2).isLt
  have h3 : (i 3).val < 128 := (i 3).isLt
  have hN : cfg0.N = 8 := N_0
  obtain ⟨t, ht⟩ : ∃ t : Fin cfg0.N, t.val = 4 * (i 1).val + (i 2).val / 512 :=
    ⟨⟨4 * (i 1).val + (i 2).val / 512, Nat.lt_of_lt_of_eq (by omega) hN.symm⟩, rfl⟩
  have hw := (idx0_facts t).2.2.2.2.2.2.2.2.2.2
  obtain ⟨e0, e1, e2, e3, -⟩ := hw
  refine ⟨t, flush0_4 t, ?_⟩
  rw [mem_blk0_4]
  intro a
  match a with
  | ⟨0, _⟩ => show win0_4.index t (0 : Fin 4) * 8 ≤ (i 0).val ∧ (i 0).val < win0_4.index t (0 : Fin 4) * 8 + 8; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 128 ≤ (i 3).val ∧ (i 3).val < win0_4.index t (3 : Fin 4) * 128 + 128; omega

/-- After the whole grid the k array is the packed linear layer with the second third of the fused weight and bias. -/
theorem final0_4 (c : Dev nD) : ((dat0 (F := Ideal) V c).arrAt 4 cfg0.N : Cert.Mha.SP.Idx → EReal)
    = Cert.Mha.pack (Cert.Mha.lin (Cert.Mha.tok3 (V c main_arg0)) (Cert.Mha.third2 (V c main_v4) 1) (Cert.Mha.third1 (V c main_v8) 1)) :=
  (dat0 (F := Ideal) V c).arrAt_eq_of_cover 4 (G0 V c 1) (fun t _ => flushed0_4_eq V c t) cover0_4

/-! ## The v array (window 5, third 2) -/

/-- What point `t` writes back to the v array is the point's block of `G0 2`. -/
theorem flushed0_5_eq (c : Dev nD) (t : Fin cfg0.N) :
    (dat0 (F := Ideal) V c).flushed 5 t = ((cfg0.win 5).blk t).view.read (Elt Ideal) (G0 V c 2) := by
  show (cfg0.win 5).cut (grid0.coords t) ((dat0 V c).after 5 t) = _
  rw [after0_5]
  unfold out0_5
  rw [View.canon_unit_zero hz0_4]
  simp only [View.ld_unit_zero (S := S1x512x1024) hz0_3, View.ld_unit_zero (S := S3072x1024) hz0_2, View.ld_unit_zero (S := S3072) hz0_1]
  have hw := (idx0_facts t).2.2.2.2.2.2.2.2.2.2.2.2.2.2
  obtain ⟨e0, e1, e2, e3⟩ := hw
  funext j
  rw [View.read_apply]
  have hr : ((2 : Fin 3) : ℕ) = 2 := rfl
  refine point0_apply V c 2 t _ _ _ _ rfl rfl rfl (fun p u s l n hn => k0_pay4_apply _ _ _ p u s l n (by omega)) j _ ?_ ?_ ?_ ?_
  · show win0_5.index t (0 : Fin 4) * 8 + 1 * (j 0).val = (j 0).val; omega
  · show win0_5.index t (1 : Fin 4) * 1 + 1 * (j 1).val = t.val / 4; have hj1 : (j 1).val < 1 := (j 1).isLt; omega
  · show win0_5.index t (2 : Fin 4) * 512 + 1 * (j 2).val = 512 * (t.val % 4) + (j 2).val; omega
  · show win0_5.index t (3 : Fin 4) * 128 + 1 * (j 3).val = (j 3).val; omega

/-- An index of the array is in point `t`'s block iff each coordinate is in the block's range on its axis. -/
theorem mem_blk0_5 (t : Fin cfg0.N) (i : S8x2x2048x128.Idx) :
    i ∈ ((cfg0.win 5).blk t).view.set ↔ ∀ a : Fin 4, win0_5.index t a * S8x1x512x128.size a ≤ (i a).val ∧ (i a).val < win0_5.index t a * S8x1x512x128.size a + S8x1x512x128.size a := by
  show i ∈ ((View.whole main_v10_2).slice (win0_5.rect t)).set ↔ _
  rw [View.set_slice_whole, Rect.mem_set_unit]
  exact Iff.rfl

/-- Every index of the array is in the block of the point of its batch and row tile. -/
theorem cover0_5 (i : S8x2x2048x128.Idx) : ∃ t : Fin cfg0.N, (cfg0.win 5).flush t = true ∧ i ∈ ((cfg0.win 5).blk t).view.set := by
  have h0 : (i 0).val < 8 := (i 0).isLt
  have h1 : (i 1).val < 2 := (i 1).isLt
  have h2 : (i 2).val < 2048 := (i 2).isLt
  have h3 : (i 3).val < 128 := (i 3).isLt
  have hN : cfg0.N = 8 := N_0
  obtain ⟨t, ht⟩ : ∃ t : Fin cfg0.N, t.val = 4 * (i 1).val + (i 2).val / 512 :=
    ⟨⟨4 * (i 1).val + (i 2).val / 512, Nat.lt_of_lt_of_eq (by omega) hN.symm⟩, rfl⟩
  have hw := (idx0_facts t).2.2.2.2.2.2.2.2.2.2.2.2.2.2
  obtain ⟨e0, e1, e2, e3⟩ := hw
  refine ⟨t, flush0_5 t, ?_⟩
  rw [mem_blk0_5]
  intro a
  match a with
  | ⟨0, _⟩ => show win0_5.index t (0 : Fin 4) * 8 ≤ (i 0).val ∧ (i 0).val < win0_5.index t (0 : Fin 4) * 8 + 8; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 128 ≤ (i 3).val ∧ (i 3).val < win0_5.index t (3 : Fin 4) * 128 + 128; omega

/-- After the whole grid the v array is the packed linear layer with the third third of the fused weight and bias. -/
theorem final0_5 (c : Dev nD) : ((dat0 (F := Ideal) V c).arrAt 5 cfg0.N : Cert.Mha.SP.Idx → EReal)
    = Cert.Mha.pack (Cert.Mha.lin (Cert.Mha.tok3 (V c main_arg0)) (Cert.Mha.third2 (V c main_v4) 2) (Cert.Mha.third1 (V c main_v8) 2)) :=
  (dat0 (F := Ideal) V c).arrAt_eq_of_cover 5 (G0 V c 2) (fun t _ => flushed0_5_eq V c t) cover0_5

end Cert.KernelIdeal.PipeV

end
-- ==== Proof.KI.Value1.lean ====
/-
  The attention region's value on the extended reals.

  At grid point (pair p, batch b, query tile qi) the body reads the query block (rows 256 qi … 256 qi + 255 of pair p,
  batch b) and the whole key and value blocks of that pair and batch.  Lanes 64 h … 64 h + 63 (h = 0, 1) of the three
  blocks are head 2 p + h.  For each of the two heads it forms the scaled scores of the 256 query rows against the 2048
  key rows, takes each row's softmax (maximum folded from minus infinity, exponentials of the differences, divided by
  their sum), and combines the value rows with those weights; the two heads' contexts are stored side by side.  So lane
  l of row r of the stored block is the softmax-weighted combination, over key positions, of lane l of the values,
  with the weights of the head that owns lane l.  Read through the packed layout this is the specification's context,
  feature by feature: feature 128 p + l has head 2 p + l / 64, whose 64 features are lanes 64 (l / 64) … of pair p.
-/
import proofs.«412850_j50843822850162_3_alg».proof.Proof.KI.Region1
import proofs.«412850_j50843822850162_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PipeV

open Cert.KernelIdeal Cert.KernelIdeal.Gen Cert.KernelIdeal.Pipe
open Idealize.ShloMosaic Idealize.ShloMosaic.TcCoe Idealize.ShloMosaic.ValueIdx Idealize.SL.Sem
open Idealize.ShloMosaic.Pipeline (Dat)
open scoped BigOperators

/-! ## The two products at an index -/

theorem lhs_qk_0 (i : S256x2048.Idx) (q : dot_S256x64_S2048x64_S256x2048_1_1_0_0_n_n.contr.Idx) : (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhs_qk_1 (i : S256x2048.Idx) (q : dot_S256x64_S2048x64_S256x2048_1_1_0_0_n_n.contr.Idx) : (dot_S256x64_S2048x64_S256x2048_1_1_0_0_n_n.lhsIdx i q 1).val = (q ⟨0, by decide⟩).val :=
  dot_S256x64_S2048x64_S256x2048_1_1_0_0_n_n.lhsIdx_val_of_single rfl i q
theorem rhs_qk_0 (i : S256x2048.Idx) (q : dot_S256x64_S2048x64_S256x2048_1_1_0_0_n_n.contr.Idx) : (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhs_qk_1 (i : S256x2048.Idx) (q : dot_S256x64_S2048x64_S256x2048_1_1_0_0_n_n.contr.Idx) : (dot_S256x64_S2048x64_S256x2048_1_1_0_0_n_n.rhsIdx i q 1).val = (q ⟨0, by decide⟩).val :=
  dot_S256x64_S2048x64_S256x2048_1_1_0_0_n_n.rhsIdx_val_of_single rfl i q

/-- Queries against keys: entry (r, t) is the sum over the 64 depths of the products. -/
theorem qk_apply (q : FVec Ideal S256x64 .bf16) (k : FVec Ideal S2048x64 .bf16) (r : Fin 256) (t : Fin 2048) :
    matmul dot_S256x64_S2048x64_S256x2048_1_1_0_0_n_n none q k (constant (F := Ideal) S256x2048 .f32 0x00000000#32) (ix2 r t)
      = ∑ d : Fin 64, q (ix2 r d) * k (ix2 t d) := by
  simp only [matmul]
  rw [Ideal.matmul_constant_zero_apply, ← Equiv.sum_comp (contrEquiv1 dot_S256x64_S2048x64_S256x2048_1_1_0_0_n_n 64 rfl rfl).symm]
  refine Finset.sum_congr rfl fun d _ => ?_
  have hd := contrEquiv1_symm_val dot_S256x64_S2048x64_S256x2048_1_1_0_0_n_n 64 rfl rfl d
  have el : dot_S256x64_S2048x64_S256x2048_1_1_0_0_n_n.lhsIdx (ix2 r t) ((contrEquiv1 dot_S256x64_S2048x64_S256x2048_1_1_0_0_n_n 64 rfl rfl).symm d) = ix2 r d := funext fun a => Fin.ext (by
    match a with
    | ⟨0, _⟩ => exact lhs_qk_0 _ _
    | ⟨1, _⟩ => exact (lhs_qk_1 _ _).trans hd)
  have er : dot_S256x64_S2048x64_S256x2048_1_1_0_0_n_n.rhsIdx (ix2 r t) ((contrEquiv1 dot_S256x64_S2048x64_S256x2048_1_1_0_0_n_n 64 rfl rfl).symm d) = ix2 t d := funext fun a => Fin.ext (by
    match a with
    | ⟨0, _⟩ => exact rhs_qk_0 _ _
    | ⟨1, _⟩ => exact (rhs_qk_1 _ _).trans hd)
  rw [el, er]

theorem lhs_av_0 (i : S256x64.Idx) (q : dot_S256x2048_S2048x64_S256x64_1_0_0_1_n_n.contr.Idx) : (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_av_1 (i : S256x64.Idx) (q : dot_S256x2048_S2048x64_S256x64_1_0_0_1_n_n.contr.Idx) : (dot_S256x2048_S2048x64_S256x64_1_0_0_1_n_n.lhsIdx i q 1).val = (q ⟨0, by decide⟩).val :=
  dot_S256x2048_S2048x64_S256x64_1_0_0_1_n_n.lhsIdx_val_of_single rfl i q
theorem rhs_av_0 (i : S256x64.Idx) (q : dot_S256x2048_S2048x64_S256x64_1_0_0_1_n_n.contr.Idx) : (dot_S256x2048_S2048x64_S256x64_1_0_0_1_n_n.rhsIdx i q 0).val = (q ⟨0, by decide⟩).val :=
  dot_S256x2048_S2048x64_S256x64_1_0_0_1_n_n.rhsIdx_val_of_single rfl i q
theorem rhs_av_1 (i : S256x64.Idx) (q : dot_S256x2048_S2048x64_S256x64_1_0_0_1_n_n.contr.Idx) : (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Weights against values: entry (r, d) is the sum over the 2048 key positions of the products. -/
theorem av_apply (a : FVec Ideal S256x2048 .bf16) (v : FVec Ideal S2048x64 .bf16) (r : Fin 256) (d : Fin 64) :
    matmul dot_S256x2048_S2048x64_S256x64_1_0_0_1_n_n none a v (constant (F := Ideal) S256x64 .f32 0x00000000#32) (ix2 r d)
      = ∑ t : Fin 2048, a (ix2 r t) * v (ix2 t d) := by
  simp only [matmul]
  rw [Ideal.matmul_constant_zero_apply, ← Equiv.sum_comp (contrEquiv1 dot_S256x2048_S2048x64_S256x64_1_0_0_1_n_n 2048 rfl rfl).symm]
  refine Finset.sum_congr rfl fun t _ => ?_
  have ht := contrEquiv1_symm_val dot_S256x2048_S2048x64_S256x64_1_0_0_1_n_n 2048 rfl rfl t
  have el : dot_S256x2048_S2048x64_S256x64_1_0_0_1_n_n.lhsIdx (ix2 r d) ((contrEquiv1 dot_S256x2048_S2048x64_S256x64_1_0_0_1_n_n 2048 rfl rfl).symm t) = ix2 r t := funext fun a => Fin.ext (by
    match a with
    | ⟨0, _⟩ => exact lhs_av_0 _ _
    | ⟨1, _⟩ => exact (lhs_av_1 _ _).trans ht)
  have er : dot_S256x2048_S2048x64_S256x64_1_0_0_1_n_n.rhsIdx (ix2 r d) ((contrEquiv1 dot_S256x2048_S2048x64_S256x64_1_0_0_1_n_n 2048 rfl rfl).symm t) = ix2 t d := funext fun a => Fin.ext (by
    match a with
    | ⟨0, _⟩ => exact (rhs_av_0 _ _).trans ht
    | ⟨1, _⟩ => exact rhs_av_1 _ _)
  rw [el, er]

/-! ## A row's maximum and sum, and a row statistic spread back over the row -/

/-- The index of row `r` at column `t`, as the reduction over the columns names it. -/
theorem lift_row (r : Fin 256) (t : Fin 2048) : reduces_S256x2048_S256.lift (ix1 r) t = ix2 r t := by
  funext a
  apply Fin.ext
  refine (Shape.Reduces.lift_val reduces_S256x2048_S256 (ix1 r) t a).trans ?_
  unfold Shape.Reduces.liftVal
  match a with
  | ⟨0, _⟩ => rfl
  | ⟨1, _⟩ => rfl

theorem rowmax_apply (x : FVec Ideal S256x2048 .f32) (r : Fin 256) :
    multiReduction (F := Ideal) .maximumf [1] S256 x 0xFF800000#32 reduces_S256x2048_S256 (.inl rfl) rfl (ix1 r)
      = (Finset.univ : Finset (Fin 2048)).fold max Cert.Mha.floor0 (fun t => x (ix2 r t)) := by
  refine (Ideal.multiReduction_maximumf_single x _ reduces_S256x2048_S256 _ _ (ix1 r)).trans ?_
  exact congrArg (fun f : Fin 2048 → EReal => (Finset.univ : Finset (Fin 2048)).fold max Cert.Mha.floor0 f)
    (funext fun t => congrArg x (lift_row r t))

theorem rowsum_apply (x : FVec Ideal S256x2048 .f32) (r : Fin 256) :
    multiReduction (F := Ideal) .add [1] S256 x 0x00000000#32 reduces_S256x2048_S256 (.inl rfl) rfl (ix1 r)
      = ∑ t : Fin 2048, x (ix2 r t) := by
  refine (Ideal.multiReduction_add_single x _ reduces_S256x2048_S256 _ _ (ix1 r)).trans ?_
  show ∑ t : Fin 2048, x (reduces_S256x2048_S256.lift (ix1 r) t) = _
  simp only [lift_row]

/-- A per-row value, made a column and spread over the 2048 columns, reads the row's value everywhere. -/
theorem spread_apply (v : FVec Ideal S256 .f32) (r : Fin 256) (t : Fin 2048) :
    broadcastTo S256x2048 (shapeCast S256x1 v shapeCasts_S256_S256x1) broadcasts_S256x1_S256x2048 (ix2 r t) = v (ix1 r) := by
  refine (broadcastTo_apply _ broadcasts_S256x1_S256x2048 (ix2 r t) (ix2 r (0 : Fin 1)) fun a => ?_).trans ?_
  · match a with
    | ⟨0, _⟩ => show r.val = if (256 : Nat) = 1 then 0 else r.val; rw [if_neg (by decide)]
    | ⟨1, _⟩ => show 0 = if (1 : Nat) = 1 then 0 else t.val; rw [if_pos rfl]
  · refine shapeCast_apply v shapeCasts_S256_S256x1 _ _ ?_
    rw [Shape.rowMajor_val_one, Shape.rowMajor_val_two]
    show r.val = r.val * 1 + 0
    omega

/-! ## One head's lanes of a block -/

/-- Lane `o + d` of the 128: depth `d` of the head whose first lane is `o` (0 or 64). -/
def lane (o : Nat) (d : Fin 64) : Fin 128 := ⟨(o + d.val) % 128, Nat.mod_lt _ (by norm_num)⟩

theorem lane_val (o : Nat) (ho : o + 64 ≤ 128) (d : Fin 64) : (lane o d).val = o + d.val :=
  Nat.mod_eq_of_lt (by have := d.isLt; omega)

/-- The query block as a matrix, cut to the 64 lanes from `o`, reads the block at row `r`, lane `o + d`. -/
theorem qslice_apply (o : Nat) (ho : o + 64 ≤ 128) (hs : S256x128.Slices ![0, o] S256x64) (x : Vec Ideal S1x1x256x128 .bf16)
    (r : Fin 256) (d : Fin 64) :
    extractStridedSlice S256x64 ![0, o] (k1_pay3 x) hs (ix2 r d) = x (ix4 (0 : Fin 1) (0 : Fin 1) r (lane o d)) := by
  refine (slice2_axis1_apply o _ hs r d (lane o d) (lane_val o ho d)).trans ?_
  unfold k1_pay3
  refine shapeCast_apply x shapeCasts_S1x1x256x128_S256x128 _ _ ?_
  rw [Shape.rowMajor_val_four, Shape.rowMajor_val_two]
  show ((0 * 1 + 0) * 256 + r.val) * 128 + (lane o d).val = r.val * 128 + (lane o d).val
  omega

/-- The same for a key or value block of 2048 rows. -/
theorem kvslice_apply (o : Nat) (ho : o + 64 ≤ 128) (hs : S2048x128.Slices ![0, o] S2048x64) (x : Vec Ideal S1x1x2048x128 .bf16)
    (t : Fin 2048) (d : Fin 64) :
    extractStridedSlice S2048x64 ![0, o] (shapeCast S2048x128 x shapeCasts_S1x1x2048x128_S2048x128) hs (ix2 t d) = x (ix4 (0 : Fin 1) (0 : Fin 1) t (lane o d)) := by
  refine (slice2_axis1_apply o _ hs t d (lane o d) (lane_val o ho d)).trans ?_
  refine shapeCast_apply x shapeCasts_S1x1x2048x128_S2048x128 _ _ ?_
  rw [Shape.rowMajor_val_four, Shape.rowMajor_val_two]
  show ((0 * 1 + 0) * 2048 + t.val) * 128 + (lane o d).val = t.val * 128 + (lane o d).val
  omega

/-- A [256, 64] matrix given two leading unit axes reads the matrix. -/
theorem unit2_apply (v : FVec Ideal S256x64 .bf16) (u0 u1 : Fin 1) (r : Fin 256) (d : Fin 64) :
    shapeCast S1x1x256x64 v shapeCasts_S256x64_S1x1x256x64 (ix4 u0 u1 r d) = v (ix2 r d) := by
  refine shapeCast_apply v shapeCasts_S256x64_S1x1x256x64 _ _ ?_
  rw [Shape.rowMajor_val_four, Shape.rowMajor_val_two]
  show r.val * 64 + d.val = ((u0.val * 1 + u1.val) * 256 + r.val) * 64 + d.val
  have h0 : u0.val = 0 := by omega
  have h1 : u1.val = 0 := by omega
  rw [h0, h1]; omega

/-! ## One head's payload, generic in its first lane -/

section Head
variable (o : Nat) (hq : S256x128.Slices ![0, o] S256x64) (hk : S2048x128.Slices ![0, o] S2048x64)
variable (x0 : Vec Ideal S1x1x256x128 .bf16) (x1 x2 : Vec Ideal S1x1x2048x128 .bf16)

/-- The head's scaled scores, as the body computes them. -/
def hS : FVec Ideal S256x2048 .f32 :=
  mulf (matmul dot_S256x64_S2048x64_S256x2048_1_1_0_0_n_n none (extractStridedSlice S256x64 ![0, o] (k1_pay3 x0) hq)
      (extractStridedSlice S2048x64 ![0, o] (k1_pay4 x1) hk) (constant S256x2048 .f32 0x00000000#32))
    (broadcast S256x2048 (Scalar.ofBits .f32 0x3E000000#32))

/-- The exponentials of the scores less their row's maximum. -/
def hE : FVec Ideal S256x2048 .f32 :=
  exp (subf (hS o hq hk x0 x1) (broadcastTo S256x2048 (shapeCast S256x1
    (multiReduction .maximumf [1] S256 (hS o hq hk x0 x1) 0xFF800000#32 reduces_S256x2048_S256 (.inl rfl) rfl)
    shapeCasts_S256_S256x1) broadcasts_S256x1_S256x2048))

/-- Their row sums. -/
def hL : FVec Ideal S256 .f32 :=
  multiReduction .add [1] S256 (hE o hq hk x0 x1) 0x00000000#32 reduces_S256x2048_S256 (.inl rfl) rfl

/-- The head's context: the weights against the head's lanes of the values. -/
def hC : FVec Ideal S256x64 .bf16 :=
  truncf .bf16 (matmul dot_S256x2048_S2048x64_S256x64_1_0_0_1_n_n none
    (truncf .bf16 (divf (hE o hq hk x0 x1) (broadcastTo S256x2048 (shapeCast S256x1 (hL o hq hk x0 x1) shapeCasts_S256_S256x1)
      broadcasts_S256x1_S256x2048)) bitsLt_bf16_f32)
    (extractStridedSlice S2048x64 ![0, o] (k1_pay5 x2) hk) (constant S256x64 .f32 0x00000000#32)) bitsLt_bf16_f32

end Head

/-- The printed payloads are these at first lane 0 (the first head) and 64 (the second). -/
theorem pay7_eq (x0 : Vec Ideal S1x1x256x128 .bf16) (x1 x2 : Vec Ideal S1x1x2048x128 .bf16) :
    k1_pay7 x0 x1 x2 = hC 0 slices_S256x128_o0_0_S256x64 slices_S2048x128_o0_0_S2048x64 x0 x1 x2 := rfl
theorem pay2_eq (x0 : Vec Ideal S1x1x256x128 .bf16) (x1 x2 : Vec Ideal S1x1x2048x128 .bf16) :
    k1_pay2 (k1_pay6 x2) (k1_pay8 x0 x1) (k1_pay9 x0 x1)
      = shapeCast S1x1x256x64 (hC 64 slices_S256x128_o0_64_S256x64 slices_S2048x128_o0_64_S2048x64 x0 x1 x2) shapeCasts_S256x64_S1x1x256x64 := rfl
theorem pay1_eq (v : FVec Ideal S256x64 .bf16) : k1_pay1 v = shapeCast S1x1x256x64 v shapeCasts_S256x64_S1x1x256x64 := rfl

/-! ## The head's payload at an index -/

/-- A row of scores turned into softmax weights and applied to a row of values: the maximum folded from minus
    infinity, the exponentials of the differences over their sum, the weighted sum. -/
def softCtx (sc v : Fin 2048 → EReal) : EReal :=
  ∑ t : Fin 2048, Ideal.div (Ideal.exp (sc t - (Finset.univ : Finset (Fin 2048)).fold max Cert.Mha.floor0 sc))
      (∑ u : Fin 2048, Ideal.exp (sc u - (Finset.univ : Finset (Fin 2048)).fold max Cert.Mha.floor0 sc)) * v t

/-- The scaled score of query row `r` against key row `t` over the 64 lanes from `o` of the two blocks. -/
def hscore (o : Nat) (x0 : Vec Ideal S1x1x256x128 .bf16) (x1 : Vec Ideal S1x1x2048x128 .bf16) (r : Fin 256) (t : Fin 2048) : EReal :=
  (∑ d : Fin 64, (x0 (ix4 (0 : Fin 1) (0 : Fin 1) r (lane o d)) : EReal) * (x1 (ix4 (0 : Fin 1) (0 : Fin 1) t (lane o d)) : EReal)) * Cert.Mha.scale

section HeadValue
variable (o : Nat) (ho : o + 64 ≤ 128) (hq : S256x128.Slices ![0, o] S256x64) (hk : S2048x128.Slices ![0, o] S2048x64)
variable (x0 : Vec Ideal S1x1x256x128 .bf16) (x1 x2 : Vec Ideal S1x1x2048x128 .bf16)
include ho

theorem hS_apply (r : Fin 256) (t : Fin 2048) : hS o hq hk x0 x1 (ix2 r t) = hscore o x0 x1 r t := by
  unfold hS hscore
  show (_ : EReal) * _ = _ * _
  refine congrArg₂ (· * ·) ?_ rfl
  refine (qk_apply _ _ r t).trans (Finset.sum_congr rfl fun d _ => ?_)
  exact congrArg₂ (· * ·) (qslice_apply o ho hq x0 r d) (kvslice_apply o ho hk x1 t d)

theorem hE_apply (r : Fin 256) (t : Fin 2048) :
    hE o hq hk x0 x1 (ix2 r t)
      = Ideal.exp (hscore o x0 x1 r t - (Finset.univ : Finset (Fin 2048)).fold max Cert.Mha.floor0 (fun u => hscore o x0 x1 r u)) := by
  unfold hE
  show Ideal.exp ((_ : EReal) - _) = Ideal.exp (_ - _)
  refine congrArg Ideal.exp (congrArg₂ (· - ·) (hS_apply o ho hq hk x0 x1 r t) ?_)
  refine (spread_apply _ r t).trans ((rowmax_apply _ r).trans ?_)
  exact congrArg (fun f : Fin 2048 → EReal => (Finset.univ : Finset (Fin 2048)).fold max Cert.Mha.floor0 f)
    (funext fun u => hS_apply o ho hq hk x0 x1 r u)

theorem hL_apply (r : Fin 256) :
    hL o hq hk x0 x1 (ix1 r)
      = ∑ u : Fin 2048, Ideal.exp (hscore o x0 x1 r u - (Finset.univ : Finset (Fin 2048)).fold max Cert.Mha.floor0 (fun u => hscore o x0 x1 r u)) := by
  unfold hL
  exact (rowsum_apply _ r).trans (Finset.sum_congr rfl fun u _ => hE_apply o ho hq hk x0 x1 r u)

/-- The head's context at row `r`, depth `d`: the row's softmax weights applied to lane `o + d` of the values. -/
theorem hC_apply (r : Fin 256) (d : Fin 64) :
    hC o hq hk x0 x1 x2 (ix2 r d)
      = softCtx (fun t => hscore o x0 x1 r t) (fun t => x2 (ix4 (0 : Fin 1) (0 : Fin 1) t (lane o d))) := by
  unfold hC softCtx
  refine (av_apply _ _ r d).trans (Finset.sum_congr rfl fun t _ => ?_)
  refine congrArg₂ (· * ·) ?_ (kvslice_apply o ho hk x2 t d)
  show Ideal.div _ _ = Ideal.div _ _
  exact congrArg₂ Ideal.div (hE_apply o ho hq hk x0 x1 r t) ((spread_apply _ r t).trans (hL_apply o ho hq hk x0 x1 r))

end HeadValue

/-! ## The stored block at an index -/

theorem hz4 : (![0, 0, 0, 0] : Fin 4 → Nat) = fun _ => 0 := funext fun a => by fin_cases a <;> rfl

/-- The first lane of the head that owns lane `l`: 0 for lanes 0..63, 64 for lanes 64..127. -/
def laneOff (l : Fin 128) : Nat := 64 * (l.val / 64)

theorem laneOff_lane0 (d : Fin 64) : laneOff (lane 0 d) = 0 := by
  unfold laneOff; rw [lane_val 0 (by norm_num) d]; have := d.isLt; omega
theorem laneOff_lane64 (d : Fin 64) : laneOff (lane 64 d) = 64 := by
  unfold laneOff; rw [lane_val 64 (by norm_num) d]; have := d.isLt; omega

/-- Row `r`, lane `l` of what the body leaves: the softmax weights of row `r` under the head that owns lane `l`,
    applied to lane `l` of the values. -/
def blockCtx (x0 : Vec Ideal S1x1x256x128 .bf16) (x1 x2 : Vec Ideal S1x1x2048x128 .bf16) (r : Fin 256) (l : Fin 128) : EReal :=
  softCtx (fun t => hscore (laneOff l) x0 x1 r t) (fun t => x2 (ix4 (0 : Fin 1) (0 : Fin 1) t l))

theorem out1_3_apply (x0 : Vec Ideal S1x1x256x128 .bf16) (x1 x2 : Vec Ideal S1x1x2048x128 .bf16) (y : S1x1x256x128.Idx) :
    out1_3 x0 x1 x2 y = blockCtx x0 x1 x2 (y 2) (y 3) := by
  unfold out1_3
  simp only [View.ld_unit_zero (S := S1x1x256x128) hz4, View.ld_unit_zero (S := S1x1x2048x128) hz4]
  refine View.canon_apply_of_pieces (Val := Elt Ideal) (S := S1x1x256x128) (e := .bf16)
    (fun y : S1x1x256x128.Idx => (blockCtx x0 x1 x2 (y 2) (y 3) : Elt Ideal .bf16)) _ (fun p hp x => ?_) y (cover1_3 _ _ y)
  simp only [List.mem_cons, List.not_mem_nil, or_false] at hp
  rcases hp with rfl | rfl
  · -- lanes 64..127: the second head
    obtain ⟨u0, u1, r, d, rfl⟩ : ∃ (u0 u1 : Fin 1) (r : Fin 256) (d : Fin 64), x = ix4 u0 u1 r d := ⟨x 0, x 1, x 2, x 3, eq_ix4 x⟩
    have hr : (r1_hi.emb (ix4 u0 u1 r d)) 2 = r := Fin.ext (by show 0 + 1 * r.val = r.val; omega)
    have hl : (r1_hi.emb (ix4 u0 u1 r d)) 3 = lane 64 d := Fin.ext (by
      show 64 + 1 * d.val = (lane 64 d).val; rw [lane_val 64 (by norm_num) d]; omega)
    show k1_pay2 (k1_pay6 x2) (k1_pay8 x0 x1) (k1_pay9 x0 x1) (ix4 u0 u1 r d)
      = blockCtx x0 x1 x2 ((r1_hi.emb (ix4 u0 u1 r d)) 2) ((r1_hi.emb (ix4 u0 u1 r d)) 3)
    rw [hr, hl]
    refine (congrFun (pay2_eq x0 x1 x2) (ix4 u0 u1 r d)).trans ((unit2_apply _ u0 u1 r d).trans
      ((hC_apply 64 (by norm_num) slices_S256x128_o0_64_S256x64 slices_S2048x128_o0_64_S2048x64 x0 x1 x2 r d).trans ?_))
    unfold blockCtx
    rw [laneOff_lane64]
  · -- lanes 0..63: the first head
    obtain ⟨u0, u1, r, d, rfl⟩ : ∃ (u0 u1 : Fin 1) (r : Fin 256) (d : Fin 64), x = ix4 u0 u1 r d := ⟨x 0, x 1, x 2, x 3, eq_ix4 x⟩
    have hr : (r1_lo.emb (ix4 u0 u1 r d)) 2 = r := Fin.ext (by show 0 + 1 * r.val = r.val; omega)
    have hl : (r1_lo.emb (ix4 u0 u1 r d)) 3 = lane 0 d := Fin.ext (by
      show 0 + 1 * d.val = (lane 0 d).val; rw [lane_val 0 (by norm_num) d]; omega)
    show k1_pay1 (k1_pay7 x0 x1 x2) (ix4 u0 u1 r d)
      = blockCtx x0 x1 x2 ((r1_lo.emb (ix4 u0 u1 r d)) 2) ((r1_lo.emb (ix4 u0 u1 r d)) 3)
    rw [hr, hl]
    refine (congrFun (pay1_eq _) (ix4 u0 u1 r d)).trans ((unit2_apply _ u0 u1 r d).trans
      ((congrFun (pay7_eq x0 x1 x2) (ix2 r d)).trans
        ((hC_apply 0 (by norm_num) slices_S256x128_o0_0_S256x64 slices_S2048x128_o0_0_S2048x64 x0 x1 x2 r d).trans ?_)))
    unfold blockCtx
    rw [laneOff_lane0]

/-! ## The specification's context at a packed index -/

/-- Packed arrays `[pair, batch, position, lane]` on the extended reals. -/
abbrev Packed : Type := Cert.Mha.SP.Idx → EReal

/-- The specification's context of packed query, key and value arrays, packed. -/
def G (Q K W : Packed) : Packed :=
  Cert.Mha.pack (Cert.Mha.ctxf (Cert.Mha.attn (Cert.Mha.score (Cert.Mha.unpack Q) (Cert.Mha.unpack K))) (Cert.Mha.unpack W))

/-- Feature `128 p + l` has head `2 p + l / 64`; that head's depth `d` is feature `128 p + 64 (l / 64) + d`: pair `p`, -/
theorem pairOf_head (p : Fin 8) (l : Fin 128) (d : Fin 64) :
    Cert.Mha.pairOf (Cert.Mha.feat (Cert.Mha.headOf (Cert.Mha.laneFeat p l)) d) = p := Fin.ext (by
  have := p.isLt; have := l.isLt; have := d.isLt
  simp only [Cert.Mha.pairOf, Cert.Mha.feat, Cert.Mha.headOf, Cert.Mha.laneFeat]; omega)
/-- lane `64 (l / 64) + d`. -/
theorem laneOf_head (p : Fin 8) (l : Fin 128) (d : Fin 64) :
    Cert.Mha.laneOf (Cert.Mha.feat (Cert.Mha.headOf (Cert.Mha.laneFeat p l)) d) = lane (laneOff l) d := Fin.ext (by
  have := p.isLt; have := l.isLt; have := d.isLt
  simp only [Cert.Mha.laneOf, Cert.Mha.feat, Cert.Mha.headOf, Cert.Mha.laneFeat, lane, laneOff]; omega)
theorem pairOf_laneFeat (p : Fin 8) (l : Fin 128) : Cert.Mha.pairOf (Cert.Mha.laneFeat p l) = p := Fin.ext (by
  have := p.isLt; have := l.isLt
  simp only [Cert.Mha.pairOf, Cert.Mha.laneFeat]; omega)
theorem laneOf_laneFeat (p : Fin 8) (l : Fin 128) : Cert.Mha.laneOf (Cert.Mha.laneFeat p l) = l := Fin.ext (by
  have := p.isLt; have := l.isLt
  simp only [Cert.Mha.laneOf, Cert.Mha.laneFeat]; omega)

/-- The packed context at pair `p`, batch `b`, position `s`, lane `l`: the softmax over the key positions of the scores
    taken over the owning head's 64 lanes of pair `p`, applied to lane `l` of the values. -/
theorem G_apply (Q K W : Packed) (p : Fin 8) (b : Fin 2) (s : Fin 2048) (l : Fin 128) :
    G Q K W (ix4 p b s l)
      = softCtx (fun t => (∑ d : Fin 64, Q (ix4 p b s (lane (laneOff l) d)) * K (ix4 p b t (lane (laneOff l) d))) * Cert.Mha.scale)
          (fun t => W (ix4 p b t l)) := by
  show softCtx (fun t => Cert.Mha.score (Cert.Mha.unpack Q) (Cert.Mha.unpack K) b (Cert.Mha.headOf (Cert.Mha.laneFeat p l)) s t)
      (fun t => Cert.Mha.unpack W b t (Cert.Mha.laneFeat p l)) = _
  refine congrArg₂ softCtx (funext fun t => ?_) (funext fun t => ?_)
  · unfold Cert.Mha.score Cert.Mha.unpack
    refine congrArg (· * Cert.Mha.scale) (Finset.sum_congr rfl fun d _ => ?_)
    simp only [pairOf_head, laneOf_head]
  · unfold Cert.Mha.unpack
    simp only [pairOf_laneFeat, laneOf_laneFeat]

/-! ## From blocks to the array -/

-- the TensorCore's buffer contents when the region is entered
variable (V : (c : Dev nD) → (b : Ref sig .tc) → Buf (Elt Ideal) ((c : Thread nD τ).loc b))

/-- The three input blocks at a point, and the three input arrays, at their literal types. -/
abbrev qblk (c : Dev nD) (t : Fin cfg1.N) : Vec Ideal S1x1x256x128 .bf16 := iblk1 V c 0 t
abbrev kblk (c : Dev nD) (t : Fin cfg1.N) : Vec Ideal S1x1x2048x128 .bf16 := iblk1 V c 1 t
abbrev vblk (c : Dev nD) (t : Fin cfg1.N) : Vec Ideal S1x1x2048x128 .bf16 := iblk1 V c 2 t
abbrev Qarr (c : Dev nD) : Packed := V c main_v10_0
abbrev Karr (c : Dev nD) : Packed := V c main_v10_1
abbrev Warr (c : Dev nD) : Packed := V c main_v10_2

/-- The index maps over the grid: the query block moves with the context block; the key and value blocks share its
    pair and batch and are whole along positions and lanes; the context block's indices stay in their ranges. -/
theorem idx_facts1 : ∀ t : Fin cfg1.N,
    win1_0.index t (0 : Fin 4) = win1_3.index t (0 : Fin 4) ∧ win1_0.index t (1 : Fin 4) = win1_3.index t (1 : Fin 4)
    ∧ win1_0.index t (2 : Fin 4) = win1_3.index t (2 : Fin 4) ∧ win1_0.index t (3 : Fin 4) = 0
    ∧ win1_1.index t (0 : Fin 4) = win1_3.index t (0 : Fin 4) ∧ win1_1.index t (1 : Fin 4) = win1_3.index t (1 : Fin 4)
    ∧ win1_1.index t (2 : Fin 4) = 0 ∧ win1_1.index t (3 : Fin 4) = 0
    ∧ win1_2.index t (0 : Fin 4) = win1_3.index t (0 : Fin 4) ∧ win1_2.index t (1 : Fin 4) = win1_3.index t (1 : Fin 4)
    ∧ win1_2.index t (2 : Fin 4) = 0 ∧ win1_2.index t (3 : Fin 4) = 0
    ∧ win1_3.index t (0 : Fin 4) < 8 ∧ win1_3.index t (1 : Fin 4) < 2 ∧ win1_3.index t (2 : Fin 4) < 8 ∧ win1_3.index t (3 : Fin 4) = 0 :=
  (by decide +kernel : ∀ t : Fin grid1.N, _)

/-- What a point writes back is its block of the specification's packed context of the three input arrays. -/
theorem flushed1_3 (c : Dev nD) (t : Fin cfg1.N) :
    (dat1 V c).flushed 3 t = ((cfg1.win 3).blk t).view.read (Elt Ideal) (G (Qarr V c) (Karr V c) (Warr V c)) := by
  show (cfg1.win 3).cut (grid1.coords t) ((dat1 V c).after 3 t) = _
  rw [after1_3]
  obtain ⟨a0, a1, a2, a3, b0, b1, b2, b3, c0, c1, c2, c3, l0, l1, l2, z3⟩ := idx_facts1 t
  funext y
  show out1_3 (qblk V c t) (kblk V c t) (vblk V c t) y = G (Qarr V c) (Karr V c) (Warr V c) (((cfg1.win 3).blk t).view.emb y)
  refine (out1_3_apply (qblk V c t) (kblk V c t) (vblk V c t) y).trans ?_
  have y0 : (y 0).val < 1 := (y 0).isLt
  have y1 : (y 1).val < 1 := (y 1).isLt
  have y2 : (y 2).val < 256 := (y 2).isLt
  have y3 : (y 3).val < 128 := (y 3).isLt
  have hi : ((cfg1.win 3).blk t).view.emb y
      = ix4 (⟨win1_3.index t (0 : Fin 4), l0⟩ : Fin 8) (⟨win1_3.index t (1 : Fin 4), l1⟩ : Fin 2)
          (⟨win1_3.index t (2 : Fin 4) * 256 + (y 2).val, by omega⟩ : Fin 2048) (⟨(y 3).val, y3⟩ : Fin 128) := by
    funext a; apply Fin.ext
    match a with
    | ⟨0, _⟩ => show win1_3.index t (0 : Fin 4) * 1 + 1 * (y 0).val = win1_3.index t (0 : Fin 4); omega
    | ⟨1, _⟩ => show win1_3.index t (1 : Fin 4) * 1 + 1 * (y 1).val = win1_3.index t (1 : Fin 4); omega
    | ⟨2, _⟩ => show win1_3.index t (2 : Fin 4) * 256 + 1 * (y 2).val = win1_3.index t (2 : Fin 4) * 256 + (y 2).val; omega
    | ⟨3, _⟩ => show win1_3.index t (3 : Fin 4) * 128 + 1 * (y 3).val = (y 3).val; omega
  rw [hi, G_apply]
  unfold blockCtx
  refine congrArg₂ softCtx (funext fun t' => ?_) (funext fun t' => ?_)
  · unfold hscore
    refine congrArg (· * Cert.Mha.scale) (Finset.sum_congr rfl fun d _ => congrArg₂ (· * ·) ?_ ?_)
    · show V c main_v10_0 (((cfg1.win 0).blk t).view.emb (ix4 (0 : Fin 1) (0 : Fin 1) (y 2) (lane (laneOff (y 3)) d))) = V c main_v10_0 _
      refine congrArg (V c main_v10_0) (funext fun a => Fin.ext ?_)
      match a with
      | ⟨0, _⟩ => show win1_0.index t (0 : Fin 4) * 1 + 1 * 0 = win1_3.index t (0 : Fin 4); omega
      | ⟨1, _⟩ => show win1_0.index t (1 : Fin 4) * 1 + 1 * 0 = win1_3.index t (1 : Fin 4); omega
      | ⟨2, _⟩ => show win1_0.index t (2 : Fin 4) * 256 + 1 * (y 2).val = win1_3.index t (2 : Fin 4) * 256 + (y 2).val; omega
      | ⟨3, _⟩ => show win1_0.index t (3 : Fin 4) * 128 + 1 * (lane (laneOff (y 3)) d).val = (lane (laneOff (y 3)) d).val; omega
    · show V c main_v10_1 (((cfg1.win 1).blk t).view.emb (ix4 (0 : Fin 1) (0 : Fin 1) t' (lane (laneOff (y 3)) d))) = V c main_v10_1 _
      refine congrArg (V c main_v10_1) (funext fun a => Fin.ext ?_)
      match a with
      | ⟨0, _⟩ => show win1_1.index t (0 : Fin 4) * 1 + 1 * 0 = win1_3.index t (0 : Fin 4); omega
      | ⟨1, _⟩ => show win1_1.index t (1 : Fin 4) * 1 + 1 * 0 = win1_3.index t (1 : Fin 4); omega
      | ⟨2, _⟩ => show win1_1.index t (2 : Fin 4) * 2048 + 1 * t'.val = t'.val; omega
      | ⟨3, _⟩ => show win1_1.index t (3 : Fin 4) * 128 + 1 * (lane (laneOff (y 3)) d).val = (lane (laneOff (y 3)) d).val; omega
  · show V c main_v10_2 (((cfg1.win 2).blk t).view.emb (ix4 (0 : Fin 1) (0 : Fin 1) t' (y 3))) = V c main_v10_2 _
    refine congrArg (V c main_v10_2) (funext fun a => Fin.ext ?_)
    match a with
    | ⟨0, _⟩ => show win1_2.index t (0 : Fin 4) * 1 + 1 * 0 = win1_3.index t (0 : Fin 4); omega
    | ⟨1, _⟩ => show win1_2.index t (1 : Fin 4) * 1 + 1 * 0 = win1_3.index t (1 : Fin 4); omega
    | ⟨2, _⟩ => show win1_2.index t (2 : Fin 4) * 2048 + 1 * t'.val = t'.val; omega
    | ⟨3, _⟩ => show win1_2.index t (3 : Fin 4) * 128 + 1 * (y 3).val = (y 3).val; omega

/-- Every block of the context array is some point's. -/
theorem idx_onto1 : ∀ (q0 : Fin 8) (q1 : Fin 2) (q2 : Fin 8), ∃ t : Fin cfg1.N, win1_3.index t = ![q0.val, q1.val, q2.val, 0] :=
  (by decide +kernel : ∀ (q0 : Fin 8) (q1 : Fin 2) (q2 : Fin 8), ∃ t : Fin grid1.N, win1_3.index t = ![q0.val, q1.val, q2.val, 0])

/-- An index of the context array lies in point `t`'s block iff each coordinate lies in the block's range on its axis. -/
theorem mem_blk1_3 (t : Fin cfg1.N) (i : S8x2x2048x128.Idx) :
    i ∈ ((cfg1.win 3).blk t).view.set ↔ ∀ a : Fin 4, win1_3.index t a * S1x1x256x128.size a ≤ (i a).val
      ∧ (i a).val < win1_3.index t a * S1x1x256x128.size a + S1x1x256x128.size a := by
  show i ∈ ((View.whole main_v11).slice (win1_3.rect t)).set ↔ _
  rw [View.set_slice_whole, Rect.mem_set_unit]
  exact Iff.rfl

/-- The blocks cover the array: index (p, b, s, l) lies in the block of point (p, b, s / 256). -/
theorem blocks_cover1_3 (i : S8x2x2048x128.Idx) : ∃ t : Fin cfg1.N, (cfg1.win 3).flush t = true ∧ i ∈ ((cfg1.win 3).blk t).view.set := by
  have i0 : (i 0).val < 8 := (i 0).isLt
  have i1 : (i 1).val < 2 := (i 1).isLt
  have i2 : (i 2).val < 2048 := (i 2).isLt
  have i3 : (i 3).val < 128 := (i 3).isLt
  obtain ⟨t, ht⟩ := idx_onto1 ⟨(i 0).val, i0⟩ ⟨(i 1).val, i1⟩ ⟨(i 2).val / 256, by omega⟩
  have q0 : win1_3.index t (0 : Fin 4) = (i 0).val := congrFun ht 0
  have q1 : win1_3.index t (1 : Fin 4) = (i 1).val := congrFun ht 1
  have q2 : win1_3.index t (2 : Fin 4) = (i 2).val / 256 := congrFun ht 2
  have q3 : win1_3.index t (3 : Fin 4) = 0 := congrFun ht 3
  refine ⟨t, flush1_3 t, ?_⟩
  rw [mem_blk1_3]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 256 ≤ (i 2).val ∧ (i 2).val < win1_3.index t (2 : Fin 4) * 256 + 256; omega
  | ⟨3, _⟩ => show win1_3.index t (3 : Fin 4) * 128 ≤ (i 3).val ∧ (i 3).val < win1_3.index t (3 : Fin 4) * 128 + 128; omega

/-- THE REGION'S VALUE: after the whole grid the context array is the specification's context of the query, key and value
    arrays the region found, read through the packed layout. -/
theorem final1_3 (c : Dev nD) :
    ((dat1 (F := Ideal) V c).arrAt 3 cfg1.N : Cert.Mha.SP.Idx → EReal)
      = Cert.Mha.pack (Cert.Mha.ctxf (Cert.Mha.attn (Cert.Mha.score (Cert.Mha.unpack (V c main_v10_0)) (Cert.Mha.unpack (V c main_v10_1))))
          (Cert.Mha.unpack (V c main_v10_2))) :=
  (dat1 V c).arrAt_eq_of_cover 3 (G (Qarr V c) (Karr V c) (Warr V c)) (fun t _ => flushed1_3 V c t) blocks_cover1_3

end Cert.KernelIdeal.PipeV

end
-- ==== Proof.KI.Value2.lean ====
/-
  The output region's value on the extended reals: after the whole grid the result array is, entry by entry, the packed
  context read back as tokens, times the output weight's rows, plus the bias.
-/
import proofs.«412850_j50843822850162_3_alg».proof.Proof.KI.Region2
import proofs.«412850_j50843822850162_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PipeV

open Cert.KernelIdeal Cert.KernelIdeal.Gen Cert.KernelIdeal.Pipe
open Idealize.ShloMosaic Idealize.ShloMosaic.TcCoe Idealize.ShloMosaic.ValueIdx Idealize.SL.Sem
open Idealize.ShloMosaic.Pipeline (Dat)
open Cert.Mha (pairOf laneOf)

/-! ## The body's arithmetic at an index -/

/-- The packed block read back as a `[512, 1024]` matrix: row `m`, column `h` is lane `h % 128` of pair `h / 128` at row `m`. -/
theorem tokens_apply (x0 : Vec Ideal S8x1x512x128 .bf16) (m : Fin 512) (h : Fin 1024) :
    shapeCast S512x1024 (transpose S512x8x128 [1, 0, 2] (shapeCast S8x512x128 x0 shapeCasts_S8x1x512x128_S8x512x128) transposes_S8x512x128_p1_0_2_S512x8x128)
        shapeCasts_S512x8x128_S512x1024 (ix2 m h)
      = x0 (ix4 (pairOf h) (0 : Fin 1) m (laneOf h)) := by
  refine (shapeCast_apply _ shapeCasts_S512x8x128_S512x1024 (ix2 m h) (ix3 m (pairOf h) (laneOf h)) ?_).trans ?_
  · rw [Shape.rowMajor_val_three, Shape.rowMajor_val_two]
    show ((m.val * 8 + h.val / 128) * 128 + h.val % 128) = m.val * 1024 + h.val
    omega
  refine (transpose_apply [1, 0, 2] _ transposes_S8x512x128_p1_0_2_S512x8x128 (ix3 m (pairOf h) (laneOf h)) (ix3 (pairOf h) m (laneOf h)) ?_).trans ?_
  · intro b
    match b with
    | ⟨0, _⟩ => rfl
    | ⟨1, _⟩ => rfl
    | ⟨2, _⟩ => rfl
  refine shapeCast_apply x0 shapeCasts_S8x1x512x128_S8x512x128 (ix3 (pairOf h) m (laneOf h)) (ix4 (pairOf h) (0 : Fin 1) m (laneOf h)) ?_
  rw [Shape.rowMajor_val_four, Shape.rowMajor_val_three]
  show (((h.val / 128) * 1 + 0) * 512 + m.val) * 128 + h.val % 128 = ((h.val / 128) * 512 + m.val) * 128 + h.val % 128
  omega

/-- The bias row broadcast down the 512 rows. -/
theorem biasrow_apply (x2 : Vec Ideal S1024 .f32) (m : Fin 512) (o : Fin 1024) :
    broadcastTo S512x1024 (shapeCast S1x1024 x2 shapeCasts_S1024_S1x1024) broadcasts_S1x1024_S512x1024 (ix2 m o) = x2 (ix1 o) := by
  refine (broadcastTo_apply _ broadcasts_S1x1024_S512x1024 (ix2 m o) (ix2 (0 : Fin 1) o) ?_).trans ?_
  · intro a
    match a with
    | ⟨0, _⟩ => rfl
    | ⟨1, _⟩ => rfl
  refine shapeCast_apply x2 shapeCasts_S1024_S1x1024 (ix2 (0 : Fin 1) o) (ix1 o) ?_
  rw [Shape.rowMajor_val_one, Shape.rowMajor_val_two]
  show o.val = 0 * 1024 + o.val
  omega

/-! ## The product: one contracted axis, re-indexed by its coordinate -/

theorem lhs_out_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_out_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_out_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_out_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- Row `m` of the left factor against row `o` of the right one, into a zero accumulator. -/
theorem product_apply (a : FVec Ideal S512x1024 .bf16) (w : FVec Ideal S1024x1024 .bf16) (m : Fin 512) (o : Fin 1024) :
    matmul dot_S512x1024_S1024x1024_S512x1024_1_1_0_0_n_n none a w (constant (F := Ideal) S512x1024 .f32 0x00000000#32) (ix2 m o)
      = ∑ h : Fin 1024, a (ix2 m h) * w (ix2 o h) := by
  refine (Ideal.matmul_constant_zero_apply dot_S512x1024_S1024x1024_S512x1024_1_1_0_0_n_n none a w (ix2 m o)).trans ?_
  rw [← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 m o) ((ValueIdx.contrEquiv1 dot_S512x1024_S1024x1024_S512x1024_1_1_0_0_n_n 1024 rfl rfl).symm k) = ix2 m k := funext fun a => Fin.ext (by
    match a with
    | ⟨0, _⟩ => exact lhs_out_0 _ _
    | ⟨1, _⟩ => exact (lhs_out_1 _ _).trans hk)
  have er : dot_S512x1024_S1024x1024_S512x1024_1_1_0_0_n_n.rhsIdx (ix2 m o) ((ValueIdx.contrEquiv1 dot_S512x1024_S1024x1024_S512x1024_1_1_0_0_n_n 1024 rfl rfl).symm k) = ix2 o k := funext fun a => Fin.ext (by
    match a with
    | ⟨0, _⟩ => exact rhs_out_0 _ _
    | ⟨1, _⟩ => exact (rhs_out_1 _ _).trans hk)
  rw [el, er]

/-- The body's stored value at row `m`, output feature `o`. -/
theorem pay1_apply (x0 : Vec Ideal S8x1x512x128 .bf16) (x1 : Vec Ideal S1024x1024 .bf16) (x2 : Vec Ideal S1024 .f32)
    (z : Fin 1) (m : Fin 512) (o : Fin 1024) :
    k2_pay1 x0 x1 x2 (ix3 z m o)
      = (∑ h : Fin 1024, x0 (ix4 (pairOf h) (0 : Fin 1) m (laneOf h)) * x1 (ix2 o h)) + x2 (ix1 o) := by
  unfold k2_pay1
  refine (shapeCast_apply _ shapeCasts_S512x1024_S1x512x1024 (ix3 z m o) (ix2 m o) ?_).trans ?_
  · rw [Shape.rowMajor_val_two, Shape.rowMajor_val_three]
    show m.val * 1024 + o.val = (z.val * 512 + m.val) * 1024 + o.val
    have := z.isLt
    omega
  refine (addf_apply _ _ (ix2 m o)).trans ?_
  refine congrArg₂ (· + ·) ?_ (biasrow_apply x2 m o)
  refine (product_apply _ _ m o).trans ?_
  refine Finset.sum_congr rfl fun h _ => ?_
  refine congrArg₂ (· * ·) (tokens_apply x0 m h) ?_
  exact congrFun (shapeCast_self x1 shapeCasts_S1024x1024_S1024x1024) (ix2 o h)

/-! ## The store and the loads take their buffers whole -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- What the body leaves in the result buffer, entry by entry, from the three input buffers. -/
theorem out2_3_apply (x0 : Vec Ideal S8x1x512x128 .bf16) (x1 : Vec Ideal S1024x1024 .bf16) (x2 : Vec Ideal S1024 .f32)
    (z : Fin 1) (m : Fin 512) (o : Fin 1024) :
    out2_3 (F := Ideal) x0 x1 x2 (ix3 z m o)
      = (∑ h : Fin 1024, x0 (ix4 (pairOf h) (0 : Fin 1) m (laneOf h)) * x1 (ix2 o h)) + x2 (ix1 o) := by
  unfold out2_3
  rw [View.canon_unit_zero hz3]
  simp only [View.ld_unit_zero (S := S8x1x512x128) hz4, View.ld_unit_zero (S := S1024x1024) hz2, View.ld_unit_zero (S := S1024) hz1]
  exact pay1_apply x0 x1 x2 z m o

/-! ## The index maps over the grid: point `t` is batch `t / 4`, row tile `t % 4` -/

theorem idx_facts2 : ∀ t : Fin cfg2.N,
    win2_0.index t (0 : Fin 4) = 0 ∧ win2_0.index t (1 : Fin 4) = t.val / 4 ∧ win2_0.index t (2 : Fin 4) = t.val % 4 ∧ win2_0.index t (3 : Fin 4) = 0
    ∧ win2_1.index t (0 : Fin 2) = 0 ∧ win2_1.index t (1 : Fin 2) = 0
    ∧ win2_2.index t (0 : Fin 1) = 0
    ∧ win2_3.index t (0 : Fin 3) = t.val / 4 ∧ win2_3.index t (1 : Fin 3) = t.val % 4 ∧ win2_3.index t (2 : Fin 3) = 0 :=
  (by decide +kernel : ∀ t : Fin grid2.N, _)

theorem N2 : cfg2.N = 8 := by decide

section Blocks

variable (V : (c : Dev nD) → (b : Ref sig .tc) → Buf (Elt Ideal) ((c : Thread nD τ).loc b))

/-- The input blocks and the arrays they are cut from, at their literal types. -/
abbrev cblk (c : Dev nD) (t : Fin cfg2.N) : Vec Ideal S8x1x512x128 .bf16 := iblk2 V c 0 t
abbrev wblk (c : Dev nD) (t : Fin cfg2.N) : Vec Ideal S1024x1024 .bf16 := iblk2 V c 1 t
abbrev bblk (c : Dev nD) (t : Fin cfg2.N) : Vec Ideal S1024 .f32 := iblk2 V c 2 t
abbrev carr (c : Dev nD) : S8x2x2048x128.Idx → EReal := V c main_v11
abbrev warr (c : Dev nD) : S1024x1024.Idx → EReal := V c main_v9
abbrev barr (c : Dev nD) : S1024.Idx → EReal := V c main_arg8

/-- The context block at point `t`: all pairs and lanes of batch `t / 4`, rows `512 (t % 4) …`. -/
theorem cblk_apply (c : Dev nD) (t : Fin cfg2.N) (p : Fin 8) (z : Fin 1) (m : Fin 512) (l : Fin 128) (k : S8x2x2048x128.Idx)
    (hk0 : (k 0).val = p.val) (hk1 : (k 1).val = t.val / 4) (hk2 : (k 2).val = 512 * (t.val % 4) + m.val) (hk3 : (k 3).val = l.val) :
    cblk V c t (ix4 p z m l) = carr V c k := by
  obtain ⟨e0, e1, e2, e3, -⟩ := idx_facts2 t
  unfold cblk iblk2
  rw [View.read_apply]
  show V c main_v11 _ = V c main_v11 _
  congr 1
  funext a
  apply Fin.ext
  have hz := z.isLt
  match a with
  | ⟨0, _⟩ => show win2_0.index t 0 * 8 + 1 * p.val = (k 0).val; rw [e0, hk0]; omega
  | ⟨1, _⟩ => show win2_0.index t 1 * 1 + 1 * z.val = (k 1).val; rw [e1, hk1]; omega
  | ⟨2, _⟩ => show win2_0.index t 2 * 512 + 1 * m.val = (k 2).val; rw [e2, hk2]; omega
  | ⟨3, _⟩ => show win2_0.index t 3 * 128 + 1 * l.val = (k 3).val; rw [e3, hk3]; omega

/-- The weight block is the whole weight at every point. -/
theorem wblk_eq (c : Dev nD) (t : Fin cfg2.N) : wblk V c t = warr V c := by
  obtain ⟨-, -, -, -, e0, e1, -⟩ := idx_facts2 t
  funext y
  unfold wblk iblk2
  rw [View.read_apply]
  show V c main_v9 _ = V c main_v9 _
  congr 1
  funext a
  apply Fin.ext
  match a with
  | ⟨0, _⟩ => show win2_1.index t 0 * 1024 + 1 * (y 0).val = (y 0).val; rw [e0]; omega
  | ⟨1, _⟩ => show win2_1.index t 1 * 1024 + 1 * (y 1).val = (y 1).val; rw [e1]; omega

/-- The bias block is the whole bias at every point. -/
theorem bblk_eq (c : Dev nD) (t : Fin cfg2.N) : bblk V c t = barr V c := by
  obtain ⟨-, -, -, -, -, -, e0, -⟩ := idx_facts2 t
  funext y
  unfold bblk iblk2
  rw [View.read_apply]
  show V c main_arg8 _ = V c main_arg8 _
  congr 1
  funext a
  apply Fin.ext
  match a with
  | ⟨0, _⟩ => show win2_2.index t 0 * 1024 + 1 * (y 0).val = (y 0).val; rw [e0]; omega

end Blocks

section Final

variable (V : (c : Dev nD) → (b : Ref sig .tc) → Buf (Elt Ideal) ((c : Thread nD τ).loc b))

/-- The result array after the region, from the three input arrays: the output projection of the unpacked context. -/
abbrev G2 (a0 : S8x2x2048x128.Idx → EReal) (a1 : S1024x1024.Idx → EReal) (a2 : S1024.Idx → EReal) : S2x2048x1024.Idx → EReal :=
  fun i => Cert.Mha.lin (Cert.Mha.unpack a0) (Cert.Mha.mat2 a1) (Cert.Mha.vec1 a2) (i 0) (i 1) (i 2)

/-- Where entry `(z, m, o)` of point `t`'s result block lies in the result array. -/
theorem oblk_emb (t : Fin cfg2.N) (z : Fin 1) (m : Fin 512) (o : Fin 1024) (k : S2x2048x1024.Idx)
    (hk0 : (k 0).val = t.val / 4) (hk1 : (k 1).val = 512 * (t.val % 4) + m.val) (hk2 : (k 2).val = o.val) :
    ((cfg2.win 3).blk t).view.emb (ix3 z m o) = k := by
  obtain ⟨-, -, -, -, -, -, -, e0, e1, e2⟩ := idx_facts2 t
  funext a
  apply Fin.ext
  have hz := z.isLt
  match a with
  | ⟨0, _⟩ => show win2_3.index t 0 * 1 + 1 * z.val = (k 0).val; rw [e0, hk0]; omega
  | ⟨1, _⟩ => show win2_3.index t 1 * 512 + 1 * m.val = (k 1).val; rw [e1, hk1]; omega
  | ⟨2, _⟩ => show win2_3.index t 2 * 1024 + 1 * o.val = (k 2).val; rw [e2, hk2]; omega

/-- What point `t` writes back is its block of `G2` of the arrays as the region finds them. -/
theorem flushed2_3_eq (c : Dev nD) (t : Fin cfg2.N) :
    (dat2 (F := Ideal) V c).flushed 3 t = ((cfg2.win 3).blk t).view.read (Elt Ideal) (G2 (V c main_v11) (V c main_v9) (V c main_arg8)) := by
  show (cfg2.win 3).cut (grid2.coords t) ((dat2 V c).after 3 t) = _
  rw [after2_3]
  have ht : t.val < 8 := t.isLt.trans_eq N2
  funext y
  obtain ⟨z, m, o, rfl⟩ : ∃ (z : Fin 1) (m : Fin 512) (o : Fin 1024), y = ix3 z m o := ⟨y 0, y 1, y 2, eq_ix3 y⟩
  rw [View.read_apply,
    oblk_emb t z m o (ix3 ⟨t.val / 4, by omega⟩ ⟨512 * (t.val % 4) + m.val, by have := m.isLt; omega⟩ o) rfl rfl rfl]
  refine (out2_3_apply (cblk V c t) (wblk V c t) (bblk V c t) z m o).trans ?_
  rw [wblk_eq, bblk_eq]
  show (∑ h : Fin 1024, cblk V c t (ix4 (pairOf h) (0 : Fin 1) m (laneOf h)) * warr V c (ix2 o h)) + barr V c (ix1 o)
    = (∑ h : Fin 1024, carr V c (ix4 (pairOf h) ⟨t.val / 4, by omega⟩ ⟨512 * (t.val % 4) + m.val, by have := m.isLt; omega⟩ (laneOf h)) * warr V c (ix2 o h)) + barr V c (ix1 o)
  refine congrArg₂ (· + ·) (Finset.sum_congr rfl fun h _ => ?_) rfl
  exact congrArg₂ (· * ·) (cblk_apply V c t (pairOf h) 0 m (laneOf h) _ rfl rfl rfl rfl) rfl

/-- An index of the result array is in point `t`'s block iff each coordinate is in the block's range on its axis. -/
theorem mem_oblk (t : Fin cfg2.N) (i : S2x2048x1024.Idx) :
    i ∈ ((cfg2.win 3).blk t).view.set ↔ ∀ a : Fin 3, win2_3.index t a * S1x512x1024.size a ≤ (i a).val ∧ (i a).val < win2_3.index t a * S1x512x1024.size a + S1x512x1024.size a := by
  show i ∈ ((View.whole main_v12).slice (win2_3.rect t)).set ↔ _
  rw [View.set_slice_whole, Rect.mem_set_unit]
  exact Iff.rfl

/-- Entry `(b, s, o)` is written back by point `4 b + s / 512`. -/
theorem covered2_3 (i : S2x2048x1024.Idx) : ∃ t : Fin cfg2.N, (cfg2.win 3).flush t = true ∧ i ∈ ((cfg2.win 3).blk t).view.set := by
  have h0 : (i 0).val < 2 := (i 0).isLt
  have h1 : (i 1).val < 2048 := (i 1).isLt
  have h2 : (i 2).val < 1024 := (i 2).isLt
  have hN : 4 * (i 0).val + (i 1).val / 512 < cfg2.N := by rw [N2]; omega
  refine ⟨⟨4 * (i 0).val + (i 1).val / 512, hN⟩, flush2_3 _, ?_⟩
  rw [mem_oblk]
  obtain ⟨-, -, -, -, -, -, -, e0, e1, e2⟩ := idx_facts2 ⟨4 * (i 0).val + (i 1).val / 512, hN⟩
  intro a
  match a with
  | ⟨0, _⟩ =>
    show win2_3.index _ 0 * 1 ≤ (i 0).val ∧ (i 0).val < win2_3.index _ 0 * 1 + 1
    rw [e0]; show (4 * (i 0).val + (i 1).val / 512) / 4 * 1 ≤ (i 0).val ∧ (i 0).val < (4 * (i 0).val + (i 1).val / 512) / 4 * 1 + 1; omega
  | ⟨1, _⟩ =>
    show win2_3.index _ 1 * 512 ≤ (i 1).val ∧ (i 1).val < win2_3.index _ 1 * 512 + 512
    rw [e1]; show (4 * (i 0).val + (i 1).val / 512) % 4 * 512 ≤ (i 1).val ∧ (i 1).val < (4 * (i 0).val + (i 1).val / 512) % 4 * 512 + 512; omega
  | ⟨2, _⟩ =>
    show win2_3.index _ 2 * 1024 ≤ (i 2).val ∧ (i 2).val < win2_3.index _ 2 * 1024 + 1024
    rw [e2]; omega

/-- The result array after the whole grid: the output projection of the packed context, whole. -/
theorem final2_3 (c : Dev nD) :
    ((dat2 (F := Ideal) V c).arrAt 3 cfg2.N : (⟨3, ![2, 2048, 1024]⟩ : Shape).Idx → EReal)
      = fun i => Cert.Mha.lin (Cert.Mha.unpack (V c main_v11)) (Cert.Mha.mat2 (V c main_v9)) (Cert.Mha.vec1 (V c main_arg8)) (i 0) (i 1) (i 2) :=
  (dat2 (F := Ideal) V c).arrAt_eq_of_cover 3 (G2 (V c main_v11) (V c main_v9) (V c main_arg8)) (fun t _ => flushed2_3_eq V c t) covered2_3

end Final

end Cert.KernelIdeal.PipeV

end
-- ==== Proof.LibNary3.lean ====
/-
  A host operation with three operands of their own types (a concatenation of three pieces): after it the result buffer
  holds the operation's function of the three operands' contents, listed as a `Fin.cons` chain so that `u 0`, `u 1`,
  `u 2` in the function's body reduce to the three contents. Stated once for rewriting and once, with the result
  reference un-indexed, for `simp`; with a macro evaluating a literal list of operations at a reference in one `simp` pass.
-/
import Idealize.ShloMosaic.Lib.StableHlo.Run

namespace Idealize.ShloMosaic.StableHlo

variable {τ : Topo} {sig : RefSig} {Val : EltTy → Type} {x a b y : Ref sig .tc}

/-- The result of a three-operand operation at its own result buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Evaluates `after ops V r` for a literal list of operations, three-operand ones included, in one `simp` pass. -/
macro "after_results_simp3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

/-- Evaluates `after ops V r` for a literal list of operations, three-operand ones included, by rewriting one
    operation's result at a time (this form also rewrites inside the operand list of a concatenation). -/
macro "after_results3" : tactic =>
  `(tactic| (simp only [after_cons, after_nil]
             repeat (first
               | rw [nullary_result] | rw [unary_result] | rw [binary_result] | rw [ternary_result] | rw [quaternary_result]
               | rw [reshape_result] | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo
-- ==== Proof.KI.Glue.lean ====
/-
  What the host operations before the three regions leave: the fused [3072, 1024] weight is the q, k and v weights,
  each flattened from [4, 256, 1024] to [1024, 1024] (row j is column j % 256 of group j / 256), one under the other;
  the fused bias likewise; the output weight passes through a change of float format, which is the identity on the
  extended reals.  Read entry by entry.
-/
import proofs.«412850_j50843822850162_3_alg».proof.Proof.Gen.KernelIdeal.Launch
import proofs.«412850_j50843822850162_3_alg».proof.Proof.LibNary3
import proofs.«412850_j50843822850162_3_alg».proof.Proof.Spec
import Idealize.ShloMosaic.Lib.Pipeline.Value
import Idealize.ShloMosaic.Lib.ValueIdx
import Idealize.ShloMosaic.Lib.ValueLayout

noncomputable section

namespace Cert.KernelIdeal.Glue

open Cert.KernelIdeal Cert.KernelIdeal.Gen Idealize.ShloMosaic Idealize.ShloMosaic.TcCoe Idealize.SL.Sem
open Idealize.ShloMosaic.StableHlo Idealize.ShloMosaic.ValueIdx

/-- A grouped weight flattened, at row `j`: column `j % 256` of group `j / 256`. -/
theorem flat_w (W : S4x256x1024.Idx → EReal) (j h : Fin 1024) :
    shapeCast S1024x1024 W shapeCasts_S4x256x1024_S1024x1024 (ix2 j h)
      = W (ix3 ⟨j.val / 256, by omega⟩ ⟨j.val % 256, Nat.mod_lt _ (by norm_num)⟩ h) := by
  refine shapeCast_apply _ _ _ _ ?_
  rw [Shape.rowMajor_val_three, Shape.rowMajor_val_two]
  show (j.val / 256 * 256 + j.val % 256) * 1024 + h.val = j.val * 1024 + h.val
  omega

/-- A grouped bias flattened, at entry `j`. -/
theorem flat_b (v : S4x256.Idx → EReal) (j : Fin 1024) :
    shapeCast S1024 v shapeCasts_S4x256_S1024 (ix1 j)
      = v (ix2 ⟨j.val / 256, by omega⟩ ⟨j.val % 256, Nat.mod_lt _ (by norm_num)⟩) := by
  refine shapeCast_apply _ _ _ _ ?_
  rw [Shape.rowMajor_val_two, Shape.rowMajor_val_one]
  show j.val / 256 * 256 + j.val % 256 = j.val
  omega

variable (m : (ℓ : Loc nD τ sig) → Buf (Elt Ideal) ℓ) (c : Dev nD)

/-- What the host stretch leaves in a buffer, from the launch memory. -/
abbrev left (b : Ref sig .tc) : Buf (Elt Ideal) ((c : Thread nD τ).loc b) :=
  StableHlo.after (hostOps0 (F := Ideal)) (fun b => m (c, b)) (Proc.devRef .tc b)

/-- The fused weight is the three flattened weights one under the other, every entry as it was. -/
theorem left_v4 : (left m c main_v4 : S3072x1024.Idx → EReal)
    = truncf (F := Ideal) .bf16 (concatenate S3072x1024 0
        [⟨S1024x1024, shapeCast S1024x1024 (m ((c : Thread nD τ).loc main_arg1)) shapeCasts_S4x256x1024_S1024x1024⟩,
         ⟨S1024x1024, shapeCast S1024x1024 (m ((c : Thread nD τ).loc main_arg3)) shapeCasts_S4x256x1024_S1024x1024⟩,
         ⟨S1024x1024, shapeCast S1024x1024 (m ((c : Thread nD τ).loc main_arg5)) shapeCasts_S4x256x1024_S1024x1024⟩]
        concatenates_S1024x1024_S1024x1024_S1024x1024_S3072x1024_d0) bitsLt_bf16_f32 := by
  unfold left
  after_results3
  rfl

/-- The fused bias is the three flattened biases end to end. -/
theorem left_v8 : left m c main_v8
    = concatenate S3072 0
        [⟨S1024, shapeCast S1024 (m ((c : Thread nD τ).loc main_arg2)) shapeCasts_S4x256_S1024⟩,
         ⟨S1024, shapeCast S1024 (m ((c : Thread nD τ).loc main_arg4)) shapeCasts_S4x256_S1024⟩,
         ⟨S1024, shapeCast S1024 (m ((c : Thread nD τ).loc main_arg6)) shapeCasts_S4x256_S1024⟩]
        concatenates_S1024_S1024_S1024_S3072_d0 := by
  unfold left
  after_results3
  rfl

/-- The output weight in the narrower format: the same entries. -/
theorem left_v9 : (left m c main_v9 : S1024x1024.Idx → EReal) = truncf (F := Ideal) .bf16 (m ((c : Thread nD τ).loc main_arg7)) bitsLt_bf16_f32 := by
  unfold left
  after_results3

/-- The host stretch writes neither the tokens nor the output bias. -/
theorem left_arg0 : left m c main_arg0 = m ((c : Thread nD τ).loc main_arg0) := by
  unfold left
  after_results3
theorem left_arg8 : left m c main_arg8 = m ((c : Thread nD τ).loc main_arg8) := by
  unfold left
  after_results3

/-! ## Three arrays one under the other, read row by row -/

/-- Row `1024 r + j` of three [1024, 1024] arrays stacked is row `j` of the `r`-th. -/
theorem stack_rows (A B C : S1024x1024.Idx → EReal) (j h : Fin 1024) :
    concatenate S3072x1024 0 [⟨S1024x1024, A⟩, ⟨S1024x1024, B⟩, ⟨S1024x1024, C⟩]
        concatenates_S1024x1024_S1024x1024_S1024x1024_S3072x1024_d0 (ix2 ⟨1024 * 0 + j.val, by omega⟩ h) = A (ix2 j h)
    ∧ concatenate S3072x1024 0 [⟨S1024x1024, A⟩, ⟨S1024x1024, B⟩, ⟨S1024x1024, C⟩]
        concatenates_S1024x1024_S1024x1024_S1024x1024_S3072x1024_d0 (ix2 ⟨1024 * 1 + j.val, by omega⟩ h) = B (ix2 j h)
    ∧ concatenate S3072x1024 0 [⟨S1024x1024, A⟩, ⟨S1024x1024, B⟩, ⟨S1024x1024, C⟩]
        concatenates_S1024x1024_S1024x1024_S1024x1024_S3072x1024_d0 (ix2 ⟨1024 * 2 + j.val, by omega⟩ h) = C (ix2 j h) := by
  have hi : ∀ (x : Fin 3072) (b : Fin S1024x1024.rank), b.cast (rfl : S1024x1024.rank = S3072x1024.rank) ≠ (0 : Fin S3072x1024.rank) →
      ((ix2 j h : S1024x1024.Idx) b).val = ((ix2 x h : S3072x1024.Idx) (b.cast rfl)).val := by
    intro x b hb
    match b with
    | ⟨0, _⟩ => exact absurd rfl hb
    | ⟨1, _⟩ => rfl
  refine ⟨?_, ?_, ?_⟩
  · exact concatenate_apply_piece (0 : Fin S3072x1024.rank) _ _ _ 0 (by show (0 : ℕ) < 3; omega) S1024x1024 A rfl rfl 0 rfl (ix2 j h) (hi _) (by show 0 + j.val = 1024 * 0 + j.val; omega)
  · exact concatenate_apply_piece (0 : Fin S3072x1024.rank) _ _ _ 1 (by show (1 : ℕ) < 3; omega) S1024x1024 B rfl rfl 1024 rfl (ix2 j h) (hi _) (by show 1024 + j.val = 1024 * 1 + j.val; omega)
  · exact concatenate_apply_piece (0 : Fin S3072x1024.rank) _ _ _ 2 (by show (2 : ℕ) < 3; omega) S1024x1024 C rfl rfl 2048 rfl (ix2 j h) (hi _) (by show 2048 + j.val = 1024 * 2 + j.val; omega)

/-- Entry `1024 r + j` of three [1024] arrays end to end is entry `j` of the `r`-th. -/
theorem stack_entries (A B C : S1024.Idx → EReal) (j : Fin 1024) :
    concatenate S3072 0 [⟨S1024, A⟩, ⟨S1024, B⟩, ⟨S1024, C⟩]
        concatenates_S1024_S1024_S1024_S3072_d0 (ix1 ⟨1024 * 0 + j.val, by omega⟩) = A (ix1 j)
    ∧ concatenate S3072 0 [⟨S1024, A⟩, ⟨S1024, B⟩, ⟨S1024, C⟩]
        concatenates_S1024_S1024_S1024_S3072_d0 (ix1 ⟨1024 * 1 + j.val, by omega⟩) = B (ix1 j)
    ∧ concatenate S3072 0 [⟨S1024, A⟩, ⟨S1024, B⟩, ⟨S1024, C⟩]
        concatenates_S1024_S1024_S1024_S3072_d0 (ix1 ⟨1024 * 2 + j.val, by omega⟩) = C (ix1 j) := by
  have hi : ∀ (x : Fin 3072) (b : Fin S1024.rank), b.cast (rfl : S1024.rank = S3072.rank) ≠ (0 : Fin S3072.rank) →
      ((ix1 j : S1024.Idx) b).val = ((ix1 x : S3072.Idx) (b.cast rfl)).val := by
    intro x b hb
    match b with
    | ⟨0, _⟩ => exact absurd rfl hb
  refine ⟨?_, ?_, ?_⟩
  · exact concatenate_apply_piece (0 : Fin S3072.rank) _ _ _ 0 (by show (0 : ℕ) < 3; omega) S1024 A rfl rfl 0 rfl (ix1 j) (hi _) (by show 0 + j.val = 1024 * 0 + j.val; omega)
  · exact concatenate_apply_piece (0 : Fin S3072.rank) _ _ _ 1 (by show (1 : ℕ) < 3; omega) S1024 B rfl rfl 1024 rfl (ix1 j) (hi _) (by show 1024 + j.val = 1024 * 1 + j.val; omega)
  · exact concatenate_apply_piece (0 : Fin S3072.rank) _ _ _ 2 (by show (2 : ℕ) < 3; omega) S1024 C rfl rfl 2048 rfl (ix1 j) (hi _) (by show 2048 + j.val = 1024 * 2 + j.val; omega)

/-! ## What the projection region is handed, in the specification's words -/

theorem third_wq : Cert.Mha.third2 (left m c main_v4) 0 = Cert.Mha.grp3 (m ((c : Thread nD τ).loc main_arg1)) := by
  funext j h
  show (left m c main_v4 : S3072x1024.Idx → EReal) (ix2 ⟨1024 * 0 + j.val, _⟩ h) = _
  rw [left_v4]
  exact ((stack_rows _ _ _ j h).1).trans (flat_w _ j h)
theorem third_wk : Cert.Mha.third2 (left m c main_v4) 1 = Cert.Mha.grp3 (m ((c : Thread nD τ).loc main_arg3)) := by
  funext j h
  show (left m c main_v4 : S3072x1024.Idx → EReal) (ix2 ⟨1024 * 1 + j.val, _⟩ h) = _
  rw [left_v4]
  exact ((stack_rows _ _ _ j h).2.1).trans (flat_w _ j h)
theorem third_wv : Cert.Mha.third2 (left m c main_v4) 2 = Cert.Mha.grp3 (m ((c : Thread nD τ).loc main_arg5)) := by
  funext j h
  show (left m c main_v4 : S3072x1024.Idx → EReal) (ix2 ⟨1024 * 2 + j.val, _⟩ h) = _
  rw [left_v4]
  exact ((stack_rows _ _ _ j h).2.2).trans (flat_w _ j h)

theorem third_bq : Cert.Mha.third1 (left m c main_v8) 0 = Cert.Mha.grp2 (m ((c : Thread nD τ).loc main_arg2)) := by
  funext j
  show (left m c main_v8 : S3072.Idx → EReal) (ix1 ⟨1024 * 0 + j.val, _⟩) = _
  rw [left_v8]
  exact ((stack_entries _ _ _ j).1).trans (flat_b _ j)
theorem third_bk : Cert.Mha.third1 (left m c main_v8) 1 = Cert.Mha.grp2 (m ((c : Thread nD τ).loc main_arg4)) := by
  funext j
  show (left m c main_v8 : S3072.Idx → EReal) (ix1 ⟨1024 * 1 + j.val, _⟩) = _
  rw [left_v8]
  exact ((stack_entries _ _ _ j).2.1).trans (flat_b _ j)
theorem third_bv : Cert.Mha.third1 (left m c main_v8) 2 = Cert.Mha.grp2 (m ((c : Thread nD τ).loc main_arg6)) := by
  funext j
  show (left m c main_v8 : S3072.Idx → EReal) (ix1 ⟨1024 * 2 + j.val, _⟩) = _
  rw [left_v8]
  exact ((stack_entries _ _ _ j).2.2).trans (flat_b _ j)

/-- The output weight the last region is handed is the argument's. -/
theorem mat_wo : Cert.Mha.mat2 (left m c main_v9) = Cert.Mha.mat2 (m ((c : Thread nD τ).loc main_arg7)) := by
  funext j h
  show (left m c main_v9 : S1024x1024.Idx → EReal) (ix2 j h) = _
  rw [left_v9]
  rfl

end Cert.KernelIdeal.Glue

end
-- ==== Proof.Bridge.lean ====
/-
  The idealized kernel's result, index by index, is the attention layer of `Spec.lean` applied to the argument arrays.
  Each region's output array is one function of the arrays it is handed; what it is handed is what the region before
  left (or the host stretch); a packed array read back as tokens is the tokens that were packed.
-/
import proofs.«412850_j50843822850162_3_alg».proof.Proof.KI.Run
import proofs.«412850_j50843822850162_3_alg».proof.Proof.KI.Value0
import proofs.«412850_j50843822850162_3_alg».proof.Proof.KI.Value1
import proofs.«412850_j50843822850162_3_alg».proof.Proof.KI.Value2
import proofs.«412850_j50843822850162_3_alg».proof.Proof.KI.Glue
import proofs.«412850_j50843822850162_3_alg».proof.Proof.Spec

noncomputable section

namespace Cert.KernelIdeal.Whole

open Cert.KernelIdeal Cert.KernelIdeal.Gen Cert.KernelIdeal.Pipe Cert.KernelIdeal.PipeV Cert.KernelIdeal.Glue
open Idealize.ShloMosaic Idealize.ShloMosaic.TcCoe Idealize.SL.Sem

variable (m : (ℓ : Loc nD τ sig) → Buf (Elt Ideal) ℓ) (ρ : Dev nD → PrngReg) (c : Dev nD)

/-- The projection region is entered on what the host stretch left. -/
theorem entry_eq (b : Ref sig .tc) : V1 m ρ c b = left m c b := rfl

/-- The q array, read back as tokens, is the q projection of the arguments; -/
theorem q_eq : Cert.Mha.unpack (V2 m ρ c main_v10_0)
    = Cert.Mha.lin (Cert.Mha.tok3 (m ((c : Thread nD τ).loc main_arg0))) (Cert.Mha.grp3 (m ((c : Thread nD τ).loc main_arg1))) (Cert.Mha.grp2 (m ((c : Thread nD τ).loc main_arg2))) := by
  rw [V2_main_v10_0, final0_3 (V1 m ρ) c, Cert.Mha.unpack_pack]
  show Cert.Mha.lin (Cert.Mha.tok3 (left m c main_arg0)) (Cert.Mha.third2 (left m c main_v4) 0) (Cert.Mha.third1 (left m c main_v8) 0) = _
  rw [left_arg0, third_wq, third_bq]
/-- the k array the k projection; -/
theorem k_eq : Cert.Mha.unpack (V2 m ρ c main_v10_1)
    = Cert.Mha.lin (Cert.Mha.tok3 (m ((c : Thread nD τ).loc main_arg0))) (Cert.Mha.grp3 (m ((c : Thread nD τ).loc main_arg3))) (Cert.Mha.grp2 (m ((c : Thread nD τ).loc main_arg4))) := by
  rw [V2_main_v10_1, final0_4 (V1 m ρ) c, Cert.Mha.unpack_pack]
  show Cert.Mha.lin (Cert.Mha.tok3 (left m c main_arg0)) (Cert.Mha.third2 (left m c main_v4) 1) (Cert.Mha.third1 (left m c main_v8) 1) = _
  rw [left_arg0, third_wk, third_bk]
/-- the v array the v projection. -/
theorem v_eq : Cert.Mha.unpack (V2 m ρ c main_v10_2)
    = Cert.Mha.lin (Cert.Mha.tok3 (m ((c : Thread nD τ).loc main_arg0))) (Cert.Mha.grp3 (m ((c : Thread nD τ).loc main_arg5))) (Cert.Mha.grp2 (m ((c : Thread nD τ).loc main_arg6))) := by
  rw [V2_main_v10_2, final0_5 (V1 m ρ) c, Cert.Mha.unpack_pack]
  show Cert.Mha.lin (Cert.Mha.tok3 (left m c main_arg0)) (Cert.Mha.third2 (left m c main_v4) 2) (Cert.Mha.third1 (left m c main_v8) 2) = _
  rw [left_arg0, third_wv, third_bv]

/-- The context array, read back as tokens, is the context of those three. -/
theorem ctx_eq : Cert.Mha.unpack (V3 m ρ c main_v11)
    = Cert.Mha.ctxf (Cert.Mha.attn (Cert.Mha.score
          (Cert.Mha.lin (Cert.Mha.tok3 (m ((c : Thread nD τ).loc main_arg0))) (Cert.Mha.grp3 (m ((c : Thread nD τ).loc main_arg1))) (Cert.Mha.grp2 (m ((c : Thread nD τ).loc main_arg2))))
          (Cert.Mha.lin (Cert.Mha.tok3 (m ((c : Thread nD τ).loc main_arg0))) (Cert.Mha.grp3 (m ((c : Thread nD τ).loc main_arg3))) (Cert.Mha.grp2 (m ((c : Thread nD τ).loc main_arg4))))))
        (Cert.Mha.lin (Cert.Mha.tok3 (m ((c : Thread nD τ).loc main_arg0))) (Cert.Mha.grp3 (m ((c : Thread nD τ).loc main_arg5))) (Cert.Mha.grp2 (m ((c : Thread nD τ).loc main_arg6)))) := by
  rw [V3_main_v11, final1_3 (V2 m ρ) c, Cert.Mha.unpack_pack, q_eq, k_eq, v_eq]

/-- The output weight and bias the last region is handed are the arguments'. -/
theorem wo_eq : Cert.Mha.mat2 (V3 m ρ c main_v9) = Cert.Mha.mat2 (m ((c : Thread nD τ).loc main_arg7)) := by
  rw [V3_main_v9]; exact mat_wo m c
theorem bo_eq : Cert.Mha.vec1 (V3 m ρ c main_arg8) = Cert.Mha.vec1 (m ((c : Thread nD τ).loc main_arg8)) := by
  rw [V3_main_arg8]
  show Cert.Mha.vec1 (left m c main_arg8) = _
  rw [left_arg8]

/-- The idealized kernel's result on core `c`, from the launch memory, is the layer of the argument arrays. -/
theorem kernel_value :
    ((dat2 (F := Ideal) (V3 m ρ) c).arrAt 3 cfg2.N : (⟨3, ![2, 2048, 1024]⟩ : Shape).Idx → EReal)
      = fun i => Cert.Mha.mha
          (Cert.Mha.tok3 (m ((c : Thread nD τ).loc main_arg0)))
          (Cert.Mha.grp3 (m ((c : Thread nD τ).loc main_arg1))) (Cert.Mha.grp2 (m ((c : Thread nD τ).loc main_arg2)))
          (Cert.Mha.grp3 (m ((c : Thread nD τ).loc main_arg3))) (Cert.Mha.grp2 (m ((c : Thread nD τ).loc main_arg4)))
          (Cert.Mha.grp3 (m ((c : Thread nD τ).loc main_arg5))) (Cert.Mha.grp2 (m ((c : Thread nD τ).loc main_arg6)))
          (Cert.Mha.mat2 (m ((c : Thread nD τ).loc main_arg7))) (Cert.Mha.vec1 (m ((c : Thread nD τ).loc main_arg8)))
          (i 0) (i 1) (i 2) := by
  rw [final2_3 (V3 m ρ) c, ctx_eq, wo_eq, bo_eq]
  rfl

end Cert.KernelIdeal.Whole

end
-- ==== Proof.Ref.Proj.lean ====
/-
  The reference's three projections are the specification's linear layer, laid out by group and head.

  Each projection contracts the 1024 input features of a token against a row of a grouped weight `[4, 256, 1024]`,
  moves the batch and position axes to the front, adds the grouped bias `[4, 256]`, splits the 256 columns of a group
  into 4 heads of 64 depths, and brings the head axis before the position axis.  Entry `(b, g, hh, s, d)` of the result
  is therefore `(∑ h, W[g, 64 hh + d, h] · x[b, s, h]) + bias[g, 64 hh + d]`, and feature `256 g + 64 hh + d` has group
  `g` and column `64 hh + d`, so this is the linear layer's output feature `grpFeat g hh d` at token `(b, s)`.
-/
import proofs.«412850_j50843822850162_3_alg».proof.Proof.Gen.ReferenceIdeal.Run
import proofs.«412850_j50843822850162_3_alg».proof.Proof.Gen.ReferenceIdeal.Read
import proofs.«412850_j50843822850162_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- Column `64 hh + d` of a group: depth `d` of the group's head `hh`. -/
def col (hh : Fin 4) (d : Fin 64) : Fin 256 := ⟨64 * hh.val + d.val, by omega⟩

/-! ## The layout operations' composed index maps, by coordinates -/

/-- Bringing the head axis before the position axis reads `(b, g, s, hh, d)`. -/
theorem swap_idx (b : Fin 2) (g hh : Fin 4) (s : Fin 2048) (d : Fin 64) :
    idx_main_v6 (ix5 b g hh s d) = ix5 b g s hh d :=
  funext fun a => Fin.ext (by
    match a with
    | ⟨0, _⟩ => rfl
    | ⟨1, _⟩ => rfl
    | ⟨2, _⟩ => rfl
    | ⟨3, _⟩ => rfl
    | ⟨4, _⟩ => rfl)

/-- Splitting 256 columns into 4 heads of 64 depths reads column `64 hh + d`. -/
theorem split_idx (b : Fin 2) (g hh : Fin 4) (s : Fin 2048) (d : Fin 64) :
    idx_main_v5 (ix5 b g s hh d) = ix4 b g s (col hh d) := by
  have hb := b.isLt; have hg := g.isLt; have hh' := hh.isLt; have hs := s.isLt; have hd := d.isLt
  exact funext fun a => Fin.ext (by
    match a with
    | ⟨0, _⟩ =>
      show ((((b.val * 4 + g.val) * 2048 + s.val) * 4 + hh.val) * 64 + d.val) / 2097152 = b.val
      omega
    | ⟨1, _⟩ =>
      show ((((b.val * 4 + g.val) * 2048 + s.val) * 4 + hh.val) * 64 + d.val) / 524288 % 4 = g.val
      omega
    | ⟨2, _⟩ =>
      show ((((b.val * 4 + g.val) * 2048 + s.val) * 4 + hh.val) * 64 + d.val) / 256 % 2048 = s.val
      omega
    | ⟨3, _⟩ =>
      show ((((b.val * 4 + g.val) * 2048 + s.val) * 4 + hh.val) * 64 + d.val) % 256 = 64 * hh.val + d.val
      omega)

/-- Moving batch and position to the front reads `(g, c, b, s)`. -/
theorem front_idx (b : Fin 2) (g : Fin 4) (s : Fin 2048) (c : Fin 256) :
    idx_main_v1 (ix4 b g s c) = ix4 g c b s :=
  funext fun a => Fin.ext (by
    match a with
    | ⟨0, _⟩ => rfl
    | ⟨1, _⟩ => rfl
    | ⟨2, _⟩ => rfl
    | ⟨3, _⟩ => rfl)

/-- The contraction reads row `(g, c)` of the weight … -/
theorem weight_idx (b : Fin 2) (g : Fin 4) (s : Fin 2048) (c : Fin 256) (k : Fin 1024) :
    lidx_main_v0 (ix4 g c b s) k = ix3 g c k :=
  funext fun a => Fin.ext (by
    match a with
    | ⟨0, _⟩ => rfl
    | ⟨1, _⟩ => rfl
    | ⟨2, _⟩ => rfl)

/-- … against token `(b, s)`. -/
theorem token_idx (b : Fin 2) (g : Fin 4) (s : Fin 2048) (c : Fin 256) (k : Fin 1024) :
    ridx_main_v0 (ix4 g c b s) k = ix3 b s k :=
  funext fun a => Fin.ext (by
    match a with
    | ⟨0, _⟩ => rfl
    | ⟨1, _⟩ => rfl
    | ⟨2, _⟩ => rfl)

/-- The bias, broadcast over batch and position, reads entry `(g, c)`. -/
theorem bias_idx (b : Fin 2) (g : Fin 4) (s : Fin 2048) (c : Fin 256) :
    idx_main_v2 (idx_main_v3 (ix4 b g s c)) = ix2 g c :=
  funext fun a => Fin.ext (by
    match a with
    | ⟨0, _⟩ => rfl
    | ⟨1, _⟩ => rfl)

/-! ## The specification's linear layer at a grouped feature -/

/-- Feature `256 g + 64 hh + d` is column `64 hh + d` of group `g`. -/
theorem lin_grpFeat (x0 : (⟨3, ![2, 2048, 1024]⟩ : Shape).Idx → EReal) (W : (⟨3, ![4, 256, 1024]⟩ : Shape).Idx → EReal)
    (v : (⟨2, ![4, 256]⟩ : Shape).Idx → EReal) (b : Fin 2) (g hh : Fin 4) (s : Fin 2048) (d : Fin 64) :
    Cert.Mha.lin (Cert.Mha.tok3 x0) (Cert.Mha.grp3 W) (Cert.Mha.grp2 v) b s (Cert.Mha.grpFeat g hh d)
      = (∑ h : Fin 1024, W (ix3 g (col hh d) h) * x0 (ix3 b s h)) + v (ix2 g (col hh d)) := by
  have hg := g.isLt; have hh' := hh.isLt; have hd := d.isLt
  have eg : ∀ p, (⟨(Cert.Mha.grpFeat g hh d).val / 256, p⟩ : Fin 4) = g := fun p =>
    Fin.ext (by show (256 * g.val + 64 * hh.val + d.val) / 256 = g.val; omega)
  have ec : ∀ p, (⟨(Cert.Mha.grpFeat g hh d).val % 256, p⟩ : Fin 256) = col hh d := fun p =>
    Fin.ext (by show (256 * g.val + 64 * hh.val + d.val) % 256 = 64 * hh.val + d.val; omega)
  simp only [Cert.Mha.lin, Cert.Mha.tok3, Cert.Mha.grp3, Cert.Mha.grp2, eg, ec]
  congr 1
  exact Finset.sum_congr rfl fun h _ => mul_comm _ _

/-! ## The three projections -/

/-- The query projection. -/
theorem proj_q (x0 : (⟨S2x2048x1024, .f32⟩ : BufTy).Contents (Elt Ideal)) (x1 : (⟨S4x256x1024, .f32⟩ : BufTy).Contents (Elt Ideal))
    (x2 : (⟨S4x256, .f32⟩ : BufTy).Contents (Elt Ideal)) :
    (val_main_v6 (F := Ideal) x0 x1 x2 : Cert.Mha.SH.Idx → EReal)
      = Cert.Mha.byHead (Cert.Mha.lin (Cert.Mha.tok3 x0) (Cert.Mha.grp3 x1) (Cert.Mha.grp2 x2)) := by
  funext i
  obtain ⟨b, g, hh, s, d, rfl⟩ : ∃ (b : Fin 2) (g : Fin 4) (hh : Fin 4) (s : Fin 2048) (d : Fin 64), i = ix5 b g hh s d :=
    ⟨i 0, i 1, i 2, i 3, i 4, eq_ix5 i⟩
  rw [val_main_v6_apply, val_main_v5_apply, val_main_v4_apply, val_main_v1_apply, val_main_v0_apply, val_main_v3_apply,
    val_main_v2_apply, swap_idx, split_idx, front_idx, bias_idx]
  simp only [weight_idx, token_idx, Ideal.addf_def]
  exact (lin_grpFeat x0 x1 x2 b g hh s d).symm

/-- The key projection: the same operations on the key weight and bias. -/
theorem proj_k (x0 : (⟨S2x2048x1024, .f32⟩ : BufTy).Contents (Elt Ideal)) (x3 : (⟨S4x256x1024, .f32⟩ : BufTy).Contents (Elt Ideal))
    (x4 : (⟨S4x256, .f32⟩ : BufTy).Contents (Elt Ideal)) :
    (val_main_v13 (F := Ideal) x0 x3 x4 : Cert.Mha.SH.Idx → EReal)
      = Cert.Mha.byHead (Cert.Mha.lin (Cert.Mha.tok3 x0) (Cert.Mha.grp3 x3) (Cert.Mha.grp2 x4)) :=
  proj_q x0 x3 x4

/-- The value projection: the same operations on the value weight and bias. -/
theorem proj_v (x0 : (⟨S2x2048x1024, .f32⟩ : BufTy).Contents (Elt Ideal)) (x5 : (⟨S4x256x1024, .f32⟩ : BufTy).Contents (Elt Ideal))
    (x6 : (⟨S4x256, .f32⟩ : BufTy).Contents (Elt Ideal)) :
    (val_main_v20 (F := Ideal) x0 x5 x6 : Cert.Mha.SH.Idx → EReal)
      = Cert.Mha.byHead (Cert.Mha.lin (Cert.Mha.tok3 x0) (Cert.Mha.grp3 x5) (Cert.Mha.grp2 x6)) :=
  proj_q x0 x5 x6

end Cert.ReferenceIdeal.RefValue

end
-- ==== Proof.Ref.Core.lean ====
import proofs.«412850_j50843822850162_3_alg».proof.Proof.Gen.ReferenceIdeal.Run
import proofs.«412850_j50843822850162_3_alg».proof.Proof.Gen.ReferenceIdeal.Read
import proofs.«412850_j50843822850162_3_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-- The feature at depth `d` of head `hh` of group `g` is feature `d` of that head among the 16. -/
theorem feat_hd4 (g hh : Fin 4) (d : Fin 64) : Cert.Mha.feat (Cert.Mha.hd4 g hh) d = Cert.Mha.grpFeat g hh d :=
  Fin.ext (by simp only [Cert.Mha.feat, Cert.Mha.grpFeat, Cert.Mha.hd4]; omega)

/-- The head a grouped feature belongs to. -/
theorem headOf_grpFeat (g hh : Fin 4) (d : Fin 64) : Cert.Mha.headOf (Cert.Mha.grpFeat g hh d) = Cert.Mha.hd4 g hh :=
  Fin.ext (by simp only [Cert.Mha.headOf, Cert.Mha.grpFeat, Cert.Mha.hd4]; omega)

/-- The scaled scores: the two projections contracted over a head's 64 depths, times one eighth. -/
theorem score_eq (x0 : (⟨S2x2048x1024, .f32⟩ : BufTy).Contents (Elt Ideal)) (x1 : (⟨S4x256x1024, .f32⟩ : BufTy).Contents (Elt Ideal))
    (x2 : (⟨S4x256, .f32⟩ : BufTy).Contents (Elt Ideal)) (x3 : (⟨S4x256x1024, .f32⟩ : BufTy).Contents (Elt Ideal))
    (x4 : (⟨S4x256, .f32⟩ : BufTy).Contents (Elt Ideal)) (Q K : Cert.Mha.Tok)
    (hq : (val_main_v6 (F := Ideal) x0 x1 x2 : Cert.Mha.SH.Idx → EReal) = Cert.Mha.byHead Q)
    (hk : (val_main_v13 (F := Ideal) x0 x3 x4 : Cert.Mha.SH.Idx → EReal) = Cert.Mha.byHead K) :
    (val_main_v23 (F := Ideal) x0 x1 x2 x3 x4 : S2x4x4x2048x2048.Idx → EReal)
      = fun i => Cert.Mha.score Q K (i 0) (Cert.Mha.hd4 (i 1) (i 2)) (i 3) (i 4) := by
  funext i
  obtain ⟨b, g, hh, s, t, rfl⟩ : ∃ (b : Fin 2) (g hh : Fin 4) (s t : Fin 2048), i = ix5 b g hh s t :=
    ⟨i 0, i 1, i 2, i 3, i 4, eq_ix5 i⟩
  rw [val_main_v23_apply, val_main_v21_apply, val_main_v22_apply, val_main_cst_apply, hq, hk]
  show (∑ d : Fin 64, Q b s (Cert.Mha.grpFeat g hh d) * K b t (Cert.Mha.grpFeat g hh d)) * Ideal.ofBits .f32 0x3E000000#32
    = Cert.Mha.score Q K b (Cert.Mha.hd4 g hh) s t
  unfold Cert.Mha.score Cert.Mha.scale
  simp only [feat_hd4]

/-- A fold of `max` is at least the value it starts from. -/
theorem le_fold_max_init {ι : Type} (S : Finset ι) (c : EReal) (f : ι → EReal) : c ≤ S.fold max c f :=
  (Finset.le_fold_max c).2 (Or.inl le_rfl)

/-- The row maxima: the fold of `max` from minus infinity over the 2048 key positions; the further `max` with minus
    infinity changes nothing. -/
theorem max_eq (x0 : (⟨S2x2048x1024, .f32⟩ : BufTy).Contents (Elt Ideal)) (x1 : (⟨S4x256x1024, .f32⟩ : BufTy).Contents (Elt Ideal))
    (x2 : (⟨S4x256, .f32⟩ : BufTy).Contents (Elt Ideal)) (x3 : (⟨S4x256x1024, .f32⟩ : BufTy).Contents (Elt Ideal))
    (x4 : (⟨S4x256, .f32⟩ : BufTy).Contents (Elt Ideal)) (Q K : Cert.Mha.Tok)
    (hq : (val_main_v6 (F := Ideal) x0 x1 x2 : Cert.Mha.SH.Idx → EReal) = Cert.Mha.byHead Q)
    (hk : (val_main_v13 (F := Ideal) x0 x3 x4 : Cert.Mha.SH.Idx → EReal) = Cert.Mha.byHead K) :
    (val_main_v26 (F := Ideal) x0 x1 x2 x3 x4 : S2x4x4x2048.Idx → EReal)
      = fun i => Cert.Mha.rowMax (Cert.Mha.score Q K) (i 0) (Cert.Mha.hd4 (i 1) (i 2)) (i 3) := by
  funext i
  obtain ⟨b, g, hh, s, rfl⟩ : ∃ (b : Fin 2) (g hh : Fin 4) (s : Fin 2048), i = ix4 b g hh s :=
    ⟨i 0, i 1, i 2, i 3, eq_ix4 i⟩
  have hred : S2x4x4x2048x2048.Reduces [4] S2x4x4x2048 := by decide
  rw [val_main_v26_apply, val_main_v25_apply, val_main_cst_1_apply]
  unfold val_main_v24
  rw [Host.reduce_eq_fold_single (FloatOps.maximumf (F := Ideal) (φ := .f32)) _ _ reducesTo_S2x4x4x2048x2048_S2x4x4x2048_d4 hred h_S_,
    score_eq x0 x1 x2 x3 x4 Q K hq hk, val_main_cst_0_apply]
  show max Cert.Mha.floor0 ((Finset.univ : Finset (Fin 2048)).fold max Cert.Mha.floor0
      (fun t => Cert.Mha.score Q K b (Cert.Mha.hd4 g hh) s t)) = Cert.Mha.rowMax (Cert.Mha.score Q K) b (Cert.Mha.hd4 g hh) s
  exact max_eq_right (le_fold_max_init _ _ _)

/-- The exponentials of the scores less their row maxima. -/
theorem wexp_eq (x0 : (⟨S2x2048x1024, .f32⟩ : BufTy).Contents (Elt Ideal)) (x1 : (⟨S4x256x1024, .f32⟩ : BufTy).Contents (Elt Ideal))
    (x2 : (⟨S4x256, .f32⟩ : BufTy).Contents (Elt Ideal)) (x3 : (⟨S4x256x1024, .f32⟩ : BufTy).Contents (Elt Ideal))
    (x4 : (⟨S4x256, .f32⟩ : BufTy).Contents (Elt Ideal)) (Q K : Cert.Mha.Tok)
    (hq : (val_main_v6 (F := Ideal) x0 x1 x2 : Cert.Mha.SH.Idx → EReal) = Cert.Mha.byHead Q)
    (hk : (val_main_v13 (F := Ideal) x0 x3 x4 : Cert.Mha.SH.Idx → EReal) = Cert.Mha.byHead K) :
    (val_main_v30 (F := Ideal) x0 x1 x2 x3 x4 : S2x4x4x2048x2048.Idx → EReal)
      = fun i => Cert.Mha.wexp (Cert.Mha.score Q K) (i 0) (Cert.Mha.hd4 (i 1) (i 2)) (i 3) (i 4) := by
  funext i
  obtain ⟨b, g, hh, s, t, rfl⟩ : ∃ (b : Fin 2) (g hh : Fin 4) (s t : Fin 2048), i = ix5 b g hh s t :=
    ⟨i 0, i 1, i 2, i 3, i 4, eq_ix5 i⟩
  rw [val_main_v30_apply, val_main_v29_apply, val_main_v28_apply, val_main_v27_apply,
    max_eq x0 x1 x2 x3 x4 Q K hq hk, score_eq x0 x1 x2 x3 x4 Q K hq hk]
  rfl

/-- The softmax weights: each exponential over its row's sum, the sum taken from zero. -/
theorem attn_eq (x0 : (⟨S2x2048x1024, .f32⟩ : BufTy).Contents (Elt Ideal)) (x1 : (⟨S4x256x1024, .f32⟩ : BufTy).Contents (Elt Ideal))
    (x2 : (⟨S4x256, .f32⟩ : BufTy).Contents (Elt Ideal)) (x3 : (⟨S4x256x1024, .f32⟩ : BufTy).Contents (Elt Ideal))
    (x4 : (⟨S4x256, .f32⟩ : BufTy).Contents (Elt Ideal)) (Q K : Cert.Mha.Tok)
    (hq : (val_main_v6 (F := Ideal) x0 x1 x2 : Cert.Mha.SH.Idx → EReal) = Cert.Mha.byHead Q)
    (hk : (val_main_v13 (F := Ideal) x0 x3 x4 : Cert.Mha.SH.Idx → EReal) = Cert.Mha.byHead K) :
    (val_main_v34 (F := Ideal) x0 x1 x2 x3 x4 : S2x4x4x2048x2048.Idx → EReal)
      = fun i => Cert.Mha.attn (Cert.Mha.score Q K) (i 0) (Cert.Mha.hd4 (i 1) (i 2)) (i 3) (i 4) := by
  funext i
  obtain ⟨b, g, hh, s, t, rfl⟩ : ∃ (b : Fin 2) (g hh : Fin 4) (s t : Fin 2048), i = ix5 b g hh s t :=
    ⟨i 0, i 1, i 2, i 3, i 4, eq_ix5 i⟩
  rw [val_main_v34_apply, val_main_v33_apply, val_main_v32_apply, val_main_v31_apply, val_main_cst_2_apply,
    wexp_eq x0 x1 x2 x3 x4 Q K hq hk]
  show Ideal.div (Cert.Mha.wexp (Cert.Mha.score Q K) b (Cert.Mha.hd4 g hh) s t)
      (Ideal.ofBits .f32 0x00000000#32 + ∑ u : Fin 2048, Cert.Mha.wexp (Cert.Mha.score Q K) b (Cert.Mha.hd4 g hh) s u)
    = Cert.Mha.attn (Cert.Mha.score Q K) b (Cert.Mha.hd4 g hh) s t
  rw [Ideal.ofBits_zero_f32, zero_add]
  rfl

end Cert.ReferenceIdeal.RefValue

end
-- ==== Proof.Ref.Tail.lean ====
/-
  The reference's last stages are the specification's context and output projection, given the softmax weights.

  With the weights `A[b, 4 g + hh, s, t]` laid out by group and head and the values `V[b, t, j]` laid out likewise,
  entry `(b, g, hh, s, d)` of their product over the key position `t` is the context at feature `256 g + 64 hh + d`.
  Bringing the position axis to the front and merging `(g, hh, d)` into one feature axis reads feature `j` at
  `(j / 256, j % 256 / 64, j % 64)`, which names `j` again and whose head `4 (j / 256) + j % 256 / 64` is `j / 64`.
  The output projection then contracts the features against a row of `Wo` and adds `bo`.
-/
import proofs.«412850_j50843822850162_3_alg».proof.Proof.Gen.ReferenceIdeal.Run
import proofs.«412850_j50843822850162_3_alg».proof.Proof.Gen.ReferenceIdeal.Read
import proofs.«412850_j50843822850162_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The group of a feature. -/
def tail_grp (j : Fin 1024) : Fin 4 := ⟨j.val / 256, by have := j.isLt; omega⟩
/-- The head, within its group, of a feature. -/
def tail_hd (j : Fin 1024) : Fin 4 := ⟨j.val % 256 / 64, by have := j.isLt; omega⟩
/-- The depth, within its head, of a feature. -/
def tail_dep (j : Fin 1024) : Fin 64 := ⟨j.val % 64, by have := j.isLt; omega⟩

/-- Group, head and depth name the feature. -/
theorem tail_grpFeat (j : Fin 1024) : Cert.Mha.grpFeat (tail_grp j) (tail_hd j) (tail_dep j) = j :=
  Fin.ext (by
    have := j.isLt
    show 256 * (j.val / 256) + 64 * (j.val % 256 / 64) + j.val % 64 = j.val
    omega)

/-- Head `hh` of group `g` is the feature's head among the 16. -/
theorem tail_hd4 (j : Fin 1024) : Cert.Mha.hd4 (tail_grp j) (tail_hd j) = Cert.Mha.headOf j :=
  Fin.ext (by
    have := j.isLt
    show 4 * (j.val / 256) + j.val % 256 / 64 = j.val / 64
    omega)

/-! ## The layout operations' index maps, by coordinates -/

/-- Merging group, head and depth into one feature axis reads feature `j` at its group, head and depth. -/
theorem tail_merge_idx (b : Fin 2) (s : Fin 2048) (j : Fin 1024) :
    idx_main_v37 (ix3 b s j) = ix5 b s (tail_grp j) (tail_hd j) (tail_dep j) := by
  have hb := b.isLt; have hs := s.isLt; have hj := j.isLt
  exact funext fun a => Fin.ext (by
    match a with
    | ⟨0, _⟩ =>
      show ((b.val * 2048 + s.val) * 1024 + j.val) / 2097152 = b.val
      omega
    | ⟨1, _⟩ =>
      show ((b.val * 2048 + s.val) * 1024 + j.val) / 1024 % 2048 = s.val
      omega
    | ⟨2, _⟩ =>
      show ((b.val * 2048 + s.val) * 1024 + j.val) / 256 % 4 = j.val / 256
      omega
    | ⟨3, _⟩ =>
      show ((b.val * 2048 + s.val) * 1024 + j.val) / 64 % 4 = j.val % 256 / 64
      omega
    | ⟨4, _⟩ =>
      show ((b.val * 2048 + s.val) * 1024 + j.val) % 64 = j.val % 64
      omega)

/-- Bringing the position axis to the front reads `(b, g, hh, s, d)`. -/
theorem tail_front_idx (b : Fin 2) (s : Fin 2048) (g hh : Fin 4) (d : Fin 64) :
    idx_main_v36 (ix5 b s g hh d) = ix5 b g hh s d :=
  funext fun a => Fin.ext (by
    match a with
    | ⟨0, _⟩ => rfl
    | ⟨1, _⟩ => rfl
    | ⟨2, _⟩ => rfl
    | ⟨3, _⟩ => rfl
    | ⟨4, _⟩ => rfl)

/-- The product over the key position reads weight `(b, g, hh, s, t)` … -/
theorem tail_weight_idx (b : Fin 2) (g hh : Fin 4) (s : Fin 2048) (d : Fin 64) (t : Fin 2048) :
    lidx_main_v35 (ix5 b g hh s d) t = ix5 b g hh s t :=
  funext fun a => Fin.ext (by
    match a with
    | ⟨0, _⟩ => rfl
    | ⟨1, _⟩ => rfl
    | ⟨2, _⟩ => rfl
    | ⟨3, _⟩ => rfl
    | ⟨4, _⟩ => rfl)

/-- … against value `(b, g, hh, t, d)`. -/
theorem tail_value_idx (b : Fin 2) (g hh : Fin 4) (s : Fin 2048) (d : Fin 64) (t : Fin 2048) :
    ridx_main_v35 (ix5 b g hh s d) t = ix5 b g hh t d :=
  funext fun a => Fin.ext (by
    match a with
    | ⟨0, _⟩ => rfl
    | ⟨1, _⟩ => rfl
    | ⟨2, _⟩ => rfl
    | ⟨3, _⟩ => rfl
    | ⟨4, _⟩ => rfl)

/-- The output projection reads feature `h` of token `(b, s)` … -/
theorem tail_ctx_idx (b : Fin 2) (s : Fin 2048) (o h : Fin 1024) :
    lidx_main_v38 (ix3 b s o) h = ix3 b s h :=
  funext fun a => Fin.ext (by
    match a with
    | ⟨0, _⟩ => rfl
    | ⟨1, _⟩ => rfl
    | ⟨2, _⟩ => rfl)

/-- … against entry `(o, h)` of the output weight. -/
theorem tail_wo_idx (b : Fin 2) (s : Fin 2048) (o h : Fin 1024) :
    ridx_main_v38 (ix3 b s o) h = ix2 o h :=
  funext fun a => Fin.ext (by
    match a with
    | ⟨0, _⟩ => rfl
    | ⟨1, _⟩ => rfl)

/-- The output bias, broadcast over batch and position, reads entry `o`. -/
theorem tail_bo_idx (b : Fin 2) (s : Fin 2048) (o : Fin 1024) :
    idx_main_v39 (idx_main_v40 (ix3 b s o)) = ix1 o :=
  funext fun a => Fin.ext (by
    match a with
    | ⟨0, _⟩ => rfl)

/-! ## The context, then the output projection -/

/-- The merged product of the weights and the values is the context, feature by feature. -/
theorem tail_ctx (x0 : (⟨S2x2048x1024, .f32⟩ : BufTy).Contents (Elt Ideal)) (x1 : (⟨S4x256x1024, .f32⟩ : BufTy).Contents (Elt Ideal))
    (x2 : (⟨S4x256, .f32⟩ : BufTy).Contents (Elt Ideal)) (x3 : (⟨S4x256x1024, .f32⟩ : BufTy).Contents (Elt Ideal))
    (x4 : (⟨S4x256, .f32⟩ : BufTy).Contents (Elt Ideal)) (x5 : (⟨S4x256x1024, .f32⟩ : BufTy).Contents (Elt Ideal))
    (x6 : (⟨S4x256, .f32⟩ : BufTy).Contents (Elt Ideal))
    (A : Cert.Mha.Sq) (Vv : Cert.Mha.Tok)
    (ha : (val_main_v34 (F := Ideal) x0 x1 x2 x3 x4 : S2x4x4x2048x2048.Idx → EReal)
      = fun i => A (i 0) (Cert.Mha.hd4 (i 1) (i 2)) (i 3) (i 4))
    (hv : (val_main_v20 (F := Ideal) x0 x5 x6 : Cert.Mha.SH.Idx → EReal) = Cert.Mha.byHead Vv)
    (b : Fin 2) (s : Fin 2048) (j : Fin 1024) :
    val_main_v37 (F := Ideal) x0 x1 x2 x3 x4 x5 x6 (ix3 b s j) = Cert.Mha.ctxf A Vv b s j := by
  rw [val_main_v37_apply, val_main_v36_apply, val_main_v35_apply, tail_merge_idx, tail_front_idx, ha, hv]
  simp only [tail_weight_idx, tail_value_idx]
  show ∑ t : Fin 2048, A b (Cert.Mha.hd4 (tail_grp j) (tail_hd j)) s t
      * Vv b t (Cert.Mha.grpFeat (tail_grp j) (tail_hd j) (tail_dep j))
    = ∑ t : Fin 2048, A b (Cert.Mha.headOf j) s t * Vv b t j
  rw [tail_hd4, tail_grpFeat]

/-- The reference's result is the output projection of the context. -/
theorem tail_eq (x0 : (⟨S2x2048x1024, .f32⟩ : BufTy).Contents (Elt Ideal)) (x1 : (⟨S4x256x1024, .f32⟩ : BufTy).Contents (Elt Ideal))
    (x2 : (⟨S4x256, .f32⟩ : BufTy).Contents (Elt Ideal)) (x3 : (⟨S4x256x1024, .f32⟩ : BufTy).Contents (Elt Ideal))
    (x4 : (⟨S4x256, .f32⟩ : BufTy).Contents (Elt Ideal)) (x5 : (⟨S4x256x1024, .f32⟩ : BufTy).Contents (Elt Ideal))
    (x6 : (⟨S4x256, .f32⟩ : BufTy).Contents (Elt Ideal))
    (x7 : (⟨S1024x1024, .f32⟩ : BufTy).Contents (Elt Ideal)) (x8 : (⟨S1024, .f32⟩ : BufTy).Contents (Elt Ideal))
    (A : Cert.Mha.Sq) (Vv : Cert.Mha.Tok)
    (ha : (val_main_v34 (F := Ideal) x0 x1 x2 x3 x4 : S2x4x4x2048x2048.Idx → EReal)
      = fun i => A (i 0) (Cert.Mha.hd4 (i 1) (i 2)) (i 3) (i 4))
    (hv : (val_main_v20 (F := Ideal) x0 x5 x6 : Cert.Mha.SH.Idx → EReal) = Cert.Mha.byHead Vv) :
    (val_main_v41 (F := Ideal) x0 x1 x2 x3 x4 x5 x6 x7 x8 : (⟨3, ![2, 2048, 1024]⟩ : Shape).Idx → EReal)
      = fun i => Cert.Mha.lin (Cert.Mha.ctxf A Vv) (Cert.Mha.mat2 x7) (Cert.Mha.vec1 x8) (i 0) (i 1) (i 2) := by
  funext i
  obtain ⟨b, s, o, rfl⟩ : ∃ (b : Fin 2) (s : Fin 2048) (o : Fin 1024), i = ix3 b s o := ⟨i 0, i 1, i 2, eq_ix3 i⟩
  rw [val_main_v41_apply, val_main_v38_apply, val_main_v40_apply, val_main_v39_apply, tail_bo_idx]
  simp only [tail_ctx_idx, tail_wo_idx, tail_ctx x0 x1 x2 x3 x4 x5 x6 A Vv ha hv, Ideal.addf_def]
  rfl

end Cert.ReferenceIdeal.RefValue

end
-- ==== Proof.Ref.Value.lean ====
/-
  The reference's result, index by index, is the attention layer of `Spec.lean` applied to the argument arrays:
  the three projections laid out by group and head, the scores and their row softmax, the context with its heads
  merged back into 1024 features, and the output projection.
-/
import proofs.«412850_j50843822850162_3_alg».proof.Proof.Gen.ReferenceIdeal.Run
import proofs.«412850_j50843822850162_3_alg».proof.Proof.Gen.ReferenceIdeal.Read
import proofs.«412850_j50843822850162_3_alg».proof.Proof.Spec
import proofs.«412850_j50843822850162_3_alg».proof.Proof.Ref.Proj
import proofs.«412850_j50843822850162_3_alg».proof.Proof.Ref.Core
import proofs.«412850_j50843822850162_3_alg».proof.Proof.Ref.Tail

noncomputable section

namespace Cert.ReferenceIdeal.RefValue

open Cert.ReferenceIdeal Cert.ReferenceIdeal.Gen Cert.ReferenceIdeal.Read Idealize.ShloMosaic Idealize.ShloMosaic.TcCoe Idealize.SL.Sem

/-- The reference's result on core `c`, from the launch memory, is the layer of the argument arrays. -/
theorem reference_value (m : (ℓ : Loc nD τ sig) → Buf (Elt Ideal) ℓ) (c : Dev nD) :
    (Cert.ReferenceIdeal.Value.res_main_v41 (F := Ideal) m c : (⟨3, ![2, 2048, 1024]⟩ : Shape).Idx → EReal)
      = fun i => Cert.Mha.mha
          (Cert.Mha.tok3 (m ((c.tc : Thread nD τ).loc main_arg0)))
          (Cert.Mha.grp3 (m ((c.tc : Thread nD τ).loc main_arg1))) (Cert.Mha.grp2 (m ((c.tc : Thread nD τ).loc main_arg2)))
          (Cert.Mha.grp3 (m ((c.tc : Thread nD τ).loc main_arg3))) (Cert.Mha.grp2 (m ((c.tc : Thread nD τ).loc main_arg4)))
          (Cert.Mha.grp3 (m ((c.tc : Thread nD τ).loc main_arg5))) (Cert.Mha.grp2 (m ((c.tc : Thread nD τ).loc main_arg6)))
          (Cert.Mha.mat2 (m ((c.tc : Thread nD τ).loc main_arg7))) (Cert.Mha.vec1 (m ((c.tc : Thread nD τ).loc main_arg8)))
          (i 0) (i 1) (i 2) := by
  rw [val_main_v41_eq]
  exact tail_eq _ _ _ _ _ _ _ _ _ _ _
    (attn_eq _ _ _ _ _ _ _ (proj_q _ _ _) (proj_k _ _ _))
    (proj_v _ _ _)

end Cert.ReferenceIdeal.RefValue

end
-- ==== Proof.lean ====
/-
  Multi-head self-attention (2 batches of 2048 tokens, 1024 features, 16 heads of 64) as three grid kernels — the q, k
  and v projections from one fused [3072, 1024] weight, written packed two heads to 128 lanes; per head pair the scaled
  scores, their row softmax and its product with the values; the output projection of the packed context — against
  the same layer written with grouped einsums, a five-axis head layout and `jax.nn.softmax`.

  On the extended reals both compute, at token (b, s) and output feature o,
      (∑ j, ctx b s j · Wo o j) + bo o,      ctx b s j = ∑ t, softmax_t (q_head(j) · k_head(j) / 8) · v b t j,
  with q, k, v the rows of the flattened weights applied to the token plus their biases: the three index spellings
  of a feature (lane of a head pair, column of a group, depth of a head) name one `j`, a change of float format is
  the identity, every sum is over the same finite index set, and the one law used is that a product commutes.
  No finiteness is needed, so the precondition is never opened.

  The frames: each program runs to the end, faults nowhere and leaves its arguments as launched — the two kernel
  programs by the run of their three regions (each body loads its blocks whole, computes, and stores through
  rectangles that tile the output block), the reference by its host operations' run.
-/
import proofs.«412850_j50843822850162_3_alg».proof.Defs
import proofs.«412850_j50843822850162_3_alg».proof.Proof.Gen.Kernel
import proofs.«412850_j50843822850162_3_alg».proof.Proof.Gen.KernelIdeal
import proofs.«412850_j50843822850162_3_alg».proof.Proof.Gen.ReferenceIdeal
import proofs.«412850_j50843822850162_3_alg».proof.Proof.Gen.Pre_finite_inputs
import proofs.«412850_j50843822850162_3_alg».proof.Proof.KB.Run
import proofs.«412850_j50843822850162_3_alg».proof.Proof.KI.Run
import proofs.«412850_j50843822850162_3_alg».proof.Proof.Bridge
import proofs.«412850_j50843822850162_3_alg».proof.Proof.Ref.Value
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Pipe.frame m ρ

/-- So does its reading on the extended reals. -/
theorem frame_ki : Cert.frame_KernelIdeal := fun m ρ _ => Cert.KernelIdeal.Pipe.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the attention layer of the arguments. -/
theorem algebraic : Cert.algebraic_KernelIdeal_ReferenceIdeal := by
  intro m ρ m' ρ' _ hagree
  refine ⟨fun c => (Cert.KernelIdeal.Pipe.dat2 (F := Ideal) (Cert.KernelIdeal.Pipe.V3 m ρ) c).arrAt 3 Cert.KernelIdeal.cfg2.N,
    Cert.KernelIdeal.Pipe.run_result m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.reference_value m' c).trans ?_
  refine Eq.trans ?_ (Cert.KernelIdeal.Whole.kernel_value m ρ c).symm
  obtain ⟨h0, h1, h2, h3, h4, h5, h6, h7, h8⟩ := hagree c
  rw [h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
